-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x256 : Shape := ⟨2, ![12288, 256]⟩
abbrev S12288x12288 : Shape := ⟨2, ![12288, 12288]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S12288x256 : S_.BroadcastsInDim S12288x256 (![] : Fin 0 → Fin S12288x256.rank)
  reducesTo_S12288x256_S_d0_1 : S12288x256.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v50 : IVec S12288x12288 1) : IVec S_ 1 :=
  let main_c_19 : IVec S_ 1 := constantI S_ 1 1#1
  let main_v51 : IVec S_ 1 := (fun x v => Host.reduce IntOp.andi x v reducesTo_S12288x12288_S_d0_1 h_S_) main_v50 main_c_19
  let main_v52 : IVec S_ 1 := andi main_v48 main_v51
  main_v52

def fn_part2 {F : FTy → Type} [FloatOps F] (main_arg1 : FVec F S12288x12288 .f32) (main_arg7 : FVec F S64 .f32) (main_arg8 : FVec F S64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_cst_18 : FVec F S_ .f32 := constant S_ .f32 0x00000000#32
  let main_v49 : FVec F S12288x12288 .f32 := broadcastInDim S12288x12288 ![] bcast_S_S12288x12288 main_cst_18
  let main_v50 : IVec S12288x12288 1 := cmpf .oge main_arg1 main_v49
  fn_part3 (F := F) main_v48 main_v50

def fn_part1 {F : FTy → Type} [FloatOps F] (main_arg1 : FVec F S12288x12288 .f32) (main_arg4 : FVec F S128 .f32) (main_arg5 : FVec F S128 .f32) (main_arg6 : FVec F S128x64 .f32) (main_arg7 : FVec F S64 .f32) (main_arg8 : FVec F S64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg7 main_arg8 main_arg9 main_v33

def fn {F : FTy → Type} [FloatOps F] (main_arg0 : FVec F S12288x256 .f32) (main_arg1 : FVec F S12288x12288 .f32) (main_arg2 : FVec F S256x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) : IVec S_ 1 :=
  let main_v0 : FVec F S12288x256 .f32 := Host.absf main_arg0
  let main_cst : FVec F S_ .f32 := constant S_ .f32 0x7F800000#32
  let main_v1 : FVec F S12288x256 .f32 := broadcastInDim S12288x256 ![] bcast_S_S12288x256 main_cst
  let main_v2 : IVec S12288x256 1 := cmpf .olt main_v0 main_v1
  let main_c : IVec S_ 1 := constantI S_ 1 1#1
  let main_v3 : IVec S_ 1 := (fun x v => Host.reduce IntOp.andi x v reducesTo_S12288x256_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_arg6 main_arg7 main_arg8 main_arg9 main_v13 main_v16
-- ==== Kernel.lean ====
abbrev S12288x256 : Shape := ⟨2, ![12288, 256]⟩
abbrev S12288x12288 : Shape := ⟨2, ![12288, 12288]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x12288 : Shape := ⟨2, ![1, 12288]⟩
abbrev S256x6144 : Shape := ⟨2, ![256, 6144]⟩
abbrev S1x6144 : Shape := ⟨2, ![1, 6144]⟩
abbrev S6144 : Shape := ⟨1, ![6144]⟩
abbrev S_ : Shape := ⟨0, ![]⟩
abbrev S12288x1 : Shape := ⟨2, ![12288, 1]⟩
abbrev S12288x128 : Shape := ⟨2, ![12288, 128]⟩
abbrev S1536x1536 : Shape := ⟨2, ![1536, 1536]⟩
abbrev S1536x128 : Shape := ⟨2, ![1536, 128]⟩
abbrev S1x128 : Shape := ⟨2, ![1, 128]⟩
abbrev S12288x64 : Shape := ⟨2, ![12288, 64]⟩
abbrev S1536x64 : Shape := ⟨2, ![1536, 64]⟩
abbrev S1x64 : Shape := ⟨2, ![1, 64]⟩

abbrev nBuf : Space → Nat
  | .hbm => 128
  | .vmem => 18
  | .smem => 0
  | _ => 0

abbrev bufTy : (tb : Table) → Fin (tcTables nBuf tb) → BufTy
  | .hbm, ⟨0, _⟩ => ⟨S12288x256, .f32⟩
  | .hbm, ⟨1, _⟩ => ⟨S12288x12288, .f32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x12288, .f32⟩
  | .hbm, ⟨11, _⟩ => ⟨S12288x12288, .bf16⟩
  | .hbm, ⟨12, _⟩ => ⟨S_, .f32⟩
  | .hbm, ⟨13, _⟩ => ⟨S1x12288, .f32⟩
  | .hbm, ⟨14, _⟩ => ⟨S1x12288, .f32⟩
  | .hbm, ⟨15, _⟩ => ⟨S1x12288, .f32⟩
  | .hbm, ⟨16, _⟩ => ⟨S12288x1, .f32⟩
  | .hbm, ⟨17, _⟩ => ⟨S12288x128, .f32⟩
  | .hbm, ⟨18, _⟩ => ⟨S12288x128, .f32⟩
  | .hbm, ⟨19, _⟩ => ⟨S12288x128, .f32⟩
  | .hbm, ⟨20, _⟩ => ⟨S12288x128, .f32⟩
  | .hbm, ⟨21, _⟩ => ⟨S12288x128, .f32⟩
  | .hbm, ⟨22, _⟩ => ⟨S12288x128, .f32⟩
  | .hbm, ⟨23, _⟩ => ⟨S12288x128, .f32⟩
  | .hbm, ⟨24, _⟩ => ⟨S1x128, .f32⟩
  | .hbm, ⟨25, _⟩ => ⟨S12288x128, .f32⟩
  | .hbm, ⟨26, _⟩ => ⟨S12288x128, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S12288x128, .f32⟩
  | .hbm, ⟨40, _⟩ => ⟨S12288x128, .f32⟩
  | .hbm, ⟨41, _⟩ => ⟨S12288x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S12288x128, .f32⟩
  | .hbm, ⟨57, _⟩ => ⟨S12288x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S12288x128, .f32⟩
  | .hbm, ⟨64, _⟩ => ⟨S12288x128, .f32⟩
  | .hbm, ⟨65, _⟩ => ⟨S1x128, .f32⟩
  | .hbm, ⟨66, _⟩ => ⟨S12288x128, .f32⟩
  | .hbm, ⟨67, _⟩ => ⟨S12288x128, .f32⟩
  | .hbm, ⟨68, _⟩ => ⟨S1x128, .f32⟩
  | .hbm, ⟨69, _⟩ => ⟨S12288x128, .f32⟩
  | .hbm, ⟨70, _⟩ => ⟨S12288x128, .f32⟩
  | .hbm, ⟨71, _⟩ => ⟨S_, .f32⟩
  | .hbm, ⟨72, _⟩ => ⟨S12288x128, .f32⟩
  | .hbm, ⟨73, _⟩ => ⟨S12288x128, .f32⟩
  | .hbm, ⟨74, _⟩ => ⟨S12288x64, .f32⟩
  | .hbm, ⟨75, _⟩ => ⟨S12288x64, .f32⟩
  | .hbm, ⟨76, _⟩ => ⟨S12288x64, .f32⟩
  | .hbm, ⟨77, _⟩ => ⟨S12288x64, .f32⟩
  | .hbm, ⟨78, _⟩ => ⟨S12288x64, .f32⟩
  | .hbm, ⟨79, _⟩ => ⟨S12288x64, .f32⟩
  | .hbm, ⟨80, _⟩ => ⟨S12288x64, .f32⟩
  | .hbm, ⟨81, _⟩ => ⟨S1x64, .f32⟩
  | .hbm, ⟨82, _⟩ => ⟨S12288x64, .f32⟩
  | .hbm, ⟨83, _⟩ => ⟨S12288x64, .f32⟩
  | .hbm, ⟨84, _⟩ => ⟨S_, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S_, .i32⟩
  | .hbm, ⟨90, _⟩ => ⟨S_, .f32⟩
  | .hbm, ⟨91, _⟩ => ⟨S64, .f32⟩
  | .hbm, ⟨92, _⟩ => ⟨S1x64, .f32⟩
  | .hbm, ⟨93, _⟩ => ⟨S_, .f32⟩
  | .hbm, ⟨94, _⟩ => ⟨S1x64, .f32⟩
  | .hbm, ⟨95, _⟩ => ⟨S1x64, .f32⟩
  | .hbm, ⟨96, _⟩ => ⟨S12288x64, .f32⟩
  | .hbm, ⟨97, _⟩ => ⟨S12288x64, .f32⟩
  | .hbm, ⟨98, _⟩ => ⟨S12288x64, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S_, .f32⟩
  | .hbm, ⟨107, _⟩ => ⟨S_, .i1⟩
  | .hbm, ⟨108, _⟩ => ⟨S_, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S1x64, .f32⟩
  | .hbm, ⟨113, _⟩ => ⟨S12288x64, .f32⟩
  | .hbm, ⟨114, _⟩ => ⟨S12288x64, .f32⟩
  | .hbm, ⟨115, _⟩ => ⟨S_, .f32⟩
  | .hbm, ⟨116, _⟩ => ⟨S64, .f32⟩
  | .hbm, ⟨117, _⟩ => ⟨S64, .f32⟩
  | .hbm, ⟨118, _⟩ => ⟨S64, .f32⟩
  | .hbm, ⟨119, _⟩ => ⟨S1x64, .f32⟩
  | .hbm, ⟨120, _⟩ => ⟨S12288x64, .f32⟩
  | .hbm, ⟨121, _⟩ => ⟨S12288x64, .f32⟩
  | .hbm, ⟨122, _⟩ => ⟨S1x64, .f32⟩
  | .hbm, ⟨123, _⟩ => ⟨S12288x64, .f32⟩
  | .hbm, ⟨124, _⟩ => ⟨S12288x64, .f32⟩
  | .hbm, ⟨125, _⟩ => ⟨S1x64, .f32⟩
  | .hbm, ⟨126, _⟩ => ⟨S12288x64, .f32⟩
  | .hbm, ⟨127, _⟩ => ⟨S12288x64, .f32⟩
  | .local _ .vmem, ⟨0, _⟩ => ⟨S256x6144, .f32⟩
  | .local _ .vmem, ⟨1, _⟩ => ⟨S256x6144, .f32⟩
  | .local _ .vmem, ⟨2, _⟩ => ⟨S1x6144, .f32⟩
  | .local _ .vmem, ⟨3, _⟩ => ⟨S1x6144, .f32⟩
  | .local _ .vmem, ⟨4, _⟩ => ⟨S256x6144, .bf16⟩
  | .local _ .vmem, ⟨5, _⟩ => ⟨S256x6144, .bf16⟩
  | .local _ .vmem, ⟨6, _⟩ => ⟨S1536x1536, .bf16⟩
  | .local _ .vmem, ⟨7, _⟩ => ⟨S1536x1536, .bf16⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x1536, .bf16⟩
  | .local _ .vmem, ⟨13, _⟩ => ⟨S1536x1536, .bf16⟩
  | .local _ .vmem, ⟨14, _⟩ => ⟨S1536x64, .f32⟩
  | .local _ .vmem, ⟨15, _⟩ => ⟨S1536x64, .f32⟩
  | .local _ .vmem, ⟨16, _⟩ => ⟨S1536x64, .f32⟩
  | .local _ .vmem, ⟨17, _⟩ => ⟨S1536x64, .f32⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call1_cst : Ref sig .tc := ⟨.hbm, 71, rfl⟩
abbrev main_call1_v0 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_3 : Ref sig .tc := ⟨.hbm, 84, rfl⟩
abbrev main_v45 : Ref sig .tc := ⟨.hbm, 85, rfl⟩
abbrev main_cst_4 : Ref sig .tc := ⟨.hbm, 86, rfl⟩
abbrev main_v46 : Ref sig .tc := ⟨.hbm, 87, rfl⟩
abbrev main_v47 : Ref sig .tc := ⟨.hbm, 88, rfl⟩
abbrev main_c_5 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_cst_1 : Ref sig .tc := ⟨.hbm, 100, rfl⟩
abbrev main_call2_v8 : Ref sig .tc := ⟨.hbm, 101, rfl⟩
abbrev main_call2_cst_2 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_cst_3 : Ref sig .tc := ⟨.hbm, 106, rfl⟩
abbrev main_call2_v12 : Ref sig .tc := ⟨.hbm, 107, rfl⟩
abbrev main_call2_cst_4 : Ref sig .tc := ⟨.hbm, 108, rfl⟩
abbrev main_call2_call0_v0 : Ref sig .tc := ⟨.hbm, 109, rfl⟩
abbrev main_call2_call0_v1 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_cst_6 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1536x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1536x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1536x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1536x1536 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1536x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1536x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1x6144_S1x6144_0_0 : ∀ a, (![0, 0] : Fin 2 → Nat) a + S1x6144.size a ≤ S1x6144.size a
  h_S1x6144 : 0 < S1x6144.numel
  inb_S256x6144_S256x6144_0_0 : ∀ a, (![0, 0] : Fin 2 → Nat) a + S256x6144.size a ≤ S256x6144.size a
  h_S256x6144 : 0 < S256x6144.numel
  shapeCasts_S1x6144_S1x6144 : S1x6144.ShapeCasts S1x6144
  reduces_S256x6144_S6144 : S256x6144.Reduces [0] S6144
  shapeCasts_S6144_S1x6144 : S6144.ShapeCasts S1x6144
  bitsLt_bf16_f32 : FTy.bits .bf16 < FTy.bits .f32
  packedbf16_S256x6144_S256x6144_0_0 : (Rect.unit (s := S256x6144) ![0, 0] S256x6144.size inb_S256x6144_S256x6144_0_0).PackedRows (EltTy.packing .bf16)
  bcast_S_S1x12288 : S_.BroadcastsInDim S1x12288 (![] : Fin 0 → Fin S1x12288.rank)
  transposes_S1x12288_S12288x1_1_0 : S1x12288.Transposes [1, 0] S12288x1
  bcast_S12288x1_S12288x128_0_1 : S12288x1.BroadcastsInDim S12288x128 (![0, 1] : Fin 2 → Fin S12288x128.rank)
  inb_S1536x128_S1536x128_0_0 : ∀ a, (![0, 0] : Fin 2 → Nat) a + S1536x128.size a ≤ S1536x128.size a
  h_S1536x128 : 0 < S1536x128.numel
  inb_S1536x1536_S1536x1536_0_0 : ∀ a, (![0, 0] : Fin 2 → Nat) a + S1536x1536.size a ≤ S1536x1536.size a
  h_S1536x1536 : 0 < S1536x1536.numel
  shapeCasts_S1536x1536_S1536x1536 : S1536x1536.ShapeCasts S1536x1536
  shapeCasts_S1536x128_S1536x128 : S1536x128.ShapeCasts S1536x128
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  reducesTo_S12288x128_S128_d0 : S12288x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S12288x128 : S_.BroadcastsInDim S12288x128 (![] : Fin 0 → Fin S12288x128.rank)
  bcast_S12288x1_S12288x64_0_1 : S12288x1.BroadcastsInDim S12288x64 (![0, 1] : Fin 2 → Fin S12288x64.rank)
  inb_S1536x64_S1536x64_0_0 : ∀ a, (![0, 0] : Fin 2 → Nat) a + S1536x64.size a ≤ S1536x64.size a
  h_S1536x64 : 0 < S1536x64.numel
  shapeCasts_S1536x64_S1536x64 : S1536x64.ShapeCasts S1536x64
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  reducesTo_S12288x64_S64_d0 : S12288x64.ReducesTo [0] S64
  bcast_S_S64 : S_.BroadcastsInDim S64 (![] : Fin 0 → Fin S64.rank)
  bcast_S_S1x64 : S_.BroadcastsInDim S1x64 (![] : Fin 0 → Fin S1x64.rank)
  dot_S12288x256_S256x128_S12288x128_1_0_0_1_n_n_wf : DotDims.WF S12288x256 S256x128 S12288x128 [1] [0] [0] [1] [] []
  dot_S1536x1536_S1536x128_S1536x128_0_0_1_1_n_n_wf : DotDims.WF S1536x1536 S1536x128 S1536x128 [0] [0] [1] [1] [] []
  dot_S12288x128_S128x64_S12288x64_1_0_0_1_n_n_wf : DotDims.WF S12288x128 S128x64 S12288x64 [1] [0] [0] [1] [] []
  dot_S1536x1536_S1536x64_S1536x64_0_0_1_1_n_n_wf : DotDims.WF S1536x1536 S1536x64 S1536x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6144.size a ≤ S12288x12288.size a
  hwx0_0 : ∀ i : grid0.Coords, EltTy.bits .f32 = 32 ∨ (Rect.block (s := S12288x12288) S256x6144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6144.size a ≤ S1x12288.size a
  hwx0_1 : ∀ i : grid0.Coords, EltTy.bits .f32 = 32 ∨ (Rect.block (s := S1x12288) S1x6144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x6144.size a ≤ S12288x12288.size a
  hwx0_2 : ∀ i : grid0.Coords, EltTy.bits .bf16 = 32 ∨ (Rect.block (s := S12288x12288) S256x6144.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x1536.size a ≤ S12288x12288.size a
  hwx1_0 : ∀ i : grid1.Coords, EltTy.bits .bf16 = 32 ∨ (Rect.block (s := S12288x12288) S1536x1536.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x128.size a ≤ S12288x128.size a
  hwx1_1 : ∀ i : grid1.Coords, EltTy.bits .f32 = 32 ∨ (Rect.block (s := S12288x128) S1536x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1536x128.size a ≤ S12288x128.size a
  hwx1_2 : ∀ i : grid1.Coords, EltTy.bits .f32 = 32 ∨ (Rect.block (s := S12288x128) S1536x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1536x1536.size a ≤ S12288x12288.size a
  hwx2_0 : ∀ i : grid2.Coords, EltTy.bits .bf16 = 32 ∨ (Rect.block (s := S12288x12288) S1536x1536.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1536x64.size a ≤ S12288x64.size a
  hwx2_1 : ∀ i : grid2.Coords, EltTy.bits .f32 = 32 ∨ (Rect.block (s := S12288x64) S1536x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1536x64.size a ≤ S12288x64.size a
  hwx2_2 : ∀ i : grid2.Coords, EltTy.bits .f32 = 32 ∨ (Rect.block (s := S12288x64) S1536x64.size (cc2_transform_2 i) (hinb2_2 i)).WholeWords (EltTy.packing .f32)

variable [Facts₀]

def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def dot_S1536x1536_S1536x128_S1536x128_0_0_1_1_n_n : DotDims S1536x1536 S1536x128 S1536x128 where
  lhsContracting := [0]
  rhsContracting := [0]
  lhsNonContracting := [1]
  rhsNonContracting := [1]
  lhsBatch := []
  rhsBatch := []
  wf := dot_S1536x1536_S1536x128_S1536x128_0_0_1_1_n_n_wf
def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf
def dot_S1536x1536_S1536x64_S1536x64_0_0_1_1_n_n : DotDims S1536x1536 S1536x64 S1536x64 where
  lhsContracting := [0]
  rhsContracting := [0]
  lhsNonContracting := [1]
  rhsNonContracting := [1]
  lhsBatch := []
  rhsBatch := []
  wf := dot_S1536x1536_S1536x64_S1536x64_0_0_1_1_n_n_wf

abbrev win0_0 : Pipeline.Window sig grid0 :=
  Pipeline.Window.ofSpec (Memref.whole main_arg1) S256x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x6144.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x6144.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_1) S1536x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1536x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1536x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_1) S1536x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1536x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1536x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12288x256 : Shape := ⟨2, ![12288, 256]⟩
abbrev S12288x12288 : Shape := ⟨2, ![12288, 12288]⟩
abbrev S256x128 : Shape := ⟨2, ![256, 128]⟩
abbrev S128 : Shape := ⟨1, ![128]⟩
abbrev S128x64 : Shape := ⟨2, ![128, 64]⟩
abbrev S64 : Shape := ⟨1, ![64]⟩
abbrev S12288 : Shape := ⟨1, ![12288]⟩
abbrev S_ : Shape := ⟨0, ![]⟩
abbrev S12288x1 : Shape := ⟨2, ![12288, 1]⟩
abbrev S12288x2 : Shape := ⟨2, ![12288, 2]⟩
abbrev S1x12288 : Shape := ⟨2, ![1, 12288]⟩
abbrev S12288x128 : Shape := ⟨2, ![12288, 128]⟩
abbrev S1x128 : Shape := ⟨2, ![1, 128]⟩
abbrev S12288x64 : Shape := ⟨2, ![12288, 64]⟩
abbrev S1x64 : Shape := ⟨2, ![1, 64]⟩

abbrev nBuf : Space → Nat
  | .hbm => 149
  | .vmem => 0
  | .smem => 0
  | _ => 0

abbrev hbmTy0_0 (i : Nat) : BufTy := match i % 128 with
  | 0 => ⟨S12288x256, .f32⟩
  | 1 => ⟨S12288x12288, .f32⟩
  | 2 => ⟨S256x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S12288, .i32⟩
  | 11 => ⟨S_, .i32⟩
  | 12 => ⟨S12288, .i32⟩
  | 13 => ⟨S12288, .i1⟩
  | 14 => ⟨S_, .i32⟩
  | 15 => ⟨S12288, .i32⟩
  | 16 => ⟨S12288, .i32⟩
  | 17 => ⟨S12288, .i32⟩
  | 18 => ⟨S_, .i32⟩
  | 19 => ⟨S12288, .i32⟩
  | 20 => ⟨S12288, .i1⟩
  | 21 => ⟨S_, .i32⟩
  | 22 => ⟨S12288, .i32⟩
  | 23 => ⟨S12288, .i32⟩
  | 24 => ⟨S12288, .i32⟩
  | 25 => ⟨S12288x1, .i32⟩
  | 26 => ⟨S12288x1, .i32⟩
  | 27 => ⟨S12288x2, .i32⟩
  | 28 => ⟨S_, .f32⟩
  | 29 => ⟨S12288, .f32⟩
  | 30 => ⟨S12288x12288, .f32⟩
  | 31 => ⟨S_, .f32⟩
  | 32 => ⟨S12288, .f32⟩
  | 33 => ⟨S_, .f32⟩
  | 34 => ⟨S12288, .f32⟩
  | 35 => ⟨S12288, .i1⟩
  | 36 => ⟨S12288, .f32⟩
  | 37 => ⟨S_, .f32⟩
  | 38 => ⟨S_, .f32⟩
  | 39 => ⟨S12288, .f32⟩
  | 40 => ⟨S12288, .f32⟩
  | 41 => ⟨S12288x1, .f32⟩
  | 42 => ⟨S12288x12288, .f32⟩
  | 43 => ⟨S12288x12288, .f32⟩
  | 44 => ⟨S1x12288, .f32⟩
  | 45 => ⟨S12288x12288, .f32⟩
  | 46 => ⟨S12288x12288, .f32⟩
  | 47 => ⟨S12288x12288, .f32⟩
  | 48 => ⟨S12288x128, .f32⟩
  | 49 => ⟨S12288x128, .f32⟩
  | 50 => ⟨S1x128, .f32⟩
  | 51 => ⟨S12288x128, .f32⟩
  | 52 => ⟨S12288x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S12288x128, .f32⟩
  | 66 => ⟨S12288x128, .f32⟩
  | 67 => ⟨S12288x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S12288x128, .f32⟩
  | 83 => ⟨S12288x128, .f32⟩
  | 84 => ⟨S_, .f32⟩
  | 85 => ⟨S128, .f32⟩
  | 86 => ⟨S128, .f32⟩
  | 87 => ⟨S128, .f32⟩
  | 88 => ⟨S1x128, .f32⟩
  | 89 => ⟨S12288x128, .f32⟩
  | 90 => ⟨S12288x128, .f32⟩
  | 91 => ⟨S1x128, .f32⟩
  | 92 => ⟨S12288x128, .f32⟩
  | 93 => ⟨S12288x128, .f32⟩
  | 94 => ⟨S1x128, .f32⟩
  | 95 => ⟨S12288x128, .f32⟩
  | 96 => ⟨S12288x128, .f32⟩
  | 97 => ⟨S_, .f32⟩
  | 98 => ⟨S12288x128, .f32⟩
  | 99 => ⟨S12288x128, .f32⟩
  | 100 => ⟨S12288x64, .f32⟩
  | 101 => ⟨S12288x64, .f32⟩
  | 102 => ⟨S1x64, .f32⟩
  | 103 => ⟨S12288x64, .f32⟩
  | 104 => ⟨S12288x64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S12288x64, .f32⟩
  | 118 => ⟨S12288x64, .f32⟩
  | 119 => ⟨S12288x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S12288x256, .f32⟩

abbrev hbmTy0_1 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S12288x64, .f32⟩
  | 7 => ⟨S12288x64, .f32⟩
  | 8 => ⟨S_, .f32⟩
  | 9 => ⟨S64, .f32⟩
  | 10 => ⟨S64, .f32⟩
  | 11 => ⟨S64, .f32⟩
  | 12 => ⟨S1x64, .f32⟩
  | 13 => ⟨S12288x64, .f32⟩
  | 14 => ⟨S12288x64, .f32⟩
  | 15 => ⟨S1x64, .f32⟩
  | 16 => ⟨S12288x64, .f32⟩
  | 17 => ⟨S12288x64, .f32⟩
  | 18 => ⟨S1x64, .f32⟩
  | 19 => ⟨S12288x64, .f32⟩
  | 20 => ⟨S12288x64, .f32⟩
  | _ => ⟨S12288x256, .f32⟩

abbrev hbmTy (i : Nat) : BufTy := match i / 128 with
  | 0 => hbmTy0_0 i
  | 1 => hbmTy0_1 i
  | _ => ⟨S12288x256, .f32⟩

abbrev bufTy : (tb : Table) → Fin (tcTables nBuf tb) → BufTy
  | .hbm, ⟨i, _⟩ => hbmTy i
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_cst_3 : Ref sig .tc := ⟨.hbm, 75, rfl⟩
abbrev main_call1_v12 : Ref sig .tc := ⟨.hbm, 76, rfl⟩
abbrev main_call1_cst_4 : Ref sig .tc := ⟨.hbm, 77, rfl⟩
abbrev main_call1_call0_v0 : Ref sig .tc := ⟨.hbm, 78, rfl⟩
abbrev main_call1_call0_v1 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst_9 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_call2_cst : Ref sig .tc := ⟨.hbm, 97, rfl⟩
abbrev main_call2_v0 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_10 : Ref sig .tc := ⟨.hbm, 105, rfl⟩
abbrev main_v58 : Ref sig .tc := ⟨.hbm, 106, rfl⟩
abbrev main_cst_11 : Ref sig .tc := ⟨.hbm, 107, rfl⟩
abbrev main_v59 : Ref sig .tc := ⟨.hbm, 108, rfl⟩
abbrev main_v60 : Ref sig .tc := ⟨.hbm, 109, rfl⟩
abbrev main_c_12 : Ref sig .tc := ⟨.hbm, 110, rfl⟩
abbrev main_call3_cst : Ref sig .tc := ⟨.hbm, 111, rfl⟩
abbrev main_call3_v0 : Ref sig .tc := ⟨.hbm, 112, rfl⟩
abbrev main_call3_v1 : Ref sig .tc := ⟨.hbm, 113, rfl⟩
abbrev main_call3_cst_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_cst_1 : Ref sig .tc := ⟨.hbm, 121, rfl⟩
abbrev main_call3_v8 : Ref sig .tc := ⟨.hbm, 122, rfl⟩
abbrev main_call3_cst_2 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_cst_3 : Ref sig .tc := ⟨.hbm, 127, rfl⟩
abbrev main_call3_v12 : Ref sig .tc := ⟨.hbm, 128, rfl⟩
abbrev main_call3_cst_4 : Ref sig .tc := ⟨.hbm, 129, rfl⟩
abbrev main_call3_call0_v0 : Ref sig .tc := ⟨.hbm, 130, rfl⟩
abbrev main_call3_call0_v1 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_cst_13 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩

abbrev nD : Nat := 1
abbrev τ : Topo := Topo.v7x

variable {F : FTy → Type} [FloatOps F]

class Facts₀ : Prop where
  bcast_S_S12288 : S_.BroadcastsInDim S12288 (![] : Fin 0 → Fin S12288.rank)
  bcast_S12288_S12288x1_0 : S12288.BroadcastsInDim S12288x1 (![0] : Fin 1 → Fin S12288x1.rank)
  concatenates_S12288x1_S12288x1_S12288x2_d1 : Shape.Concatenates [S12288x1, S12288x1] S12288x2 1
  reducesTo_S12288x12288_S12288_d0 : S12288x12288.ReducesTo [0] S12288
  h_S_ : 0 < S_.numel
  bcast_S12288x1_S12288x12288_0_1 : S12288x1.BroadcastsInDim S12288x12288 (![0, 1] : Fin 2 → Fin S12288x12288.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  transposes_S12288x12288_S12288x12288_1_0 : S12288x12288.Transposes [1, 0] S12288x12288
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  reducesTo_S12288x128_S128_d0 : S12288x128.ReducesTo [0] S128
  bcast_S_S128 : S_.BroadcastsInDim S128 (![] : Fin 0 → Fin S128.rank)
  bcast_S_S1x128 : S_.BroadcastsInDim S1x128 (![] : Fin 0 → Fin S1x128.rank)
  bcast_S_S12288x128 : S_.BroadcastsInDim S12288x128 (![] : Fin 0 → Fin S12288x128.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  reducesTo_S12288x64_S64_d0 : S12288x64.ReducesTo [0] S64
  bcast_S_S64 : S_.BroadcastsInDim S64 (![] : Fin 0 → Fin S64.rank)
  bcast_S_S1x64 : S_.BroadcastsInDim S1x64 (![] : Fin 0 → Fin S1x64.rank)
  scatter_S12288x12288_S12288x2_S12288_n_01_01_1_wf : ScatterDims.WF S12288x12288 S12288x2 S12288 [] [0, 1] [0, 1] 1
  dot_S12288x256_S256x128_S12288x128_1_0_0_1_n_n_wf : DotDims.WF S12288x256 S256x128 S12288x128 [1] [0] [0] [1] [] []
  dot_S12288x12288_S12288x128_S12288x128_1_0_0_1_n_n_wf : DotDims.WF S12288x12288 S12288x128 S12288x128 [1] [0] [0] [1] [] []
  dot_S12288x128_S128x64_S12288x64_1_0_0_1_n_n_wf : DotDims.WF S12288x128 S128x64 S12288x64 [1] [0] [0] [1] [] []
  dot_S12288x12288_S12288x64_S12288x64_1_0_0_1_n_n_wf : DotDims.WF S12288x12288 S12288x64 S12288x64 [1] [0] [0] [1] [] []

variable [Facts₀]

def scatter_S12288x12288_S12288x2_S12288_n_01_01_1 : ScatterDims S12288x12288 S12288x2 S12288 where
  updateWindowDims := []
  insertedWindowDims := [0, 1]
  scatterDimsToOperandDims := [0, 1]
  indexVectorDim := 1
  wf := scatter_S12288x12288_S12288x2_S12288_n_01_01_1_wf
def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def dot_S12288x12288_S12288x128_S12288x128_1_0_0_1_n_n : DotDims S12288x12288 S12288x128 S12288x128 where
  lhsContracting := [1]
  rhsContracting := [0]
  lhsNonContracting := [0]
  rhsNonContracting := [1]
  lhsBatch := []
  rhsBatch := []
  wf := dot_S12288x12288_S12288x128_S12288x128_1_0_0_1_n_n_wf
def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf

class Facts : Prop extends Facts₀ where

variable [Facts]
-- ==== Proof.KTerms.lean ====
/-
  The array-level terms of the kernel's program: each stage of @main as ONE function of the arrays it reads,
  spelled with the operations the program applies, in the program's order. The stage lemmas state the run's buffers
  at these terms; the comparison of the two programs is made between these functions.
-/
import proofs.«171011_j28046136442917_2_alg».proof.Proof.Gen.KernelIdeal

noncomputable section

namespace Cert.KernelIdeal.KV

open Idealize.ShloMosaic Cert.KernelIdeal Cert.KernelIdeal.Gen

variable {F : FTy → Type} [FloatOps F]

/-- The inverse square root of the degrees `colsum + 1`, as a column. -/
def dinv (cs : FVec F S1x12288 .f32) : FVec F S12288x1 .f32 :=
  transpose S12288x1 [1, 0] (Host.rsqrt (addf cs (broadcastInDim S1x12288 ![] bcast_S_S1x12288 (constant S_ .f32 0x3F800000#32)))) transposes_S1x12288_S12288x1_1_0

/-- The first layer's messages `x · W₁`. -/
def msg1 (x : FVec F S12288x256 .f32) (w : FVec F S256x128 .f32) : FVec F S12288x128 .f32 :=
  Host.dotGeneral dot_S12288x256_S256x128_S12288x128_1_0_0_1_n_n none x w

/-- The second layer's messages `h · W₂`. -/
def msg2 (h : FVec F S12288x128 .f32) (w : FVec F S128x64 .f32) : FVec F S12288x64 .f32 :=
  Host.dotGeneral dot_S12288x128_S128x64_S12288x64_1_0_0_1_n_n none h w

/-- The normalised messages of a layer of width 128: row `a` of `msg` times `dinv a`. -/
def scale128 (dv : FVec F S12288x1 .f32) (msg : FVec F S12288x128 .f32) : FVec F S12288x128 .f32 :=
  mulf (broadcastInDim S12288x128 ![0, 1] bcast_S12288x1_S12288x128_0_1 dv) msg

/-- A layer's pre-normalisation output from the aggregated messages `t`: `dinv a · (t a + scaled a) + bias`, the
    added `scaled a` being the self-loop's share. -/
def z128 (dv : FVec F S12288x1 .f32) (t sc : FVec F S12288x128 .f32) (b : FVec F S128 .f32) : FVec F S12288x128 .f32 :=
  addf (mulf (broadcastInDim S12288x128 ![0, 1] bcast_S12288x1_S12288x128_0_1 dv) (addf t sc))
    (broadcastInDim S12288x128 ![0, 1] bcast_S1x128_S12288x128_0_1 (broadcastInDim S1x128 ![1] bcast_S128_S1x128_1 b))

/-- The normalised messages of a layer of width 64: row `a` of `msg` times `dinv a`. -/
def scale64 (dv : FVec F S12288x1 .f32) (msg : FVec F S12288x64 .f32) : FVec F S12288x64 .f32 :=
  mulf (broadcastInDim S12288x64 ![0, 1] bcast_S12288x1_S12288x64_0_1 dv) msg

/-- A layer's pre-normalisation output from the aggregated messages `t`: `dinv a · (t a + scaled a) + bias`, the
    added `scaled a` being the self-loop's share. -/
def z64 (dv : FVec F S12288x1 .f32) (t sc : FVec F S12288x64 .f32) (b : FVec F S64 .f32) : FVec F S12288x64 .f32 :=
  addf (mulf (broadcastInDim S12288x64 ![0, 1] bcast_S12288x1_S12288x64_0_1 dv) (addf t sc))
    (broadcastInDim S12288x64 ![0, 1] bcast_S1x64_S12288x64_0_1 (broadcastInDim S1x64 ![1] bcast_S64_S1x64_1 b))

/-- Batch normalisation over the rows of a [12288, 128] array, then the positive part: each column is centred at its mean, scaled by the inverse
    root of its (biased) variance plus ε, times γ plus β. The operations are those the program applies, in its order. -/
def bnRelu128 (z : FVec F S12288x128 .f32) (g be : FVec F S128 .f32) : FVec F S12288x128 .f32 :=
  let mean : FVec F S128 .f32 := Host.divf (Host.reduceAdd z (constant S_ .f32 0x00000000#32) reducesTo_S12288x128_S128_d0 h_S_) (broadcastInDim S128 ![] bcast_S_S128 (constant S_ .f32 0x46400000#32))
  let cen : FVec F S12288x128 .f32 := subf z (broadcastInDim S12288x128 ![0, 1] bcast_S1x128_S12288x128_0_1 (Host.divf (broadcastInDim S1x128 ![1] bcast_S128_S1x128_1 (Host.reduceAdd z (constant S_ .f32 0x00000000#32) reducesTo_S12288x128_S128_d0 h_S_)) (broadcastInDim S1x128 ![] bcast_S_S1x128 (constant S_ .f32 0x46400000#32))))
  let cnt : FVec F S_ .f32 := subf (constant S_ .f32 0x46400000#32) (sitofp .f32 (constantI S_ 32 0#32))
  let var : FVec F S128 .f32 := select (broadcastInDim S128 ![] bcast_S_S128 (cmpf .ogt cnt (constant S_ .f32 0x00000000#32)))
      (Host.divf (Host.reduceAdd (mulf cen cen) (constant S_ .f32 0x00000000#32) reducesTo_S12288x128_S128_d0 h_S_) (broadcastInDim S128 ![] bcast_S_S128 cnt))
      (broadcastInDim S128 ![] bcast_S_S128 (id (constant S_ .f32 0x7FC00000#32)))
  let inv : FVec F S128 .f32 := Host.rsqrt (addf var (broadcastInDim S128 ![] bcast_S_S128 (constant S_ .f32 0x3727C5AC#32)))
  let y : FVec F S12288x128 .f32 := addf (mulf (mulf (subf z (broadcastInDim S12288x128 ![0, 1] bcast_S1x128_S12288x128_0_1 (broadcastInDim S1x128 ![1] bcast_S128_S1x128_1 mean)))
      (broadcastInDim S12288x128 ![0, 1] bcast_S1x128_S12288x128_0_1 (broadcastInDim S1x128 ![1] bcast_S128_S1x128_1 inv)))
      (broadcastInDim S12288x128 ![0, 1] bcast_S1x128_S12288x128_0_1 (broadcastInDim S1x128 ![1] bcast_S128_S1x128_1 g)))
      (broadcastInDim S12288x128 ![0, 1] bcast_S1x128_S12288x128_0_1 (broadcastInDim S1x128 ![1] bcast_S128_S1x128_1 be))
  maximumf y (broadcastInDim S12288x128 ![] bcast_S_S12288x128 (constant S_ .f32 0x00000000#32))

/-- Batch normalisation over the rows of a [12288, 64] array: each column is centred at its mean, scaled by the inverse
    root of its (biased) variance plus ε, times γ plus β. The operations are those the program applies, in its order. -/
def bn64 (z : FVec F S12288x64 .f32) (g be : FVec F S64 .f32) : FVec F S12288x64 .f32 :=
  let mean : FVec F S64 .f32 := Host.divf (Host.reduceAdd z (constant S_ .f32 0x00000000#32) reducesTo_S12288x64_S64_d0 h_S_) (broadcastInDim S64 ![] bcast_S_S64 (constant S_ .f32 0x46400000#32))
  let cen : FVec F S12288x64 .f32 := subf z (broadcastInDim S12288x64 ![0, 1] bcast_S1x64_S12288x64_0_1 (Host.divf (broadcastInDim S1x64 ![1] bcast_S64_S1x64_1 (Host.reduceAdd z (constant S_ .f32 0x00000000#32) reducesTo_S12288x64_S64_d0 h_S_)) (broadcastInDim S1x64 ![] bcast_S_S1x64 (constant S_ .f32 0x46400000#32))))
  let cnt : FVec F S_ .f32 := subf (constant S_ .f32 0x46400000#32) (sitofp .f32 (constantI S_ 32 0#32))
  let var : FVec F S64 .f32 := select (broadcastInDim S64 ![] bcast_S_S64 (cmpf .ogt cnt (constant S_ .f32 0x00000000#32)))
      (Host.divf (Host.reduceAdd (mulf cen cen) (constant S_ .f32 0x00000000#32) reducesTo_S12288x64_S64_d0 h_S_) (broadcastInDim S64 ![] bcast_S_S64 cnt))
      (broadcastInDim S64 ![] bcast_S_S64 (id (constant S_ .f32 0x7FC00000#32)))
  let inv : FVec F S64 .f32 := Host.rsqrt (addf var (broadcastInDim S64 ![] bcast_S_S64 (constant S_ .f32 0x3727C5AC#32)))
  let y : FVec F S12288x64 .f32 := addf (mulf (mulf (subf z (broadcastInDim S12288x64 ![0, 1] bcast_S1x64_S12288x64_0_1 (broadcastInDim S1x64 ![1] bcast_S64_S1x64_1 mean)))
      (broadcastInDim S12288x64 ![0, 1] bcast_S1x64_S12288x64_0_1 (broadcastInDim S1x64 ![1] bcast_S64_S1x64_1 inv)))
      (broadcastInDim S12288x64 ![0, 1] bcast_S1x64_S12288x64_0_1 (broadcastInDim S1x64 ![1] bcast_S64_S1x64_1 g)))
      (broadcastInDim S12288x64 ![0, 1] bcast_S1x64_S12288x64_0_1 (broadcastInDim S1x64 ![1] bcast_S64_S1x64_1 be))
  y

end Cert.KernelIdeal.KV

end
-- ==== Proof.KStages.lean ====
/-
  The run of the kernel's program read back to its stages: what each key buffer holds at each boundary of @main,
  as the stage functions applied to the arrays the regions leave and to the argument arrays.
-/
import proofs.«171011_j28046136442917_2_alg».proof.Proof.Gen.KernelIdeal.Frame
import proofs.«171011_j28046136442917_2_alg».proof.Proof.KTerms
import Idealize.ShloMosaic.Lib.StableHlo.Run
import Idealize.ShloMosaic.Lib.Tactic

noncomputable section

namespace Cert.KernelIdeal.KS

open Idealize.ShloMosaic Idealize.ShloMosaic.TcCoe Idealize.ShloMosaic.Tactic
open Cert.KernelIdeal Cert.KernelIdeal.Gen

variable {F : FTy → Type} [FloatOps F]
variable (m : (ℓ : Loc nD τ sig) → Buf (Elt F) ℓ) (ρ : Dev nD → PrngReg)

/-- The column sums region 0 leaves. -/
abbrev cs (c : Dev nD) : FVec F S1x12288 .f32 := (dat0 (V0 m ρ) c).arrAt 1 cfg0.N
/-- The bf16 copy of the adjacency region 0 leaves. -/
abbrev abf (c : Dev nD) : FVec F S12288x12288 .bf16 := (dat0 (V0 m ρ) c).arrAt 2 cfg0.N
/-- The inverse square roots of the degrees. -/
abbrev dv (c : Dev nD) : FVec F S12288x1 .f32 := KV.dinv (cs m ρ c)
/-- The first layer's normalised messages. -/
abbrev sc1 (c : Dev nD) : FVec F S12288x128 .f32 :=
  KV.scale128 (dv m ρ c) (KV.msg1 (m ((c : Thread nD τ).loc main_arg0)) (m ((c : Thread nD τ).loc main_arg2)))
/-- The aggregated messages region 1 leaves. -/
abbrev t1 (c : Dev nD) : FVec F S12288x128 .f32 := (dat1 (V2 m ρ) c).arrAt 2 cfg1.N
/-- The first layer before normalisation. -/
abbrev z1 (c : Dev nD) : FVec F S12288x128 .f32 := KV.z128 (dv m ρ c) (t1 m ρ c) (sc1 m ρ c) (m ((c : Thread nD τ).loc main_arg3))
/-- The first layer's output. -/
abbrev h1 (c : Dev nD) : FVec F S12288x128 .f32 :=
  KV.bnRelu128 (z1 m ρ c) (m ((c : Thread nD τ).loc main_arg4)) (m ((c : Thread nD τ).loc main_arg5))
/-- The second layer's normalised messages. -/
abbrev sc2 (c : Dev nD) : FVec F S12288x64 .f32 :=
  KV.scale64 (dv m ρ c) (KV.msg2 (h1 m ρ c) (m ((c : Thread nD τ).loc main_arg6)))
/-- The aggregated messages region 2 leaves. -/
abbrev t2 (c : Dev nD) : FVec F S12288x64 .f32 := (dat2 (V8 m ρ) c).arrAt 2 cfg2.N
/-- The second layer before normalisation. -/
abbrev z2 (c : Dev nD) : FVec F S12288x64 .f32 := KV.z64 (dv m ρ c) (t2 m ρ c) (sc2 m ρ c) (m ((c : Thread nD τ).loc main_arg7))

/-- A buffer none of a stretch's operations writes holds after it what it held before. -/
local macro "unwritten" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem entry0_adj (c : Dev nD) : V0 m ρ c main_arg1 = m ((c : Thread nD τ).loc main_arg1) := rfl

/-! ### Region 1's entry -/

theorem W1_cs (c : Dev nD) : W1 m ρ c (Proc.devRef .tc main_v0_0) = cs m ρ c := W1_arr m ρ c 1
theorem W1_abf (c : Dev nD) : W1 m ρ c (Proc.devRef .tc main_v0_1) = abf m ρ c := W1_arr m ρ c 2
theorem W1_arg0 (c : Dev nD) : W1 m ρ c (Proc.devRef .tc main_arg0) = m ((c : Thread nD τ).loc main_arg0) :=
  W1_of_ne m ρ c main_arg0 (by decide)
theorem W1_arg2 (c : Dev nD) : W1 m ρ c (Proc.devRef .tc main_arg2) = m ((c : Thread nD τ).loc main_arg2) :=
  W1_of_ne m ρ c main_arg2 (by decide)

theorem W2_v4 (c : Dev nD) : W2 m ρ c (Proc.devRef .tc main_v4) = dv m ρ c := by
  show StableHlo.after hostOps1 (W1 m ρ c) (Proc.devRef .tc main_v4) = _
  dsimp only [hostOps1]
  after_results
  rw [W1_cs]
  rfl

theorem W2_v7 (c : Dev nD) : W2 m ρ c (Proc.devRef .tc main_v7) = sc1 m ρ c := by
  show StableHlo.after hostOps1 (W1 m ρ c) (Proc.devRef .tc main_v7) = _
  dsimp only [hostOps1]
  after_results
  rw [W1_cs, W1_arg0, W1_arg2]
  rfl

theorem W2_abf (c : Dev nD) : W2 m ρ c (Proc.devRef .tc main_v0_1) = abf m ρ c :=
  (show StableHlo.after hostOps1 (W1 m ρ c) (Proc.devRef .tc main_v0_1) = W1 m ρ c (Proc.devRef .tc main_v0_1) by
    unwritten hostOps1).trans (W1_abf m ρ c)

theorem entry1_adj (c : Dev nD) : V2 m ρ c main_v0_1 = abf m ρ c := W2_abf m ρ c
theorem entry1_msg (c : Dev nD) : V2 m ρ c main_v7 = sc1 m ρ c := W2_v7 m ρ c

/-! ### Region 1's exit, and the first layer before normalisation -/

theorem W3_t1 (c : Dev nD) : W3 m ρ c (Proc.devRef .tc main_v8) = t1 m ρ c := W3_arr m ρ c 2
theorem W3_sc1 (c : Dev nD) : W3 m ρ c (Proc.devRef .tc main_v7) = sc1 m ρ c :=
  (W3_arr m ρ c 1).trans ((((dat1 (V2 m ρ) c).arrAt_in 1 rfl _).trans (A_eq1 (V2 m ρ) c 1)).trans (W2_v7 m ρ c))
theorem W3_abf (c : Dev nD) : W3 m ρ c (Proc.devRef .tc main_v0_1) = abf m ρ c :=
  (W3_arr m ρ c 0).trans ((((dat1 (V2 m ρ) c).arrAt_in 0 rfl _).trans (A_eq1 (V2 m ρ) c 0)).trans (W2_abf m ρ c))
theorem W3_dv (c : Dev nD) : W3 m ρ c (Proc.devRef .tc main_v4) = dv m ρ c :=
  (W3_of_ne m ρ c main_v4 (by decide)).trans (W2_v4 m ρ c)
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := by unwritten hostOps1
    _ = W0 m ρ c (Proc.devRef .tc main_arg3) := W1_of_ne m ρ c main_arg3 (by decide)
    _ = m ((c : Thread nD τ).loc main_arg3) := rfl

theorem W4_z1 (c : Dev nD) : W4 m ρ c (Proc.devRef .tc main_v14) = z1 m ρ c := by
  show StableHlo.after hostOps2 (W3 m ρ c) (Proc.devRef .tc main_v14) = _
  dsimp only [hostOps2]
  after_results
  rw [W3_t1, W3_sc1, W3_dv, W3_arg3]
  rfl

/-! ### The first layer's normalisation -/

/-- The column means of a [12288, 128] array. -/
def mean128 (z : FVec F S12288x128 .f32) : FVec F S128 .f32 :=
  Host.divf (Host.reduceAdd z (constant S_ .f32 0x00000000#32) reducesTo_S12288x128_S128_d0 h_S_) (broadcastInDim S128 ![] bcast_S_S128 (constant S_ .f32 0x46400000#32))

/-- The column (biased) variances of a [12288, 128] array. -/
def var128 (z : FVec F S12288x128 .f32) : FVec F S128 .f32 :=
  let cen : FVec F S12288x128 .f32 := subf z (broadcastInDim S12288x128 ![0, 1] bcast_S1x128_S12288x128_0_1 (Host.divf (broadcastInDim S1x128 ![1] bcast_S128_S1x128_1 (Host.reduceAdd z (constant S_ .f32 0x00000000#32) reducesTo_S12288x128_S128_d0 h_S_)) (broadcastInDim S1x128 ![] bcast_S_S1x128 (constant S_ .f32 0x46400000#32))))
  let cnt : FVec F S_ .f32 := subf (constant S_ .f32 0x46400000#32) (sitofp .f32 (constantI S_ 32 0#32))
  select (broadcastInDim S128 ![] bcast_S_S128 (cmpf .ogt cnt (constant S_ .f32 0x00000000#32)))
    (Host.divf (Host.reduceAdd (mulf cen cen) (constant S_ .f32 0x00000000#32) reducesTo_S12288x128_S128_d0 h_S_) (broadcastInDim S128 ![] bcast_S_S128 cnt))
    (broadcastInDim S128 ![] bcast_S_S128 (id (constant S_ .f32 0x7FC00000#32)))

/-- A [12288, 128] array normalised column by column: centred at the mean, times the inverse root of the variance plus ε, times γ, plus β. -/
def norm128 (z : FVec F S12288x128 .f32) (mean var g be : FVec F S128 .f32) : FVec F S12288x128 .f32 :=
  addf (mulf (mulf (subf z (broadcastInDim S12288x128 ![0, 1] bcast_S1x128_S12288x128_0_1 (broadcastInDim S1x128 ![1] bcast_S128_S1x128_1 mean)))
      (broadcastInDim S12288x128 ![0, 1] bcast_S1x128_S12288x128_0_1 (broadcastInDim S1x128 ![1] bcast_S128_S1x128_1
        (Host.rsqrt (addf var (broadcastInDim S128 ![] bcast_S_S128 (constant S_ .f32 0x3727C5AC#32)))))))
      (broadcastInDim S12288x128 ![0, 1] bcast_S1x128_S12288x128_0_1 (broadcastInDim S1x128 ![1] bcast_S128_S1x128_1 g)))
      (broadcastInDim S12288x128 ![0, 1] bcast_S1x128_S12288x128_0_1 (broadcastInDim S1x128 ![1] bcast_S128_S1x128_1 be))

theorem W4_mean (c : Dev nD) : W4 m ρ c (Proc.devRef .tc main_v17) = mean128 (z1 m ρ c) := by
  show StableHlo.after hostOps2 (W3 m ρ c) (Proc.devRef .tc main_v17) = _
  dsimp only [hostOps2]
  after_results
  rw [W3_t1, W3_sc1, W3_dv, W3_arg3]
  rfl

theorem W4_c (c : Dev nD) : W4 m ρ c (Proc.devRef .tc main_c) = (constantI S_ 32 0#32 : IVec S_ 32) := by
  show StableHlo.after hostOps2 (W3 m ρ c) (Proc.devRef .tc main_c) = _
  dsimp only [hostOps2]
  after_results

theorem W5_var (c : Dev nD) : W5 m ρ c (Proc.devRef .tc main_v18) = var128 (z1 m ρ c) := by
  have ez := W4_z1 m ρ c
  have ec := W4_c m ρ c
  show StableHlo.after hostOps2_1 (W4 m ρ c) (Proc.devRef .tc main_v18) = _
  generalize W4 m ρ c = V at ez ec ⊢
  dsimp only [hostOps2_1]
  after_results_simp
  rw [ez, ec]
  simp only [StableHlo.TRef.ofBuf, StableHlo.TRef.toBuf, cast_eq]
  rfl

theorem W5_z1 (c : Dev nD) : W5 m ρ c (Proc.devRef .tc main_v14) = z1 m ρ c :=
  calc W5 m ρ c (Proc.devRef .tc main_v14)
    _ = W4 m ρ c (Proc.devRef .tc main_v14) := by unwritten hostOps2_1
    _ = z1 m ρ c := W4_z1 m ρ c

theorem W5_mean (c : Dev nD) : W5 m ρ c (Proc.devRef .tc main_v17) = mean128 (z1 m ρ c) :=
  calc W5 m ρ c (Proc.devRef .tc main_v17)
    _ = W4 m ρ c (Proc.devRef .tc main_v17) := by unwritten hostOps2_1
    _ = mean128 (z1 m ρ c) := W4_mean m ρ c

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by unwritten hostOps2_1
    _ = W3 m ρ c (Proc.devRef .tc main_arg4) := by unwritten hostOps2
    _ = W2 m ρ c (Proc.devRef .tc main_arg4) := W3_of_ne m ρ c main_arg4 (by decide)
    _ = W1 m ρ c (Proc.devRef .tc main_arg4) := by unwritten hostOps1
    _ = W0 m ρ c (Proc.devRef .tc main_arg4) := W1_of_ne m ρ c main_arg4 (by decide)
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by unwritten hostOps2_1
    _ = W3 m ρ c (Proc.devRef .tc main_arg5) := by unwritten hostOps2
    _ = W2 m ρ c (Proc.devRef .tc main_arg5) := W3_of_ne m ρ c main_arg5 (by decide)
    _ = W1 m ρ c (Proc.devRef .tc main_arg5) := by unwritten hostOps1
    _ = W0 m ρ c (Proc.devRef .tc main_arg5) := W1_of_ne m ρ c main_arg5 (by decide)
    _ = m ((c : Thread nD τ).loc main_arg5) := rfl

theorem W6_norm (c : Dev nD) : W6 m ρ c (Proc.devRef .tc main_v33)
    = norm128 (z1 m ρ c) (mean128 (z1 m ρ c)) (var128 (z1 m ρ c)) (m ((c : Thread nD τ).loc main_arg4)) (m ((c : Thread nD τ).loc main_arg5)) := by
  have e0 := W5_z1 m ρ c
  have e1 := W5_mean m ρ c
  have e2 := W5_var m ρ c
  have e3 := W5_arg4 m ρ c
  have e4 := W5_arg5 m ρ c
  show StableHlo.after hostOps2_2 (W5 m ρ c) (Proc.devRef .tc main_v33) = _
  generalize W5 m ρ c = V at e0 e1 e2 e3 e4 ⊢
  dsimp only [hostOps2_2]
  after_results_simp
  rw [e0, e1, e2, e3, e4]
  rfl

theorem W7_h1 (c : Dev nD) : W7 m ρ c (Proc.devRef .tc main_v34) = h1 m ρ c := by
  have e0 := W6_norm m ρ c
  show StableHlo.after hostOps2_3 (W6 m ρ c) (Proc.devRef .tc main_v34) = _
  generalize W6 m ρ c = V at e0 ⊢
  dsimp only [hostOps2_3]
  after_results_simp
  rw [e0]
  simp only [StableHlo.TRef.ofBuf, StableHlo.TRef.toBuf, cast_eq]
  rfl

/-! ### Region 2's entry -/

theorem W7_dv (c : Dev nD) : W7 m ρ c (Proc.devRef .tc main_v4) = dv m ρ c :=
  calc W7 m ρ c (Proc.devRef .tc main_v4)
    _ = W6 m ρ c (Proc.devRef .tc main_v4) := by unwritten hostOps2_3
    _ = W5 m ρ c (Proc.devRef .tc main_v4) := by unwritten hostOps2_2
    _ = W4 m ρ c (Proc.devRef .tc main_v4) := by unwritten hostOps2_1
    _ = W3 m ρ c (Proc.devRef .tc main_v4) := by unwritten hostOps2
    _ = dv m ρ c := W3_dv m ρ c

theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := by unwritten hostOps2_3
    _ = W5 m ρ c (Proc.devRef .tc main_arg6) := by unwritten hostOps2_2
    _ = W4 m ρ c (Proc.devRef .tc main_arg6) := by unwritten hostOps2_1
    _ = W3 m ρ c (Proc.devRef .tc main_arg6) := by unwritten hostOps2
    _ = W2 m ρ c (Proc.devRef .tc main_arg6) := W3_of_ne m ρ c main_arg6 (by decide)
    _ = W1 m ρ c (Proc.devRef .tc main_arg6) := by unwritten hostOps1
    _ = W0 m ρ c (Proc.devRef .tc main_arg6) := W1_of_ne m ρ c main_arg6 (by decide)
    _ = m ((c : Thread nD τ).loc main_arg6) := rfl

theorem W8_sc2 (c : Dev nD) : W8 m ρ c (Proc.devRef .tc main_v37) = sc2 m ρ c := by
  have e0 := W7_h1 m ρ c
  have e1 := W7_dv m ρ c
  have e2 := W7_arg6 m ρ c
  show StableHlo.after hostOps2_4 (W7 m ρ c) (Proc.devRef .tc main_v37) = _
  generalize W7 m ρ c = V at e0 e1 e2 ⊢
  dsimp only [hostOps2_4]
  after_results_simp
  rw [e0, e1, e2]
  rfl

theorem W8_abf (c : Dev nD) : W8 m ρ c (Proc.devRef .tc main_v0_1) = abf m ρ c :=
  calc W8 m ρ c (Proc.devRef .tc main_v0_1)
    _ = W7 m ρ c (Proc.devRef .tc main_v0_1) := by unwritten hostOps2_4
    _ = W6 m ρ c (Proc.devRef .tc main_v0_1) := by unwritten hostOps2_3
    _ = W5 m ρ c (Proc.devRef .tc main_v0_1) := by unwritten hostOps2_2
    _ = W4 m ρ c (Proc.devRef .tc main_v0_1) := by unwritten hostOps2_1
    _ = W3 m ρ c (Proc.devRef .tc main_v0_1) := by unwritten hostOps2
    _ = abf m ρ c := W3_abf m ρ c

theorem W8_dv (c : Dev nD) : W8 m ρ c (Proc.devRef .tc main_v4) = dv m ρ c :=
  calc W8 m ρ c (Proc.devRef .tc main_v4)
    _ = W7 m ρ c (Proc.devRef .tc main_v4) := by unwritten hostOps2_4
    _ = W6 m ρ c (Proc.devRef .tc main_v4) := by unwritten hostOps2_3
    _ = W5 m ρ c (Proc.devRef .tc main_v4) := by unwritten hostOps2_2
    _ = W4 m ρ c (Proc.devRef .tc main_v4) := by unwritten hostOps2_1
    _ = W3 m ρ c (Proc.devRef .tc main_v4) := by unwritten hostOps2
    _ = dv m ρ c := W3_dv m ρ c

theorem entry2_adj (c : Dev nD) : V8 m ρ c main_v0_1 = abf m ρ c := W8_abf m ρ c
theorem entry2_msg (c : Dev nD) : V8 m ρ c main_v37 = sc2 m ρ c := W8_sc2 m ρ c

/-! ### Region 2's exit, and the second layer -/

theorem W9_t2 (c : Dev nD) : W9 m ρ c (Proc.devRef .tc main_v38) = t2 m ρ c := W9_arr m ρ c 2
theorem W9_sc2 (c : Dev nD) : W9 m ρ c (Proc.devRef .tc main_v37) = sc2 m ρ c :=
  (W9_arr m ρ c 1).trans ((((dat2 (V8 m ρ) c).arrAt_in 1 rfl _).trans (A_eq2 (V8 m ρ) c 1)).trans (W8_sc2 m ρ c))
theorem W9_dv (c : Dev nD) : W9 m ρ c (Proc.devRef .tc main_v4) = dv m ρ c :=
  (W9_of_ne m ρ c main_v4 (by decide)).trans (W8_dv m ρ c)
theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := by unwritten hostOps2_4
    _ = W6 m ρ c (Proc.devRef .tc main_arg7) := by unwritten hostOps2_3
    _ = W5 m ρ c (Proc.devRef .tc main_arg7) := by unwritten hostOps2_2
    _ = W4 m ρ c (Proc.devRef .tc main_arg7) := by unwritten hostOps2_1
    _ = W3 m ρ c (Proc.devRef .tc main_arg7) := by unwritten hostOps2
    _ = W2 m ρ c (Proc.devRef .tc main_arg7) := W3_of_ne m ρ c main_arg7 (by decide)
    _ = W1 m ρ c (Proc.devRef .tc main_arg7) := by unwritten hostOps1
    _ = W0 m ρ c (Proc.devRef .tc main_arg7) := W1_of_ne m ρ c main_arg7 (by decide)
    _ = m ((c : Thread nD τ).loc main_arg7) := rfl

theorem W10_z2 (c : Dev nD) : W10 m ρ c (Proc.devRef .tc main_v44) = z2 m ρ c := by
  show StableHlo.after hostOps3 (W9 m ρ c) (Proc.devRef .tc main_v44) = _
  dsimp only [hostOps3]
  after_results
  rw [W9_t2, W9_sc2, W9_dv, W9_arg7]
  rfl

/-- The column means of a [12288, 64] array. -/
def mean64 (z : FVec F S12288x64 .f32) : FVec F S64 .f32 :=
  Host.divf (Host.reduceAdd z (constant S_ .f32 0x00000000#32) reducesTo_S12288x64_S64_d0 h_S_) (broadcastInDim S64 ![] bcast_S_S64 (constant S_ .f32 0x46400000#32))

/-- The column (biased) variances of a [12288, 64] array. -/
def var64 (z : FVec F S12288x64 .f32) : FVec F S64 .f32 :=
  let cen : FVec F S12288x64 .f32 := subf z (broadcastInDim S12288x64 ![0, 1] bcast_S1x64_S12288x64_0_1 (Host.divf (broadcastInDim S1x64 ![1] bcast_S64_S1x64_1 (Host.reduceAdd z (constant S_ .f32 0x00000000#32) reducesTo_S12288x64_S64_d0 h_S_)) (broadcastInDim S1x64 ![] bcast_S_S1x64 (constant S_ .f32 0x46400000#32))))
  let cnt : FVec F S_ .f32 := subf (constant S_ .f32 0x46400000#32) (sitofp .f32 (constantI S_ 32 0#32))
  select (broadcastInDim S64 ![] bcast_S_S64 (cmpf .ogt cnt (constant S_ .f32 0x00000000#32)))
    (Host.divf (Host.reduceAdd (mulf cen cen) (constant S_ .f32 0x00000000#32) reducesTo_S12288x64_S64_d0 h_S_) (broadcastInDim S64 ![] bcast_S_S64 cnt))
    (broadcastInDim S64 ![] bcast_S_S64 (id (constant S_ .f32 0x7FC00000#32)))

/-- A [12288, 64] array normalised column by column: centred at the mean, times the inverse root of the variance plus ε, times γ, plus β. -/
def norm64 (z : FVec F S12288x64 .f32) (mean var g be : FVec F S64 .f32) : FVec F S12288x64 .f32 :=
  addf (mulf (mulf (subf z (broadcastInDim S12288x64 ![0, 1] bcast_S1x64_S12288x64_0_1 (broadcastInDim S1x64 ![1] bcast_S64_S1x64_1 mean)))
      (broadcastInDim S12288x64 ![0, 1] bcast_S1x64_S12288x64_0_1 (broadcastInDim S1x64 ![1] bcast_S64_S1x64_1
        (Host.rsqrt (addf var (broadcastInDim S64 ![] bcast_S_S64 (constant S_ .f32 0x3727C5AC#32)))))))
      (broadcastInDim S12288x64 ![0, 1] bcast_S1x64_S12288x64_0_1 (broadcastInDim S1x64 ![1] bcast_S64_S1x64_1 g)))
      (broadcastInDim S12288x64 ![0, 1] bcast_S1x64_S12288x64_0_1 (broadcastInDim S1x64 ![1] bcast_S64_S1x64_1 be))

theorem W10_mean (c : Dev nD) : W10 m ρ c (Proc.devRef .tc main_v47) = mean64 (z2 m ρ c) := by
  show StableHlo.after hostOps3 (W9 m ρ c) (Proc.devRef .tc main_v47) = _
  dsimp only [hostOps3]
  after_results
  rw [W9_t2, W9_sc2, W9_dv, W9_arg7]
  rfl

theorem W10_c (c : Dev nD) : W10 m ρ c (Proc.devRef .tc main_c_5) = (constantI S_ 32 0#32 : IVec S_ 32) := by
  show StableHlo.after hostOps3 (W9 m ρ c) (Proc.devRef .tc main_c_5) = _
  dsimp only [hostOps3]
  after_results

theorem W11_var (c : Dev nD) : W11 m ρ c (Proc.devRef .tc main_v48) = var64 (z2 m ρ c) := by
  have e0 := W10_z2 m ρ c
  have e1 := W10_c m ρ c
  show StableHlo.after hostOps3_1 (W10 m ρ c) (Proc.devRef .tc main_v48) = _
  generalize W10 m ρ c = V at e0 e1 ⊢
  dsimp only [hostOps3_1]
  after_results_simp
  rw [e0, e1]
  simp only [StableHlo.TRef.ofBuf, StableHlo.TRef.toBuf, cast_eq]
  rfl

theorem W11_z2 (c : Dev nD) : W11 m ρ c (Proc.devRef .tc main_v44) = z2 m ρ c :=
  calc W11 m ρ c (Proc.devRef .tc main_v44)
    _ = W10 m ρ c (Proc.devRef .tc main_v44) := by unwritten hostOps3_1
    _ = z2 m ρ c := W10_z2 m ρ c

theorem W11_mean (c : Dev nD) : W11 m ρ c (Proc.devRef .tc main_v47) = mean64 (z2 m ρ c) :=
  calc W11 m ρ c (Proc.devRef .tc main_v47)
    _ = W10 m ρ c (Proc.devRef .tc main_v47) := by unwritten hostOps3_1
    _ = mean64 (z2 m ρ c) := W10_mean m ρ c

theorem W11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := by unwritten hostOps3_1
    _ = W9 m ρ c (Proc.devRef .tc main_arg8) := by unwritten hostOps3
    _ = W8 m ρ c (Proc.devRef .tc main_arg8) := W9_of_ne m ρ c main_arg8 (by decide)
    _ = W7 m ρ c (Proc.devRef .tc main_arg8) := by unwritten hostOps2_4
    _ = W6 m ρ c (Proc.devRef .tc main_arg8) := by unwritten hostOps2_3
    _ = W5 m ρ c (Proc.devRef .tc main_arg8) := by unwritten hostOps2_2
    _ = W4 m ρ c (Proc.devRef .tc main_arg8) := by unwritten hostOps2_1
    _ = W3 m ρ c (Proc.devRef .tc main_arg8) := by unwritten hostOps2
    _ = W2 m ρ c (Proc.devRef .tc main_arg8) := W3_of_ne m ρ c main_arg8 (by decide)
    _ = W1 m ρ c (Proc.devRef .tc main_arg8) := by unwritten hostOps1
    _ = W0 m ρ c (Proc.devRef .tc main_arg8) := W1_of_ne m ρ c main_arg8 (by decide)
    _ = m ((c : Thread nD τ).loc main_arg8) := rfl

theorem W11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := by unwritten hostOps3_1
    _ = W9 m ρ c (Proc.devRef .tc main_arg9) := by unwritten hostOps3
    _ = W8 m ρ c (Proc.devRef .tc main_arg9) := W9_of_ne m ρ c main_arg9 (by decide)
    _ = W7 m ρ c (Proc.devRef .tc main_arg9) := by unwritten hostOps2_4
    _ = W6 m ρ c (Proc.devRef .tc main_arg9) := by unwritten hostOps2_3
    _ = W5 m ρ c (Proc.devRef .tc main_arg9) := by unwritten hostOps2_2
    _ = W4 m ρ c (Proc.devRef .tc main_arg9) := by unwritten hostOps2_1
    _ = W3 m ρ c (Proc.devRef .tc main_arg9) := by unwritten hostOps2
    _ = W2 m ρ c (Proc.devRef .tc main_arg9) := W3_of_ne m ρ c main_arg9 (by decide)
    _ = W1 m ρ c (Proc.devRef .tc main_arg9) := by unwritten hostOps1
    _ = W0 m ρ c (Proc.devRef .tc main_arg9) := W1_of_ne m ρ c main_arg9 (by decide)
    _ = m ((c : Thread nD τ).loc main_arg9) := rfl

theorem out_eq (c : Dev nD) : W12 m ρ c (Proc.devRef .tc main_v63)
    = KV.bn64 (z2 m ρ c) (m ((c : Thread nD τ).loc main_arg8)) (m ((c : Thread nD τ).loc main_arg9)) := by
  have e0 := W11_z2 m ρ c
  have e1 := W11_mean m ρ c
  have e2 := W11_var m ρ c
  have e3 := W11_arg8 m ρ c
  have e4 := W11_arg9 m ρ c
  show StableHlo.after hostOps3_2 (W11 m ρ c) (Proc.devRef .tc main_v63) = _
  generalize W11 m ρ c = V at e0 e1 e2 e3 e4 ⊢
  dsimp only [hostOps3_2]
  after_results_simp
  rw [e0, e1, e2, e3, e4]
  rfl

end Cert.KernelIdeal.KS

end
-- ==== Proof.Region0.lean ====
/-
  Region 0 (the degree kernel), read as values over the extended reals.

  The grid has 2 x 48 points; point `t` works on row block `t % 48` (256 rows) of column block `t / 48` (6144
  columns) of the 12288 x 12288 adjacency matrix. At the first point of each column block the column-sum block is
  reset to zero, and every point adds the sum down its 256 rows; the block is written back after the 48th point.
  So each column's entry is zero plus 48 partial sums of 256 rows, which over the extended reals is the one sum
  over all 12288 rows (`colsum_arr`). Every point also stores its input block narrowed to bf16, which at the ideal
  values is the block itself, and the 96 blocks tile the matrix (`cast_arr`).
-/
import proofs.«171011_j28046136442917_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R0

open Cert.KernelIdeal Cert.KernelIdeal.Gen

variable {F : FTy → Type} [FloatOps F]

theorem hz : (![0, 0] : Fin 2 → Nat) = fun _ => 0 := funext fun a => by fin_cases a <;> rfl

/-- An accumulating point leaves, in the column-sum block holding `xo`, `xo` plus the row sum of the input block. -/
theorem out_B_1 (c : Dev nD) (i : grid0.Coords) (a2 : Memref sig .tc .vmem S256x6144 .f32) (h2 : a2.IsWhole)
    (a3 : Memref sig .tc .vmem S1x6144 .f32) (h3 : a3.IsWhole) (a4 : Memref sig .tc .vmem S256x6144 .bf16) (h4 : a4.IsWhole)
    (hc : ¬cond0_0 i) (x : Vec F S256x6144 .f32) (xo : Vec F S1x6144 .f32) :
    out0_B_1 c i a2 h2 a3 h3 a4 h4 hc x xo = k0_pay2 x xo := by
  unfold out0_B_1
  rw [View.read_writes_eq_canon _ _ _ (cover0_B_1 c i a2 h2 a3 h3 a4 h4 hc x xo)]
  unfold kernelRun0_B
  dsimp only
  sl_unfold_words
  rw [View.canon_unit_zero hz]
  simp only [View.readAt_eq_ld, h2.read_unread, h3.read_unread, View.ld_unit_zero (S := S256x6144) hz,
    View.ld_unit_zero (S := S1x6144) hz]

/-- A resetting point stores the zero block, reads it back, and leaves zero plus the row sum of the input block. -/
theorem out_A_1 (c : Dev nD) (i : grid0.Coords) (a2 : Memref sig .tc .vmem S256x6144 .f32) (h2 : a2.IsWhole)
    (a3 : Memref sig .tc .vmem S1x6144 .f32) (h3 : a3.IsWhole) (a4 : Memref sig .tc .vmem S256x6144 .bf16) (h4 : a4.IsWhole)
    (hc : cond0_0 i) (x : Vec F S256x6144 .f32) :
    out0_A_1 c i a2 h2 a3 h3 a4 h4 hc x = k0_pay2 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x6144) hz, View.readCov_unit_zero (S := S1x6144) _ hz]
  simp only [View.readAt_eq_ld, h2.read_unread, View.ld_unit_zero (S := S256x6144) hz]

/-- Every point leaves the narrowed input block in the copy's block. -/
theorem out_B_2 (c : Dev nD) (i : grid0.Coords) (a2 : Memref sig .tc .vmem S256x6144 .f32) (h2 : a2.IsWhole)
    (a3 : Memref sig .tc .vmem S1x6144 .f32) (h3 : a3.IsWhole) (a4 : Memref sig .tc .vmem S256x6144 .bf16) (h4 : a4.IsWhole)
    (hc : ¬cond0_0 i) (x : Vec F S256x6144 .f32) (xo : Vec F S1x6144 .f32) :
    out0_B_2 c i a2 h2 a3 h3 a4 h4 hc x xo = k0_pay3 x := by
  unfold out0_B_2
  rw [View.read_writes_eq_canon _ _ _ (cover0_B_2 c i a2 h2 a3 h3 a4 h4 hc x xo)]
  unfold kernelRun0_B
  dsimp only
  sl_unfold_words
  rw [View.canon_unit_zero hz]
  simp only [View.readAt_eq_ld, h2.read_unread, View.ld_unit_zero (S := S256x6144) hz]

theorem out_A_2 (c : Dev nD) (i : grid0.Coords) (a2 : Memref sig .tc .vmem S256x6144 .f32) (h2 : a2.IsWhole)
    (a3 : Memref sig .tc .vmem S1x6144 .f32) (h3 : a3.IsWhole) (a4 : Memref sig .tc .vmem S256x6144 .bf16) (h4 : a4.IsWhole)
    (hc : cond0_0 i) (x : Vec F S256x6144 .f32) :
    out0_A_2 c i a2 h2 a3 h3 a4 h4 hc x = k0_pay3 x := by
  unfold out0_A_2
  rw [View.read_writes_eq_canon _ _ _ (cover0_A_2 c i a2 h2 a3 h3 a4 h4 hc x)]
  unfold kernelRun0_A
  dsimp only
  sl_unfold_words
  rw [View.canon_unit_zero hz]
  simp only [View.readAt_eq_ld, h2.read_unread, View.ld_unit_zero (S := S256x6144) hz]

/-! ## The payloads at the ideal values, read at an index -/

/-- The accumulating payload at lane `l`: the old value plus the sum down the block's 256 rows. -/
theorem pay2_apply (x : Vec Ideal S256x6144 .f32) (acc : Vec Ideal S1x6144 .f32) (z : Fin 1) (l : Fin 6144) :
    k0_pay2 (F := Ideal) x acc (ix2 z l) = acc (ix2 z l) + ∑ r : Fin 256, x (ix2 r l) := by
  unfold k0_pay2
  dsimp only
  refine (addf_apply _ _ _).trans ?_
  refine congrArg₂ (· + ·) ?_ ?_
  · rw [shapeCast_self]
  · refine (shapeCast_addUnit_apply ![6144] _ _ _).trans ?_
    refine (Ideal.multiReduction_add_single _ _ _ _ _ _).trans ?_
    refine Finset.sum_congr rfl fun r _ => congrArg x ?_
    funext a
    apply Fin.ext
    match a with
    | ⟨0, _⟩ => rfl
    | ⟨1, _⟩ => rfl

/-- The zero block is zero. -/
theorem pay1_apply (i : S1x6144.Idx) : k0_pay1 (F := Ideal) i = 0 := by
  show Ideal.ofBits .f32 0x00000000#32 = 0
  exact Ideal.ofBits_zero_f32

/-- Narrowing to bf16 is the identity on the ideal values. -/
theorem pay3_apply (x : Vec Ideal S256x6144 .f32) (i : S256x6144.Idx) : k0_pay3 (F := Ideal) x i = x i := rfl

/-! ## The region's arrays, and the input block at a point -/

variable (V : (c : Dev nD) → (b : Ref sig .tc) → Buf (Elt Ideal) ((c : Thread nD τ).loc b))

/-- The adjacency matrix as the region finds it. -/
abbrev adjArr (c : Dev nD) : Vec Ideal S12288x12288 .f32 := V c main_arg1

/-- Its column sums: one sum over all 12288 rows. -/
abbrev colsumArr (c : Dev nD) : Vec Ideal S1x12288 .f32 :=
  fun y => ∑ i : Fin 12288, adjArr V c (ix2 i (y 1))

/-- The matrix read at natural-number coordinates (zero outside). -/
def adjN (c : Dev nD) (a b : ℕ) : EReal :=
  if h : a < 12288 ∧ b < 12288 then adjArr V c (ix2 ⟨a, h.1⟩ ⟨b, h.2⟩) else 0

theorem adjN_eq (c : Dev nD) (i j : Fin 12288) : adjN V c i.val j.val = adjArr V c (ix2 i j) := by
  unfold adjN; rw [dif_pos ⟨i.isLt, j.isLt⟩]

theorem adjArr_apply (c : Dev nD) (z : S12288x12288.Idx) : adjArr V c z = adjN V c (z 0).val (z 1).val := by
  exact ((adjN_eq V c (z 0) (z 1)).trans (congrArg (adjArr V c) (eq_ix2 z).symm)).symm

/-- The input block at point `t`. -/
abbrev xblk (c : Dev nD) (t : Fin cfg0.N) : Vec Ideal S256x6144 .f32 := iblk0 V c 0 t

/-- Where the windows' blocks sit: row block `t % 48`, column block `t / 48`. -/
theorem idx0 : ∀ t : Fin cfg0.N, win0_0.index t 0 = t.val % 48 ∧ win0_0.index t 1 = t.val / 48 :=
  (by decide +kernel : ∀ t : Fin grid0.N, win0_0.index t 0 = t.val % 48 ∧ win0_0.index t 1 = t.val / 48)
theorem idx1 : ∀ t : Fin cfg0.N, win0_1.index t 0 = 0 ∧ win0_1.index t 1 = t.val / 48 :=
  (by decide +kernel : ∀ t : Fin grid0.N, win0_1.index t 0 = 0 ∧ win0_1.index t 1 = t.val / 48)
theorem idx2 : ∀ t : Fin cfg0.N, win0_2.index t 0 = t.val % 48 ∧ win0_2.index t 1 = t.val / 48 :=
  (by decide +kernel : ∀ t : Fin grid0.N, win0_2.index t 0 = t.val % 48 ∧ win0_2.index t 1 = t.val / 48)

/-- The input block at point `t` reads the matrix at rows `256 (t % 48) + r`, columns `6144 (t / 48) + l`. -/
theorem xblk_apply (c : Dev nD) (t : Fin cfg0.N) (y : S256x6144.Idx) :
    xblk V c t y = adjN V c (256 * (t.val % 48) + (y 0).val) (6144 * (t.val / 48) + (y 1).val) := by
  unfold xblk iblk0
  rw [View.read_apply]
  show adjArr V c _ = _
  refine (adjArr_apply V c _).trans ?_
  refine congrArg₂ (adjN V c) ?_ ?_
  · show win0_0.index t 0 * 256 + 1 * (y 0).val = _
    rw [(idx0 t).1]; omega
  · show win0_0.index t 1 * 6144 + 1 * (y 1).val = _
    rw [(idx0 t).2]; omega

/-! ## The column-sum block across the grid -/

/-- The sum down the rows of the input block at point `n`, at lane `i`. -/
def M (c : Dev nD) (n : ℕ) (i : S1x6144.Idx) : EReal :=
  ∑ r : Fin 256, adjN V c (256 * (n % 48) + r.val) (6144 * (n / 48) + (i 1).val)

/-- What the column-sum block holds after point `n`. -/
abbrev accAfter (c : Dev nD) (n : ℕ) (h : n < cfg0.N) : Vec Ideal S1x6144 .f32 := (outsAt0 V c n h).1
/-- What a resetting point leaves, -/
abbrev resetAt (c : Dev nD) (n : ℕ) (h : n < cfg0.N) : Vec Ideal S1x6144 .f32 :=
  k0_pay2 (xblk V c ⟨n, h⟩) (k0_pay1 (F := Ideal))
/-- and an accumulating one, over what the point before left. -/
abbrev stepAt (c : Dev nD) (n : ℕ) (h : n < cfg0.N) (acc : Vec Ideal S1x6144 .f32) : Vec Ideal S1x6144 .f32 :=
  k0_pay2 (xblk V c ⟨n, h⟩) acc

theorem acc_reset (c : Dev nD) (n : ℕ) (h : n < cfg0.N) (h0 : n % 48 = 0) : accAfter V c n h = resetAt V c n h := by
  unfold accAfter
  rw [outsAt0_A V c ⟨n, h⟩ h0]
  dsimp only
  exact out_A_1 (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) ((hcond0_0 ⟨n, h⟩).mpr h0) (iblk0 V c 0 ⟨n, h⟩)

theorem acc_step (c : Dev nD) (n : ℕ) (h : n + 1 < cfg0.N) (h0 : ¬(n + 1) % 48 = 0) :
    accAfter V c (n + 1) h = stepAt V c (n + 1) h (accAfter V c n (Nat.lt_of_succ_lt h)) := by
  unfold accAfter
  rw [outsAt0_B V c ⟨n + 1, h⟩ h0]
  dsimp only
  exact out_B_1 (F := Ideal) c (grid0.coords ⟨n + 1, h⟩) (ms0_0 ⟨n + 1, h⟩) (hs0_0 ⟨n + 1, h⟩) (ms0_1 ⟨n + 1, h⟩)
    (hs0_1 ⟨n + 1, h⟩) (ms0_2 ⟨n + 1, h⟩) (hs0_2 ⟨n + 1, h⟩) (fun hh => h0 ((hcond0_0 ⟨n + 1, h⟩).mp hh))
    (iblk0 V c 0 ⟨n + 1, h⟩) (outsAt0 V c n (Nat.lt_of_succ_lt h)).1

/-- The accumulating payload over the input block at point `n` adds that block's row sum. -/
theorem pay2_xblk (c : Dev nD) (n : ℕ) (h : n < cfg0.N) (acc : Vec Ideal S1x6144 .f32) (i : S1x6144.Idx) :
    k0_pay2 (F := Ideal) (xblk V c ⟨n, h⟩) acc i = acc i + M V c n i := by
  obtain ⟨z, l, rfl⟩ : ∃ (z : Fin 1) (l : Fin 6144), i = ix2 z l := ⟨i 0, i 1, eq_ix2 i⟩
  rw [pay2_apply]
  refine congrArg (acc (ix2 z l) + ·) ?_
  unfold M
  refine Finset.sum_congr rfl fun r _ => ?_
  exact xblk_apply V c ⟨n, h⟩ (ix2 r l)

/-- After the last point of a column block's run the block holds the sum of the run's 48 row sums. -/
theorem acc_flush (c : Dev nD) (q : ℕ) (h : 48 * q + 47 < cfg0.N) (i : S1x6144.Idx) :
    accAfter V c (48 * q + 47) h i = ∑ s ∈ Finset.range 48, M V c (48 * q + s) i := by
  rw [Pipeline.eq_accAt (accAfter V c) 48 (resetAt V c) (stepAt V c) (acc_reset V c) (acc_step V c) q 47 (by norm_num) h]
  rw [Pipeline.accAt_add_apply (ι := S1x6144.Idx) (β := EReal) (resetAt V c) (stepAt V c) (fun _ => 0) (M V c) (48 * q) 47
    (fun hb i => (pay2_xblk V c (48 * q) hb (k0_pay1 (F := Ideal)) i).trans
      (congrArg (· + M V c (48 * q) i) (pay1_apply i))) (fun n hn acc i _ _ => pay2_xblk V c n hn acc i) 47 le_rfl h i, zero_add]

/-- Forty-eight blocks of 256 rows are the 12288 rows. -/
theorem sum_blocks (g : ℕ → EReal) :
    ∑ s ∈ Finset.range 48, ∑ r : Fin 256, g (256 * s + r.val) = ∑ k : Fin 12288, g k.val := by
  have key : ∀ n, ∑ s ∈ Finset.range n, ∑ r ∈ Finset.range 256, g (256 * s + r) = ∑ k ∈ Finset.range (256 * n), g k := by
    intro n
    induction n with
    | zero => simp
    | succ n ih => rw [Finset.sum_range_succ, ih, Nat.mul_succ, Finset.sum_range_add]
  calc ∑ s ∈ Finset.range 48, ∑ r : Fin 256, g (256 * s + r.val)
      = ∑ s ∈ Finset.range 48, ∑ r ∈ Finset.range 256, g (256 * s + r) :=
        Finset.sum_congr rfl fun s _ => Fin.sum_univ_eq_sum_range (fun r => g (256 * s + r)) 256
    _ = ∑ k ∈ Finset.range (256 * 48), g k := key 48
    _ = ∑ k : Fin 12288, g k.val := (Fin.sum_univ_eq_sum_range g 12288).symm

/-- So at the end of column block `q`'s run, lane `i` holds the whole column's sum. -/
theorem colsum_flush (c : Dev nD) (q : ℕ) (h : 48 * q + 47 < cfg0.N) (i : S1x6144.Idx) (z : S1x12288.Idx)
    (hz1 : (z 1).val = 6144 * q + (i 1).val) : accAfter V c (48 * q + 47) h i = colsumArr V c z := by
  rw [acc_flush]
  have e : ∀ s ∈ Finset.range 48, M V c (48 * q + s) i
      = ∑ r : Fin 256, (fun k => adjN V c k (6144 * q + (i 1).val)) (256 * s + r.val) := fun s hs => by
    have hs' : s < 48 := Finset.mem_range.mp hs
    unfold M
    rw [show (48 * q + s) % 48 = s by omega, show (48 * q + s) / 48 = q by omega]
  rw [Finset.sum_congr rfl e]
  refine (sum_blocks (fun k => adjN V c k (6144 * q + (i 1).val))).trans ?_
  unfold colsumArr
  refine Finset.sum_congr rfl fun k _ => ?_
  rw [← hz1]
  exact adjN_eq V c k (z 1)

/-! ## The write-backs, and the arrays the region leaves -/

theorem accAfter_congr (c : Dev nD) {n n' : ℕ} (e : n = n') (h : n < cfg0.N) (h' : n' < cfg0.N) :
    accAfter V c n h = accAfter V c n' h' := by subst e; rfl

/-- Each write-back of the column-sum window writes its block of the column sums. -/
theorem flushed1 (c : Dev nD) (t : Fin cfg0.N) (hf : (cfg0.win 1).flush t = true) :
    (dat0 V c).flushed 1 t = ((cfg0.win 1).blk t).view.read (Elt Ideal) (colsumArr V c) := by
  have hN : cfg0.N = 96 := N_0
  have h47 : t.val % 48 = 47 := (flush0_1 t).mp hf
  have ht : t.val < 96 := lt_of_lt_of_eq t.isLt hN
  have hq : t.val = 48 * (t.val / 48) + 47 := by omega
  have hlt : 48 * (t.val / 48) + 47 < cfg0.N := by omega
  funext y
  rw [View.read_apply]
  show (cfg0.win 1).cut (grid0.coords t) ((dat0 V c).after 1 t) y = _
  rw [after0_1]
  show accAfter V c t.val t.isLt ((cfg0.win 1).xinj (grid0.coords t) y)
    = colsumArr V c (((cfg0.win 1).blk t).view.emb y)
  refine (congrFun (accAfter_congr V c hq t.isLt hlt) _).trans ?_
  refine colsum_flush V c (t.val / 48) hlt _ _ ?_
  show win0_1.index t 1 * 6144 + 1 * (y 1).val = 6144 * (t.val / 48) + (y 1).val
  rw [(idx1 t).2]; omega

/-- The column-sum window's write-backs cover its array: column `j` is written at the end of column block `j / 6144`. -/
theorem cover1 (i : S1x12288.Idx) :
    ∃ t : Fin cfg0.N, (cfg0.win 1).flush t = true ∧ i ∈ ((cfg0.win 1).blk t).view.set := by
  have hN : cfg0.N = 96 := N_0
  have h0 : (i 0).val < 1 := (i 0).isLt
  have h1 : (i 1).val < 12288 := (i 1).isLt
  have hlt : 48 * ((i 1).val / 6144) + 47 < cfg0.N := by omega
  refine ⟨⟨48 * ((i 1).val / 6144) + 47, hlt⟩, (flush0_1 _).mpr (by show (48 * ((i 1).val / 6144) + 47) % 48 = 47; omega), ?_⟩
  show i ∈ ((View.whole main_v0_0).slice (win0_1.rect ⟨48 * ((i 1).val / 6144) + 47, hlt⟩)).set
  rw [View.set_slice_whole, Rect.mem_set_unit]
  intro a
  match a with
  | ⟨0, _⟩ =>
    show win0_1.index ⟨48 * ((i 1).val / 6144) + 47, hlt⟩ 0 * 1 ≤ (i 0 : Nat)
      ∧ (i 0 : Nat) < win0_1.index ⟨48 * ((i 1).val / 6144) + 47, hlt⟩ 0 * 1 + 1
    rw [(idx1 _).1]; omega
  | ⟨1, _⟩ =>
    show win0_1.index ⟨48 * ((i 1).val / 6144) + 47, hlt⟩ 1 * 6144 ≤ (i 1 : Nat)
      ∧ (i 1 : Nat) < win0_1.index ⟨48 * ((i 1).val / 6144) + 47, hlt⟩ 1 * 6144 + 6144
    rw [(idx1 _).2]
    show (48 * ((i 1).val / 6144) + 47) / 48 * 6144 ≤ (i 1 : Nat) ∧ (i 1 : Nat) < (48 * ((i 1).val / 6144) + 47) / 48 * 6144 + 6144
    omega

/-- THE COLUMN SUMS: the region leaves, in its first result, the sums of the adjacency matrix's columns. -/
theorem colsum_arr (c : Dev nD) : (dat0 (F := Ideal) V c).arrAt 1 cfg0.N = colsumArr V c :=
  (dat0 V c).arrAt_eq_of_cover 1 (colsumArr V c) (flushed1 V c) cover1

/-! ## The bf16 copy -/

/-- After every point the copy's block holds the (narrowed) input block. -/
theorem out2_at (c : Dev nD) (t : Fin cfg0.N) :
    (outsAt0 V c t.val t.isLt).2 = k0_pay3 (F := Ideal) (xblk V c t) := by
  by_cases h0 : t.val % 48 = 0
  · rw [outsAt0_A V c t h0]
    dsimp only
    exact out_A_2 (F := Ideal) c (grid0.coords t) (ms0_0 t) (hs0_0 t) (ms0_1 t) (hs0_1 t) (ms0_2 t) (hs0_2 t)
      ((hcond0_0 t).mpr h0) (iblk0 V c 0 t)
  · rw [outsAt0_B V c t h0]
    dsimp only
    exact out_B_2 (F := Ideal) c (grid0.coords t) (ms0_0 t) (hs0_0 t) (ms0_1 t) (hs0_1 t) (ms0_2 t) (hs0_2 t)
      (fun h => h0 ((hcond0_0 t).mp h)) (iblk0 V c 0 t)
      (outsAt0 V c (t.val - 1) (Nat.lt_of_le_of_lt (Nat.sub_le _ _) t.isLt)).1

/-- The adjacency matrix read as bf16 values: the same extended reals. -/
abbrev castArr (c : Dev nD) : Vec Ideal S12288x12288 .bf16 := adjArr V c

/-- Each write-back of the copy's window writes its block of the matrix. -/
theorem flushed2 (c : Dev nD) (t : Fin cfg0.N) (hf : (cfg0.win 2).flush t = true) :
    (dat0 V c).flushed 2 t = ((cfg0.win 2).blk t).view.read (Elt Ideal) (castArr V c) := by
  funext y
  rw [View.read_apply]
  show (cfg0.win 2).cut (grid0.coords t) ((dat0 V c).after 2 t) y = _
  rw [after0_2, out2_at]
  show xblk V c t ((cfg0.win 2).xinj (grid0.coords t) y) = adjArr V c (((cfg0.win 2).blk t).view.emb y)
  refine (xblk_apply V c t _).trans ?_
  refine ((adjArr_apply V c _).trans ?_).symm
  refine congrArg₂ (adjN V c) ?_ ?_
  · show win0_2.index t 0 * 256 + 1 * (y 0).val = 256 * (t.val % 48) + (y 0).val
    rw [(idx2 t).1]; omega
  · show win0_2.index t 1 * 6144 + 1 * (y 1).val = 6144 * (t.val / 48) + (y 1).val
    rw [(idx2 t).2]; omega

/-- The copy's write-backs cover its array: entry `(r, j)` is written at row block `r / 256` of column block `j / 6144`. -/
theorem cover2 (i : S12288x12288.Idx) :
    ∃ t : Fin cfg0.N, (cfg0.win 2).flush t = true ∧ i ∈ ((cfg0.win 2).blk t).view.set := by
  have hN : cfg0.N = 96 := N_0
  have h0 : (i 0).val < 12288 := (i 0).isLt
  have h1 : (i 1).val < 12288 := (i 1).isLt
  have hlt : 48 * ((i 1).val / 6144) + (i 0).val / 256 < cfg0.N := by omega
  refine ⟨⟨48 * ((i 1).val / 6144) + (i 0).val / 256, hlt⟩, flush0_2 _, ?_⟩
  show i ∈ ((View.whole main_v0_1).slice (win0_2.rect ⟨48 * ((i 1).val / 6144) + (i 0).val / 256, hlt⟩)).set
  rw [View.set_slice_whole, Rect.mem_set_unit]
  intro a
  match a with
  | ⟨0, _⟩ =>
    show win0_2.index ⟨48 * ((i 1).val / 6144) + (i 0).val / 256, hlt⟩ 0 * 256 ≤ (i 0 : Nat)
      ∧ (i 0 : Nat) < win0_2.index ⟨48 * ((i 1).val / 6144) + (i 0).val / 256, hlt⟩ 0 * 256 + 256
    rw [(idx2 _).1]
    show (48 * ((i 1).val / 6144) + (i 0).val / 256) % 48 * 256 ≤ (i 0 : Nat)
      ∧ (i 0 : Nat) < (48 * ((i 1).val / 6144) + (i 0).val / 256) % 48 * 256 + 256
    omega
  | ⟨1, _⟩ =>
    show win0_2.index ⟨48 * ((i 1).val / 6144) + (i 0).val / 256, hlt⟩ 1 * 6144 ≤ (i 1 : Nat)
      ∧ (i 1 : Nat) < win0_2.index ⟨48 * ((i 1).val / 6144) + (i 0).val / 256, hlt⟩ 1 * 6144 + 6144
    rw [(idx2 _).2]
    show (48 * ((i 1).val / 6144) + (i 0).val / 256) / 48 * 6144 ≤ (i 1 : Nat)
      ∧ (i 1 : Nat) < (48 * ((i 1).val / 6144) + (i 0).val / 256) / 48 * 6144 + 6144
    omega

/-- THE COPY: the region leaves, in its second result, the adjacency matrix itself (narrowing is the identity on
    the ideal values). -/
theorem cast_arr (c : Dev nD) :
    (dat0 (F := Ideal) V c).arrAt 2 cfg0.N = (adjArr V c : Vec Ideal S12288x12288 .bf16) :=
  (dat0 V c).arrAt_eq_of_cover 2 (castArr V c) (flushed2 V c) cover2

end Cert.KernelIdeal.R0

end
-- ==== Proof.Region1.lean ====
import proofs.«171011_j28046136442917_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R1

open Cert.KernelIdeal Cert.KernelIdeal.Gen

/-! # The aggregation pass: what its output array holds when the region ends

The grid is 8 x 8; point `t` is the pair (output row block `t / 8`, contraction block `t % 8`).  At every point the
body adds to the carried output block the product of the transposed adjacency block with the (format-converted)
message block; the block is cleared at contraction block 0 and written back after contraction block 7.  Over the
extended reals the format conversion is the identity and the cleared block is `0`, so entry `(a, q)` of the output
array ends as the sum over ALL contraction rows `j` of `adj (j, a) * msg (j, q)` (`agg_arr`).

The steps: what each control case leaves in the output block, as the body's payload of the staged blocks (`out_A`,
`out_B`); the payload at an entry, a carried entry plus a 1536-term contraction (`pay_apply`); the staged blocks as
entries of the arrays (`adjBlk_apply`, `msgBlk_apply`); the invariant of the carried block by induction on the point
(`acc_eq`); the 12288 rows regrouped as 8 blocks of 1536 (`sum_blocks`); each write-back is its block of the result
and the write-backs cover the array (`flushed_eq`, `cover`). -/

section Pieces
variable {F : FTy → Type} [FloatOps F]

/-- Every load and store of the body is at offset `(0, 0)` of its block. -/
theorem hz : (![0, 0] : Fin 2 → Nat) = fun _ => 0 := funext fun a => by fin_cases a <;> rfl

/-- An accumulating point: the body leaves, over the carried block `xo`, the payload of the two input blocks. -/
theorem out_B (c : Dev nD) (i : grid1.Coords) (a2 : Memref sig .tc .vmem S1536x1536 .bf16) (h2 : a2.IsWhole)
    (a3 : Memref sig .tc .vmem S1536x128 .f32) (h3 : a3.IsWhole) (a4 : Memref sig .tc .vmem S1536x128 .f32) (h4 : a4.IsWhole)
    (hc : ¬cond1_0 i) (x0 : Vec F S1536x1536 .bf16) (x1 : Vec F S1536x128 .f32) (xo : Vec F S1536x128 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz]
  simp only [View.readAt_eq_ld, h2.read_unread, h3.read_unread, h4.read_unread,
    View.ld_unit_zero (S := S1536x1536) hz, View.ld_unit_zero (S := S1536x128) hz]

/-- A clearing point: the body stores the zero block, reads it back, and leaves the payload over it. -/
theorem out_A (c : Dev nD) (i : grid1.Coords) (a2 : Memref sig .tc .vmem S1536x1536 .bf16) (h2 : a2.IsWhole)
    (a3 : Memref sig .tc .vmem S1536x128 .f32) (h3 : a3.IsWhole) (a4 : Memref sig .tc .vmem S1536x128 .f32) (h4 : a4.IsWhole)
    (hc : cond1_0 i) (x0 : Vec F S1536x1536 .bf16) (x1 : Vec F S1536x128 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1536x128) hz, View.readCov_unit_zero (S := S1536x128) _ hz]
  simp only [View.readAt_eq_ld, h2.read_unread, h3.read_unread,
    View.ld_unit_zero (S := S1536x1536) hz, View.ld_unit_zero (S := S1536x128) hz]

end Pieces

/-! ## The payload at an entry -/

/-- The left operand is read, on its contracted axis 0, at the contraction position … -/
theorem lhs_contr (j : S1536x128.Idx) (k : dot_S1536x1536_S1536x128_S1536x128_0_0_1_1_n_n.contr.Idx) :
    ((dot_S1536x1536_S1536x128_S1536x128_0_0_1_1_n_n.lhsIdx j k 0 : Fin _) : ℕ) = (k ⟨0, by decide⟩ : ℕ) :=
  dot_S1536x1536_S1536x128_S1536x128_0_0_1_1_n_n.lhsIdx_val_of_single (cl := 0) rfl j k

/-- … and on its free axis 1 at the result's row; -/
theorem lhs_free (j : S1536x128.Idx) (k : dot_S1536x1536_S1536x128_S1536x128_0_0_1_1_n_n.contr.Idx) :
    ((dot_S1536x1536_S1536x128_S1536x128_0_0_1_1_n_n.lhsIdx j k 1 : Fin _) : ℕ) = (j 0 : ℕ) := by
  unfold DotDims.lhsIdx
  rw [dif_neg (show ¬(1 : Fin S1536x1536.rank) ∈ dot_S1536x1536_S1536x128_S1536x128_0_0_1_1_n_n.lhsBatch by decide),
    dif_pos (show (1 : Fin S1536x1536.rank) ∈ dot_S1536x1536_S1536x128_S1536x128_0_0_1_1_n_n.lhsNonContracting by decide)]
  rfl

/-- the right operand on its contracted axis 0 at the contraction position … -/
theorem rhs_contr (j : S1536x128.Idx) (k : dot_S1536x1536_S1536x128_S1536x128_0_0_1_1_n_n.contr.Idx) :
    ((dot_S1536x1536_S1536x128_S1536x128_0_0_1_1_n_n.rhsIdx j k 0 : Fin _) : ℕ) = (k ⟨0, by decide⟩ : ℕ) :=
  dot_S1536x1536_S1536x128_S1536x128_0_0_1_1_n_n.rhsIdx_val_of_single (cr := 0) rfl j k

/-- … and on its free axis 1 at the result's column. -/
theorem rhs_free (j : S1536x128.Idx) (k : dot_S1536x1536_S1536x128_S1536x128_0_0_1_1_n_n.contr.Idx) :
    ((dot_S1536x1536_S1536x128_S1536x128_0_0_1_1_n_n.rhsIdx j k 1 : Fin _) : ℕ) = (j 1 : ℕ) := by
  unfold DotDims.rhsIdx
  rw [dif_neg (show ¬(1 : Fin S1536x128.rank) ∈ dot_S1536x1536_S1536x128_S1536x128_0_0_1_1_n_n.rhsBatch by decide),
    dif_pos (show (1 : Fin S1536x128.rank) ∈ dot_S1536x1536_S1536x128_S1536x128_0_0_1_1_n_n.rhsNonContracting by decide)]
  rfl

/-- The zero block reads `0` everywhere. -/
theorem zero_apply (y : S1536x128.Idx) : k1_pay1 (F := Ideal) y = 0 := by
  show Ideal.ofBits .f32 0x00000000#32 = 0
  exact Ideal.ofBits_zero_f32

/-- THE PAYLOAD AT AN ENTRY.  Over the extended reals entry `(p, q)` of the body's payload is the carried entry plus
    the contraction, over the 1536 rows of the two blocks, of `lhs (k, p) * rhs (k, q)`: the format change of the
    right operand is the identity and the matrix unit's accumulator starts at `0`. -/
theorem pay_apply (v3 : Vec Ideal S1536x1536 .bf16) (v5 : Vec Ideal S1536x128 .f32) (v8 : Vec Ideal S1536x128 .f32)
    (p : Fin 1536) (q : Fin 128) :
    k1_pay2 (F := Ideal) v3 v5 v8 (ix2 p q) = v8 (ix2 p q) + ∑ k : Fin 1536, v3 (ix2 k p) * v5 (ix2 k q) := by
  unfold k1_pay2
  simp only [shapeCast_self]
  show v8 (ix2 p q) + FloatOps.matmul dot_S1536x1536_S1536x128_S1536x128_0_0_1_1_n_n none v3
      (truncf .bf16 v5 bitsLt_bf16_f32) (constant (F := Ideal) S1536x128 .f32 0x00000000#32) (ix2 p q) = _
  refine congrArg (v8 (ix2 p q) + ·) ?_
  refine (Ideal.matmul_constant_zero_apply dot_S1536x1536_S1536x128_S1536x128_0_0_1_1_n_n none v3
    (truncf .bf16 v5 bitsLt_bf16_f32) (ix2 p q)).trans ?_
  refine (Equiv.sum_comp (contrEquiv1 dot_S1536x1536_S1536x128_S1536x128_0_0_1_1_n_n 1536 rfl rfl).symm _).symm.trans ?_
  refine Finset.sum_congr rfl fun k _ => ?_
  have hk := contrEquiv1_symm_val dot_S1536x1536_S1536x128_S1536x128_0_0_1_1_n_n 1536 rfl rfl k
  have el : dot_S1536x1536_S1536x128_S1536x128_0_0_1_1_n_n.lhsIdx (ix2 p q)
      ((contrEquiv1 dot_S1536x1536_S1536x128_S1536x128_0_0_1_1_n_n 1536 rfl rfl).symm k) = ix2 k p :=
    funext fun a => Fin.ext (by
      match a with
      | ⟨0, _⟩ => exact (lhs_contr _ _).trans hk
      | ⟨1, _⟩ => exact lhs_free _ _)
  have er : dot_S1536x1536_S1536x128_S1536x128_0_0_1_1_n_n.rhsIdx (ix2 p q)
      ((contrEquiv1 dot_S1536x1536_S1536x128_S1536x128_0_0_1_1_n_n 1536 rfl rfl).symm k) = ix2 k q :=
    funext fun a => Fin.ext (by
      match a with
      | ⟨0, _⟩ => exact (rhs_contr _ _).trans hk
      | ⟨1, _⟩ => exact rhs_free _ _)
  show v3 (dot_S1536x1536_S1536x128_S1536x128_0_0_1_1_n_n.lhsIdx (ix2 p q) _) * v5 (dot_S1536x1536_S1536x128_S1536x128_0_0_1_1_n_n.rhsIdx (ix2 p q) _) = _
  rw [el, er]

/-! ## The blocks, read off the arrays -/

variable (V : (c : Dev nD) → (b : Ref sig .tc) → Buf (Elt Ideal) ((c : Thread nD τ).loc b))

/-- The adjacency array the region reads (window 0), at its literal type. -/
abbrev adjArr (c : Dev nD) : Vec Ideal S12288x12288 .bf16 := V c (Pipeline.arrRef spec1 0)
/-- The message array the region reads (window 1), at its literal type. -/
abbrev msgArr (c : Dev nD) : Vec Ideal S12288x128 .f32 := V c (Pipeline.arrRef spec1 1)
/-- The adjacency block staged at point `t`, at its literal type. -/
abbrev adjBlk (c : Dev nD) (t : Fin cfg1.N) : Vec Ideal S1536x1536 .bf16 := iblk1 V c 0 t
/-- The message block staged at point `t`, at its literal type. -/
abbrev msgBlk (c : Dev nD) (t : Fin cfg1.N) : Vec Ideal S1536x128 .f32 := iblk1 V c 1 t

/-- Position `k` of block `b` (blocks of 1536) along an axis of extent 12288. -/
def blkPos (b : ℕ) (k : Fin 1536) : Fin 12288 := ⟨(1536 * b + k.val) % 12288, Nat.mod_lt _ (by decide)⟩

/-- Where the three windows' blocks sit at point `t = (t / 8, t % 8)`: the adjacency block at block row `t % 8`, block
    column `t / 8`; the message block at block row `t % 8`; the output block at block row `t / 8`.  Decided over the grid. -/
theorem idx_facts : ∀ t : Fin cfg1.N,
    win1_0.index t (0 : Fin 2) = t.val % 8 ∧ win1_0.index t (1 : Fin 2) = t.val / 8
      ∧ win1_1.index t (0 : Fin 2) = t.val % 8 ∧ win1_1.index t (1 : Fin 2) = 0
      ∧ win1_2.index t (0 : Fin 2) = t.val / 8 ∧ win1_2.index t (1 : Fin 2) = 0 :=
  (by decide +kernel : ∀ t : Fin grid1.N,
    win1_0.index t (0 : Fin 2) = t.val % 8 ∧ win1_0.index t (1 : Fin 2) = t.val / 8
      ∧ win1_1.index t (0 : Fin 2) = t.val % 8 ∧ win1_1.index t (1 : Fin 2) = 0
      ∧ win1_2.index t (0 : Fin 2) = t.val / 8 ∧ win1_2.index t (1 : Fin 2) = 0)

/-- Entry `(k, p)` of the adjacency block at point `t` is the array's entry at row `k` of block `t % 8`, column `p` of block `t / 8`. -/
theorem adjBlk_apply (c : Dev nD) (t : Fin cfg1.N) (k p : Fin 1536) :
    adjBlk V c t (ix2 k p) = adjArr V c (ix2 (blkPos (t.val % 8) k) (blkPos (t.val / 8) p)) := by
  have hf := idx_facts t
  have hN : t.val < 64 := lt_of_lt_of_eq t.isLt N_1
  have hk := k.isLt
  have hp := p.isLt
  unfold adjBlk adjArr iblk1
  rw [View.read_apply]
  show V c (Pipeline.arrRef spec1 0) _ = V c (Pipeline.arrRef spec1 0) _
  congr 1
  funext a
  apply Fin.ext
  match a with
  | ⟨0, _⟩ =>
    show win1_0.index t 0 * 1536 + 1 * k.val = (1536 * (t.val % 8) + k.val) % 12288
    rw [hf.1]; omega
  | ⟨1, _⟩ =>
    show win1_0.index t 1 * 1536 + 1 * p.val = (1536 * (t.val / 8) + p.val) % 12288
    rw [hf.2.1]; omega

/-- Entry `(k, q)` of the message block at point `t` is the array's entry at row `k` of block `t % 8`, column `q`. -/
theorem msgBlk_apply (c : Dev nD) (t : Fin cfg1.N) (k : Fin 1536) (q : Fin 128) :
    msgBlk V c t (ix2 k q) = msgArr V c (ix2 (blkPos (t.val % 8) k) q) := by
  have hf := idx_facts t
  have hN : t.val < 64 := lt_of_lt_of_eq t.isLt N_1
  have hk := k.isLt
  unfold msgBlk msgArr iblk1
  rw [View.read_apply]
  show V c (Pipeline.arrRef spec1 1) _ = V c (Pipeline.arrRef spec1 1) _
  congr 1
  funext a
  apply Fin.ext
  match a with
  | ⟨0, _⟩ =>
    show win1_1.index t 0 * 1536 + 1 * k.val = (1536 * (t.val % 8) + k.val) % 12288
    rw [hf.2.2.1]; omega
  | ⟨1, _⟩ =>
    show win1_1.index t 1 * 128 + 1 * q.val = q.val
    rw [hf.2.2.2.1]; omega

/-! ## What the carried block holds after each point -/

/-- Contraction block `b`'s share of entry `(p, q)` of output row block `ii`: the 1536 products of its rows. -/
def blkTerm (c : Dev nD) (ii b : ℕ) (p : Fin 1536) (q : Fin 128) : EReal :=
  ∑ k : Fin 1536, adjArr V c (ix2 (blkPos b k) (blkPos ii p)) * msgArr V c (ix2 (blkPos b k) q)

/-- The point's own product, in the arrays' coordinates. -/
theorem prod_eq (c : Dev nD) (t : Fin cfg1.N) (p : Fin 1536) (q : Fin 128) :
    ∑ k : Fin 1536, adjBlk V c t (ix2 k p) * msgBlk V c t (ix2 k q) = blkTerm V c (t.val / 8) (t.val % 8) p q := by
  unfold blkTerm
  exact Finset.sum_congr rfl fun k _ => by rw [adjBlk_apply, msgBlk_apply]

/-- At a clearing point (contraction block 0) the block is left at the point's own product. -/
theorem step_A (c : Dev nD) (t : Fin cfg1.N) (h0 : t.val % 8 = 0) (p : Fin 1536) (q : Fin 128) :
    outsAt1 V c t.val t.isLt (ix2 p q) = blkTerm V c (t.val / 8) (t.val % 8) p q := by
  rw [outsAt1_A V c t h0]
  refine (congrFun (out_A (F := Ideal) c (grid1.coords t) (ms1_0 t) (hs1_0 t) (ms1_1 t) (hs1_1 t) (ms1_2 t) (hs1_2 t)
    ((hcond1_0 t).mpr h0) (adjBlk V c t) (msgBlk V c t)) (ix2 p q)).trans ?_
  refine (pay_apply (adjBlk V c t) (msgBlk V c t) (k1_pay1 (F := Ideal)) p q).trans ?_
  rw [zero_apply, zero_add]
  exact prod_eq V c t p q

/-- At any other point the point's own product is added to what the point before left. -/
theorem step_B (c : Dev nD) (t : Fin cfg1.N) (h0 : ¬t.val % 8 = 0) (p : Fin 1536) (q : Fin 128) :
    outsAt1 V c t.val t.isLt (ix2 p q)
      = outsAt1 V c (t.val - 1) (Nat.lt_of_le_of_lt (Nat.sub_le _ _) t.isLt) (ix2 p q)
        + blkTerm V c (t.val / 8) (t.val % 8) p q := by
  rw [outsAt1_B V c t h0]
  refine (congrFun (out_B (F := Ideal) c (grid1.coords t) (ms1_0 t) (hs1_0 t) (ms1_1 t) (hs1_1 t) (ms1_2 t) (hs1_2 t)
    (fun h => h0 ((hcond1_0 t).mp h)) (adjBlk V c t) (msgBlk V c t)
    (outsAt1 V c (t.val - 1) (Nat.lt_of_le_of_lt (Nat.sub_le _ _) t.isLt))) (ix2 p q)).trans ?_
  refine (pay_apply (adjBlk V c t) (msgBlk V c t)
    (outsAt1 V c (t.val - 1) (Nat.lt_of_le_of_lt (Nat.sub_le _ _) t.isLt)) p q).trans ?_
  exact congrArg (_ + ·) (prod_eq V c t p q)

/-- THE INVARIANT.  After point `n = (n / 8, n % 8)` the carried block holds, at `(p, q)`, the shares of contraction
    blocks `0 … n % 8` of output row block `n / 8` — by induction on the point. -/
theorem acc_eq (c : Dev nD) : ∀ (n : ℕ) (h : n < cfg1.N) (p : Fin 1536) (q : Fin 128),
    outsAt1 V c n h (ix2 p q) = ∑ b ∈ Finset.range (n % 8 + 1), blkTerm V c (n / 8) b p q
  | 0, h, p, q => by
    rw [show (0 % 8 + 1 : ℕ) = 1 from rfl, Finset.sum_range_one]
    exact step_A V c ⟨0, h⟩ rfl p q
  | n + 1, h, p, q => by
    by_cases h0 : (n + 1) % 8 = 0
    · have hs : outsAt1 V c (n + 1) h (ix2 p q) = blkTerm V c ((n + 1) / 8) ((n + 1) % 8) p q :=
        step_A V c ⟨n + 1, h⟩ h0 p q
      rw [hs, h0, Finset.sum_range_one]
    · have e1 : (n + 1) % 8 = n % 8 + 1 := by omega
      have e2 : (n + 1) / 8 = n / 8 := by omega
      have hs : outsAt1 V c (n + 1) h (ix2 p q)
          = outsAt1 V c n (Nat.lt_of_succ_lt h) (ix2 p q) + blkTerm V c ((n + 1) / 8) ((n + 1) % 8) p q :=
        step_B V c ⟨n + 1, h⟩ h0 p q
      rw [hs, acc_eq c n (Nat.lt_of_succ_lt h) p q, e1, e2, Finset.sum_range_succ _ (n % 8 + 1)]

/-! ## From the blocks to the array -/

/-- The 12288 contraction rows are 8 blocks of 1536. -/
theorem sum_blocks {M : Type} [AddCommMonoid M] (f : Fin 12288 → M) :
    ∑ j : Fin 12288, f j = ∑ b ∈ Finset.range 8, ∑ k : Fin 1536, f (blkPos b k) := by
  rw [← Fin.sum_univ_eq_sum_range (fun b => ∑ k : Fin 1536, f (blkPos b k)) 8,
    ← Equiv.sum_comp (finProdFinEquiv : Fin 8 × Fin 1536 ≃ Fin 12288) f, Fintype.sum_prod_type]
  refine Finset.sum_congr rfl fun a _ => Finset.sum_congr rfl fun k _ => congrArg f (Fin.ext ?_)
  have ha := a.isLt
  have hk := k.isLt
  show k.val + 1536 * a.val = (1536 * a.val + k.val) % 12288
  omega

/-- What the output array ends holding: entry `y` is the contraction over all 12288 rows. -/
abbrev aggOf (c : Dev nD) : Vec Ideal S12288x128 .f32 :=
  fun y => ∑ j : Fin 12288, adjArr V c (ix2 j (y 0)) * msgArr V c (ix2 j (y 1))

/-- After a point that ends a row block's run (contraction block 7) the carried block is that row block of the result. -/
theorem acc_last (c : Dev nD) (t : Fin cfg1.N) (h7 : t.val % 8 = 7) :
    outsAt1 V c t.val t.isLt = fun y : S1536x128.Idx => aggOf V c (ix2 (blkPos (t.val / 8) (y 0)) (y 1)) := by
  funext y
  obtain ⟨p, q, rfl⟩ : ∃ (p : Fin 1536) (q : Fin 128), y = ix2 p q := ⟨y 0, y 1, eq_ix2 y⟩
  rw [acc_eq V c t.val t.isLt p q, h7]
  show _ = ∑ j : Fin 12288, adjArr V c (ix2 j (blkPos (t.val / 8) p)) * msgArr V c (ix2 j q)
  rw [sum_blocks]
  rfl

/-- WHAT A WRITE-BACK WRITES is its block of the result. -/
theorem flushed_eq (c : Dev nD) (t : Fin cfg1.N) (hf : (cfg1.win 2).flush t = true) :
    (dat1 (F := Ideal) V c).flushed 2 t = ((cfg1.win 2).blk t).view.read (Elt Ideal) (aggOf V c) := by
  have h7 : t.val % 8 = 7 := (flush1_2 t).mp hf
  have hN : t.val < 64 := lt_of_lt_of_eq t.isLt N_1
  obtain ⟨-, -, -, -, e4, e5⟩ := idx_facts t
  show (cfg1.win 2).cut (grid1.coords t) ((dat1 V c).after 2 t) = _
  rw [after1_2, acc_last V c t h7]
  funext y
  have hy0 : (y 0).val < 1536 := (y 0).isLt
  have hy1 : (y 1).val < 128 := (y 1).isLt
  show aggOf V c (ix2 (blkPos (t.val / 8) (y 0)) (y 1)) = aggOf V c (((cfg1.win 2).blk t).view.emb y)
  congr 1
  funext a
  apply Fin.ext
  match a with
  | ⟨0, _⟩ =>
    show (1536 * (t.val / 8) + (y 0).val) % 12288 = win1_2.index t (0 : Fin 2) * 1536 + 1 * (y 0).val
    rw [e4]; omega
  | ⟨1, _⟩ =>
    show (y 1).val = win1_2.index t (1 : Fin 2) * 128 + 1 * (y 1).val
    rw [e5]; omega

/-- Row `a` of the array lies in the block written back after point `8 * (a / 1536) + 7`. -/
theorem cover (i : S12288x128.Idx) :
    ∃ t : Fin cfg1.N, (cfg1.win 2).flush t = true ∧ i ∈ ((cfg1.win 2).blk t).view.set := by
  have h0 : (i 0).val < 12288 := (i 0).isLt
  have h1 : (i 1).val < 128 := (i 1).isLt
  have hN : cfg1.N = 64 := N_1
  obtain ⟨t, ht⟩ : ∃ t : Fin cfg1.N, t.val = 8 * ((i 0).val / 1536) + 7 := ⟨⟨_, by rw [hN]; omega⟩, rfl⟩
  obtain ⟨-, -, -, -, e4, e5⟩ := idx_facts t
  refine ⟨t, (flush1_2 t).mpr (by omega), ?_⟩
  show i ∈ ((View.whole (Pipeline.arrRef spec1 2)).slice (win1_2.rect t)).set
  rw [View.set_slice_whole, Rect.mem_set_unit]
  intro a
  match a with
  | ⟨0, _⟩ =>
    show win1_2.index t (0 : Fin 2) * 1536 ≤ (i 0).val ∧ (i 0).val < win1_2.index t (0 : Fin 2) * 1536 + 1536
    rw [e4]; omega
  | ⟨1, _⟩ =>
    show win1_2.index t (1 : Fin 2) * 128 ≤ (i 1).val ∧ (i 1).val < win1_2.index t (1 : Fin 2) * 128 + 128
    rw [e5]; omega

/-- THE RESULT.  Entry `y` of the output array is the full contraction `∑ j, adj (j, y₀) * msg (j, y₁)`. -/
theorem agg_arr (c : Dev nD) :
    (dat1 (F := Ideal) V c).arrAt 2 cfg1.N
      = fun y : S12288x128.Idx => ∑ j : Fin 12288, adjArr V c (ix2 j (y 0)) * msgArr V c (ix2 j (y 1)) :=
  (dat1 (F := Ideal) V c).arrAt_eq_of_cover 2 (aggOf V c) (flushed_eq V c) cover

end Cert.KernelIdeal.R1
end
-- ==== Proof.Region2.lean ====
import proofs.«171011_j28046136442917_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R2

open Cert.KernelIdeal Cert.KernelIdeal.Gen

/-! # The aggregation pass: what its output array holds when the region ends

The grid is 8 x 8; point `t` is the pair (output row block `t / 8`, contraction block `t % 8`).  At every point the
body adds to the carried output block the product of the transposed adjacency block with the (format-converted)
message block; the block is cleared at contraction block 0 and written back after contraction block 7.  Over the
extended reals the format conversion is the identity and the cleared block is `0`, so entry `(a, q)` of the output
array ends as the sum over ALL contraction rows `j` of `adj (j, a) * msg (j, q)` (`agg_arr`).

The steps: what each control case leaves in the output block, as the body's payload of the staged blocks (`out_A`,
`out_B`); the payload at an entry, a carried entry plus a 1536-term contraction (`pay_apply`); the staged blocks as
entries of the arrays (`adjBlk_apply`, `msgBlk_apply`); the invariant of the carried block by induction on the point
(`acc_eq`); the 12288 rows regrouped as 8 blocks of 1536 (`sum_blocks`); each write-back is its block of the result
and the write-backs cover the array (`flushed_eq`, `cover`). -/

section Pieces
variable {F : FTy → Type} [FloatOps F]

/-- Every load and store of the body is at offset `(0, 0)` of its block. -/
theorem hz : (![0, 0] : Fin 2 → Nat) = fun _ => 0 := funext fun a => by fin_cases a <;> rfl

/-- An accumulating point: the body leaves, over the carried block `xo`, the payload of the two input blocks. -/
theorem out_B (c : Dev nD) (i : grid2.Coords) (a2 : Memref sig .tc .vmem S1536x1536 .bf16) (h2 : a2.IsWhole)
    (a3 : Memref sig .tc .vmem S1536x64 .f32) (h3 : a3.IsWhole) (a4 : Memref sig .tc .vmem S1536x64 .f32) (h4 : a4.IsWhole)
    (hc : ¬cond2_0 i) (x0 : Vec F S1536x1536 .bf16) (x1 : Vec F S1536x64 .f32) (xo : Vec F S1536x64 .f32) :
    out2_B_2 c i a2 h2 a3 h3 a4 h4 hc x0 x1 xo = k2_pay2 x0 x1 xo := by
  unfold out2_B_2
  rw [View.read_writes_eq_canon _ _ _ (cover2_B_2 c i a2 h2 a3 h3 a4 h4 hc x0 x1 xo)]
  unfold kernelRun2_B
  dsimp only
  sl_unfold_words
  rw [View.canon_unit_zero hz]
  simp only [View.readAt_eq_ld, h2.read_unread, h3.read_unread, h4.read_unread,
    View.ld_unit_zero (S := S1536x1536) hz, View.ld_unit_zero (S := S1536x64) hz]

/-- A clearing point: the body stores the zero block, reads it back, and leaves the payload over it. -/
theorem out_A (c : Dev nD) (i : grid2.Coords) (a2 : Memref sig .tc .vmem S1536x1536 .bf16) (h2 : a2.IsWhole)
    (a3 : Memref sig .tc .vmem S1536x64 .f32) (h3 : a3.IsWhole) (a4 : Memref sig .tc .vmem S1536x64 .f32) (h4 : a4.IsWhole)
    (hc : cond2_0 i) (x0 : Vec F S1536x1536 .bf16) (x1 : Vec F S1536x64 .f32) :
    out2_A_2 c i a2 h2 a3 h3 a4 h4 hc x0 x1 = k2_pay2 x0 x1 (k2_pay1 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S1536x64) hz, View.readCov_unit_zero (S := S1536x64) _ hz]
  simp only [View.readAt_eq_ld, h2.read_unread, h3.read_unread,
    View.ld_unit_zero (S := S1536x1536) hz, View.ld_unit_zero (S := S1536x64) hz]

end Pieces

/-! ## The payload at an entry -/

/-- The left operand is read, on its contracted axis 0, at the contraction position … -/
theorem lhs_contr (j : S1536x64.Idx) (k : dot_S1536x1536_S1536x64_S1536x64_0_0_1_1_n_n.contr.Idx) :
    ((dot_S1536x1536_S1536x64_S1536x64_0_0_1_1_n_n.lhsIdx j k 0 : Fin _) : ℕ) = (k ⟨0, by decide⟩ : ℕ) :=
  dot_S1536x1536_S1536x64_S1536x64_0_0_1_1_n_n.lhsIdx_val_of_single (cl := 0) rfl j k

/-- … and on its free axis 1 at the result's row; -/
theorem lhs_free (j : S1536x64.Idx) (k : dot_S1536x1536_S1536x64_S1536x64_0_0_1_1_n_n.contr.Idx) :
    ((dot_S1536x1536_S1536x64_S1536x64_0_0_1_1_n_n.lhsIdx j k 1 : Fin _) : ℕ) = (j 0 : ℕ) := by
  unfold DotDims.lhsIdx
  rw [dif_neg (show ¬(1 : Fin S1536x1536.rank) ∈ dot_S1536x1536_S1536x64_S1536x64_0_0_1_1_n_n.lhsBatch by decide),
    dif_pos (show (1 : Fin S1536x1536.rank) ∈ dot_S1536x1536_S1536x64_S1536x64_0_0_1_1_n_n.lhsNonContracting by decide)]
  rfl

/-- the right operand on its contracted axis 0 at the contraction position … -/
theorem rhs_contr (j : S1536x64.Idx) (k : dot_S1536x1536_S1536x64_S1536x64_0_0_1_1_n_n.contr.Idx) :
    ((dot_S1536x1536_S1536x64_S1536x64_0_0_1_1_n_n.rhsIdx j k 0 : Fin _) : ℕ) = (k ⟨0, by decide⟩ : ℕ) :=
  dot_S1536x1536_S1536x64_S1536x64_0_0_1_1_n_n.rhsIdx_val_of_single (cr := 0) rfl j k

/-- … and on its free axis 1 at the result's column. -/
theorem rhs_free (j : S1536x64.Idx) (k : dot_S1536x1536_S1536x64_S1536x64_0_0_1_1_n_n.contr.Idx) :
    ((dot_S1536x1536_S1536x64_S1536x64_0_0_1_1_n_n.rhsIdx j k 1 : Fin _) : ℕ) = (j 1 : ℕ) := by
  unfold DotDims.rhsIdx
  rw [dif_neg (show ¬(1 : Fin S1536x64.rank) ∈ dot_S1536x1536_S1536x64_S1536x64_0_0_1_1_n_n.rhsBatch by decide),
    dif_pos (show (1 : Fin S1536x64.rank) ∈ dot_S1536x1536_S1536x64_S1536x64_0_0_1_1_n_n.rhsNonContracting by decide)]
  rfl

/-- The zero block reads `0` everywhere. -/
theorem zero_apply (y : S1536x64.Idx) : k2_pay1 (F := Ideal) y = 0 := by
  show Ideal.ofBits .f32 0x00000000#32 = 0
  exact Ideal.ofBits_zero_f32

/-- THE PAYLOAD AT AN ENTRY.  Over the extended reals entry `(p, q)` of the body's payload is the carried entry plus
    the contraction, over the 1536 rows of the two blocks, of `lhs (k, p) * rhs (k, q)`: the format change of the
    right operand is the identity and the matrix unit's accumulator starts at `0`. -/
theorem pay_apply (v3 : Vec Ideal S1536x1536 .bf16) (v5 : Vec Ideal S1536x64 .f32) (v8 : Vec Ideal S1536x64 .f32)
    (p : Fin 1536) (q : Fin 64) :
    k2_pay2 (F := Ideal) v3 v5 v8 (ix2 p q) = v8 (ix2 p q) + ∑ k : Fin 1536, v3 (ix2 k p) * v5 (ix2 k q) := by
  unfold k2_pay2
  simp only [shapeCast_self]
  show v8 (ix2 p q) + FloatOps.matmul dot_S1536x1536_S1536x64_S1536x64_0_0_1_1_n_n none v3
      (truncf .bf16 v5 bitsLt_bf16_f32) (constant (F := Ideal) S1536x64 .f32 0x00000000#32) (ix2 p q) = _
  refine congrArg (v8 (ix2 p q) + ·) ?_
  refine (Ideal.matmul_constant_zero_apply dot_S1536x1536_S1536x64_S1536x64_0_0_1_1_n_n none v3
    (truncf .bf16 v5 bitsLt_bf16_f32) (ix2 p q)).trans ?_
  refine (Equiv.sum_comp (contrEquiv1 dot_S1536x1536_S1536x64_S1536x64_0_0_1_1_n_n 1536 rfl rfl).symm _).symm.trans ?_
  refine Finset.sum_congr rfl fun k _ => ?_
  have hk := contrEquiv1_symm_val dot_S1536x1536_S1536x64_S1536x64_0_0_1_1_n_n 1536 rfl rfl k
  have el : dot_S1536x1536_S1536x64_S1536x64_0_0_1_1_n_n.lhsIdx (ix2 p q)
      ((contrEquiv1 dot_S1536x1536_S1536x64_S1536x64_0_0_1_1_n_n 1536 rfl rfl).symm k) = ix2 k p :=
    funext fun a => Fin.ext (by
      match a with
      | ⟨0, _⟩ => exact (lhs_contr _ _).trans hk
      | ⟨1, _⟩ => exact lhs_free _ _)
  have er : dot_S1536x1536_S1536x64_S1536x64_0_0_1_1_n_n.rhsIdx (ix2 p q)
      ((contrEquiv1 dot_S1536x1536_S1536x64_S1536x64_0_0_1_1_n_n 1536 rfl rfl).symm k) = ix2 k q :=
    funext fun a => Fin.ext (by
      match a with
      | ⟨0, _⟩ => exact (rhs_contr _ _).trans hk
      | ⟨1, _⟩ => exact rhs_free _ _)
  show v3 (dot_S1536x1536_S1536x64_S1536x64_0_0_1_1_n_n.lhsIdx (ix2 p q) _) * v5 (dot_S1536x1536_S1536x64_S1536x64_0_0_1_1_n_n.rhsIdx (ix2 p q) _) = _
  rw [el, er]

/-! ## The blocks, read off the arrays -/

variable (V : (c : Dev nD) → (b : Ref sig .tc) → Buf (Elt Ideal) ((c : Thread nD τ).loc b))

/-- The adjacency array the region reads (window 0), at its literal type. -/
abbrev adjArr (c : Dev nD) : Vec Ideal S12288x12288 .bf16 := V c (Pipeline.arrRef spec2 0)
/-- The message array the region reads (window 1), at its literal type. -/
abbrev msgArr (c : Dev nD) : Vec Ideal S12288x64 .f32 := V c (Pipeline.arrRef spec2 1)
/-- The adjacency block staged at point `t`, at its literal type. -/
abbrev adjBlk (c : Dev nD) (t : Fin cfg2.N) : Vec Ideal S1536x1536 .bf16 := iblk2 V c 0 t
/-- The message block staged at point `t`, at its literal type. -/
abbrev msgBlk (c : Dev nD) (t : Fin cfg2.N) : Vec Ideal S1536x64 .f32 := iblk2 V c 1 t

/-- Position `k` of block `b` (blocks of 1536) along an axis of extent 12288. -/
def blkPos (b : ℕ) (k : Fin 1536) : Fin 12288 := ⟨(1536 * b + k.val) % 12288, Nat.mod_lt _ (by decide)⟩

/-- Where the three windows' blocks sit at point `t = (t / 8, t % 8)`: the adjacency block at block row `t % 8`, block
    column `t / 8`; the message block at block row `t % 8`; the output block at block row `t / 8`.  Decided over the grid. -/
theorem idx_facts : ∀ t : Fin cfg2.N,
    win2_0.index t (0 : Fin 2) = t.val % 8 ∧ win2_0.index t (1 : Fin 2) = t.val / 8
      ∧ win2_1.index t (0 : Fin 2) = t.val % 8 ∧ win2_1.index t (1 : Fin 2) = 0
      ∧ win2_2.index t (0 : Fin 2) = t.val / 8 ∧ win2_2.index t (1 : Fin 2) = 0 :=
  (by decide +kernel : ∀ t : Fin grid2.N,
    win2_0.index t (0 : Fin 2) = t.val % 8 ∧ win2_0.index t (1 : Fin 2) = t.val / 8
      ∧ win2_1.index t (0 : Fin 2) = t.val % 8 ∧ win2_1.index t (1 : Fin 2) = 0
      ∧ win2_2.index t (0 : Fin 2) = t.val / 8 ∧ win2_2.index t (1 : Fin 2) = 0)

/-- Entry `(k, p)` of the adjacency block at point `t` is the array's entry at row `k` of block `t % 8`, column `p` of block `t / 8`. -/
theorem adjBlk_apply (c : Dev nD) (t : Fin cfg2.N) (k p : Fin 1536) :
    adjBlk V c t (ix2 k p) = adjArr V c (ix2 (blkPos (t.val % 8) k) (blkPos (t.val / 8) p)) := by
  have hf := idx_facts t
  have hN : t.val < 64 := lt_of_lt_of_eq t.isLt N_2
  have hk := k.isLt
  have hp := p.isLt
  unfold adjBlk adjArr iblk2
  rw [View.read_apply]
  show V c (Pipeline.arrRef spec2 0) _ = V c (Pipeline.arrRef spec2 0) _
  congr 1
  funext a
  apply Fin.ext
  match a with
  | ⟨0, _⟩ =>
    show win2_0.index t 0 * 1536 + 1 * k.val = (1536 * (t.val % 8) + k.val) % 12288
    rw [hf.1]; omega
  | ⟨1, _⟩ =>
    show win2_0.index t 1 * 1536 + 1 * p.val = (1536 * (t.val / 8) + p.val) % 12288
    rw [hf.2.1]; omega

/-- Entry `(k, q)` of the message block at point `t` is the array's entry at row `k` of block `t % 8`, column `q`. -/
theorem msgBlk_apply (c : Dev nD) (t : Fin cfg2.N) (k : Fin 1536) (q : Fin 64) :
    msgBlk V c t (ix2 k q) = msgArr V c (ix2 (blkPos (t.val % 8) k) q) := by
  have hf := idx_facts t
  have hN : t.val < 64 := lt_of_lt_of_eq t.isLt N_2
  have hk := k.isLt
  unfold msgBlk msgArr iblk2
  rw [View.read_apply]
  show V c (Pipeline.arrRef spec2 1) _ = V c (Pipeline.arrRef spec2 1) _
  congr 1
  funext a
  apply Fin.ext
  match a with
  | ⟨0, _⟩ =>
    show win2_1.index t 0 * 1536 + 1 * k.val = (1536 * (t.val % 8) + k.val) % 12288
    rw [hf.2.2.1]; omega
  | ⟨1, _⟩ =>
    show win2_1.index t 1 * 64 + 1 * q.val = q.val
    rw [hf.2.2.2.1]; omega

/-! ## What the carried block holds after each point -/

/-- Contraction block `b`'s share of entry `(p, q)` of output row block `ii`: the 1536 products of its rows. -/
def blkTerm (c : Dev nD) (ii b : ℕ) (p : Fin 1536) (q : Fin 64) : EReal :=
  ∑ k : Fin 1536, adjArr V c (ix2 (blkPos b k) (blkPos ii p)) * msgArr V c (ix2 (blkPos b k) q)

/-- The point's own product, in the arrays' coordinates. -/
theorem prod_eq (c : Dev nD) (t : Fin cfg2.N) (p : Fin 1536) (q : Fin 64) :
    ∑ k : Fin 1536, adjBlk V c t (ix2 k p) * msgBlk V c t (ix2 k q) = blkTerm V c (t.val / 8) (t.val % 8) p q := by
  unfold blkTerm
  exact Finset.sum_congr rfl fun k _ => by rw [adjBlk_apply, msgBlk_apply]

/-- At a clearing point (contraction block 0) the block is left at the point's own product. -/
theorem step_A (c : Dev nD) (t : Fin cfg2.N) (h0 : t.val % 8 = 0) (p : Fin 1536) (q : Fin 64) :
    outsAt2 V c t.val t.isLt (ix2 p q) = blkTerm V c (t.val / 8) (t.val % 8) p q := by
  rw [outsAt2_A V c t h0]
  refine (congrFun (out_A (F := Ideal) c (grid2.coords t) (ms2_0 t) (hs2_0 t) (ms2_1 t) (hs2_1 t) (ms2_2 t) (hs2_2 t)
    ((hcond2_0 t).mpr h0) (adjBlk V c t) (msgBlk V c t)) (ix2 p q)).trans ?_
  refine (pay_apply (adjBlk V c t) (msgBlk V c t) (k2_pay1 (F := Ideal)) p q).trans ?_
  rw [zero_apply, zero_add]
  exact prod_eq V c t p q

/-- At any other point the point's own product is added to what the point before left. -/
theorem step_B (c : Dev nD) (t : Fin cfg2.N) (h0 : ¬t.val % 8 = 0) (p : Fin 1536) (q : Fin 64) :
    outsAt2 V c t.val t.isLt (ix2 p q)
      = outsAt2 V c (t.val - 1) (Nat.lt_of_le_of_lt (Nat.sub_le _ _) t.isLt) (ix2 p q)
        + blkTerm V c (t.val / 8) (t.val % 8) p q := by
  rw [outsAt2_B V c t h0]
  refine (congrFun (out_B (F := Ideal) c (grid2.coords t) (ms2_0 t) (hs2_0 t) (ms2_1 t) (hs2_1 t) (ms2_2 t) (hs2_2 t)
    (fun h => h0 ((hcond2_0 t).mp h)) (adjBlk V c t) (msgBlk V c t)
    (outsAt2 V c (t.val - 1) (Nat.lt_of_le_of_lt (Nat.sub_le _ _) t.isLt))) (ix2 p q)).trans ?_
  refine (pay_apply (adjBlk V c t) (msgBlk V c t)
    (outsAt2 V c (t.val - 1) (Nat.lt_of_le_of_lt (Nat.sub_le _ _) t.isLt)) p q).trans ?_
  exact congrArg (_ + ·) (prod_eq V c t p q)

/-- THE INVARIANT.  After point `n = (n / 8, n % 8)` the carried block holds, at `(p, q)`, the shares of contraction
    blocks `0 … n % 8` of output row block `n / 8` — by induction on the point. -/
theorem acc_eq (c : Dev nD) : ∀ (n : ℕ) (h : n < cfg2.N) (p : Fin 1536) (q : Fin 64),
    outsAt2 V c n h (ix2 p q) = ∑ b ∈ Finset.range (n % 8 + 1), blkTerm V c (n / 8) b p q
  | 0, h, p, q => by
    rw [show (0 % 8 + 1 : ℕ) = 1 from rfl, Finset.sum_range_one]
    exact step_A V c ⟨0, h⟩ rfl p q
  | n + 1, h, p, q => by
    by_cases h0 : (n + 1) % 8 = 0
    · have hs : outsAt2 V c (n + 1) h (ix2 p q) = blkTerm V c ((n + 1) / 8) ((n + 1) % 8) p q :=
        step_A V c ⟨n + 1, h⟩ h0 p q
      rw [hs, h0, Finset.sum_range_one]
    · have e1 : (n + 1) % 8 = n % 8 + 1 := by omega
      have e2 : (n + 1) / 8 = n / 8 := by omega
      have hs : outsAt2 V c (n + 1) h (ix2 p q)
          = outsAt2 V c n (Nat.lt_of_succ_lt h) (ix2 p q) + blkTerm V c ((n + 1) / 8) ((n + 1) % 8) p q :=
        step_B V c ⟨n + 1, h⟩ h0 p q
      rw [hs, acc_eq c n (Nat.lt_of_succ_lt h) p q, e1, e2, Finset.sum_range_succ _ (n % 8 + 1)]

/-! ## From the blocks to the array -/

/-- The 12288 contraction rows are 8 blocks of 1536. -/
theorem sum_blocks {M : Type} [AddCommMonoid M] (f : Fin 12288 → M) :
    ∑ j : Fin 12288, f j = ∑ b ∈ Finset.range 8, ∑ k : Fin 1536, f (blkPos b k) := by
  rw [← Fin.sum_univ_eq_sum_range (fun b => ∑ k : Fin 1536, f (blkPos b k)) 8,
    ← Equiv.sum_comp (finProdFinEquiv : Fin 8 × Fin 1536 ≃ Fin 12288) f, Fintype.sum_prod_type]
  refine Finset.sum_congr rfl fun a _ => Finset.sum_congr rfl fun k _ => congrArg f (Fin.ext ?_)
  have ha := a.isLt
  have hk := k.isLt
  show k.val + 1536 * a.val = (1536 * a.val + k.val) % 12288
  omega

/-- What the output array ends holding: entry `y` is the contraction over all 12288 rows. -/
abbrev aggOf (c : Dev nD) : Vec Ideal S12288x64 .f32 :=
  fun y => ∑ j : Fin 12288, adjArr V c (ix2 j (y 0)) * msgArr V c (ix2 j (y 1))

/-- After a point that ends a row block's run (contraction block 7) the carried block is that row block of the result. -/
theorem acc_last (c : Dev nD) (t : Fin cfg2.N) (h7 : t.val % 8 = 7) :
    outsAt2 V c t.val t.isLt = fun y : S1536x64.Idx => aggOf V c (ix2 (blkPos (t.val / 8) (y 0)) (y 1)) := by
  funext y
  obtain ⟨p, q, rfl⟩ : ∃ (p : Fin 1536) (q : Fin 64), y = ix2 p q := ⟨y 0, y 1, eq_ix2 y⟩
  rw [acc_eq V c t.val t.isLt p q, h7]
  show _ = ∑ j : Fin 12288, adjArr V c (ix2 j (blkPos (t.val / 8) p)) * msgArr V c (ix2 j q)
  rw [sum_blocks]
  rfl

/-- WHAT A WRITE-BACK WRITES is its block of the result. -/
theorem flushed_eq (c : Dev nD) (t : Fin cfg2.N) (hf : (cfg2.win 2).flush t = true) :
    (dat2 (F := Ideal) V c).flushed 2 t = ((cfg2.win 2).blk t).view.read (Elt Ideal) (aggOf V c) := by
  have h7 : t.val % 8 = 7 := (flush2_2 t).mp hf
  have hN : t.val < 64 := lt_of_lt_of_eq t.isLt N_2
  obtain ⟨-, -, -, -, e4, e5⟩ := idx_facts t
  show (cfg2.win 2).cut (grid2.coords t) ((dat2 V c).after 2 t) = _
  rw [after2_2, acc_last V c t h7]
  funext y
  have hy0 : (y 0).val < 1536 := (y 0).isLt
  have hy1 : (y 1).val < 64 := (y 1).isLt
  show aggOf V c (ix2 (blkPos (t.val / 8) (y 0)) (y 1)) = aggOf V c (((cfg2.win 2).blk t).view.emb y)
  congr 1
  funext a
  apply Fin.ext
  match a with
  | ⟨0, _⟩ =>
    show (1536 * (t.val / 8) + (y 0).val) % 12288 = win2_2.index t (0 : Fin 2) * 1536 + 1 * (y 0).val
    rw [e4]; omega
  | ⟨1, _⟩ =>
    show (y 1).val = win2_2.index t (1 : Fin 2) * 64 + 1 * (y 1).val
    rw [e5]; omega

/-- Row `a` of the array lies in the block written back after point `8 * (a / 1536) + 7`. -/
theorem cover (i : S12288x64.Idx) :
    ∃ t : Fin cfg2.N, (cfg2.win 2).flush t = true ∧ i ∈ ((cfg2.win 2).blk t).view.set := by
  have h0 : (i 0).val < 12288 := (i 0).isLt
  have h1 : (i 1).val < 64 := (i 1).isLt
  have hN : cfg2.N = 64 := N_2
  obtain ⟨t, ht⟩ : ∃ t : Fin cfg2.N, t.val = 8 * ((i 0).val / 1536) + 7 := ⟨⟨_, by rw [hN]; omega⟩, rfl⟩
  obtain ⟨-, -, -, -, e4, e5⟩ := idx_facts t
  refine ⟨t, (flush2_2 t).mpr (by omega), ?_⟩
  show i ∈ ((View.whole (Pipeline.arrRef spec2 2)).slice (win2_2.rect t)).set
  rw [View.set_slice_whole, Rect.mem_set_unit]
  intro a
  match a with
  | ⟨0, _⟩ =>
    show win2_2.index t (0 : Fin 2) * 1536 ≤ (i 0).val ∧ (i 0).val < win2_2.index t (0 : Fin 2) * 1536 + 1536
    rw [e4]; omega
  | ⟨1, _⟩ =>
    show win2_2.index t (1 : Fin 2) * 64 ≤ (i 1).val ∧ (i 1).val < win2_2.index t (1 : Fin 2) * 64 + 64
    rw [e5]; omega

/-- THE RESULT.  Entry `y` of the output array is the full contraction `∑ j, adj (j, y₀) * msg (j, y₁)`. -/
theorem agg_arr (c : Dev nD) :
    (dat2 (F := Ideal) V c).arrAt 2 cfg2.N
      = fun y : S12288x64.Idx => ∑ j : Fin 12288, adjArr V c (ix2 j (y 0)) * msgArr V c (ix2 j (y 1)) :=
  (dat2 (F := Ideal) V c).arrAt_eq_of_cover 2 (aggOf V c) (flushed_eq V c) cover

end Cert.KernelIdeal.R2
end
-- ==== Proof.RTerms.lean ====
/-
  The array-level terms of the reference: each stage of @main as ONE function of the arrays it reads,
  spelled with the operations the program applies, in the program's order. The stage lemmas state the run's buffers
  at these terms; the comparison of the two programs is made between these functions.
-/
import proofs.«171011_j28046136442917_2_alg».proof.Proof.Gen.ReferenceIdeal

noncomputable section

namespace Cert.ReferenceIdeal.RV

open Idealize.ShloMosaic Cert.ReferenceIdeal Cert.ReferenceIdeal.Gen

variable {F : FTy → Type} [FloatOps F]

/-- The index pairs `(k, k)` of the diagonal, as the scatter takes them: `iota` with the (never taken) wrap of a
    negative index, twice, side by side. -/
def diagIdx : (⟨S12288x2, .i32⟩ : BufTy).Contents (Elt F) :=
  let io : (⟨S12288, .i32⟩ : BufTy).Contents (Elt F) := iotaInDim S12288 32 0
  let wrap : (⟨S12288, .i32⟩ : BufTy).Contents (Elt F) := select (cmpi .slt io (broadcastInDim S12288 ![] bcast_S_S12288 (constantI S_ 32 0#32)))
      (addi io (broadcastInDim S12288 ![] bcast_S_S12288 (constantI S_ 32 12288#32))) io
  concatenate S12288x2 1 [⟨S12288x1, broadcastInDim S12288x1 ![0] bcast_S12288_S12288x1_0 wrap⟩, ⟨S12288x1, broadcastInDim S12288x1 ![0] bcast_S12288_S12288x1_0 wrap⟩] concatenates_S12288x1_S12288x1_S12288x2_d1

/-- The adjacency with self-loops: `adj` plus one at every diagonal entry. -/
def ahat (adj : FVec F S12288x12288 .f32) : FVec F S12288x12288 .f32 :=
  Host.scatterAdd scatter_S12288x12288_S12288x2_S12288_n_01_01_1 adj (diagIdx (F := F)) (broadcastInDim S12288 ![] bcast_S_S12288 (constant S_ .f32 0x3F800000#32))

/-- The inverse square root of the degrees (column sums of `ahat`), zero where the degree is not positive. -/
def dinv (ah : FVec F S12288x12288 .f32) : FVec F S12288 .f32 :=
  let deg : FVec F S12288 .f32 := Host.reduceAdd ah (constant S_ .f32 0x00000000#32) reducesTo_S12288x12288_S12288_d0 h_S_
  select (cmpf .ogt deg (broadcastInDim S12288 ![] bcast_S_S12288 (constant S_ .f32 0x00000000#32))) (Host.rsqrt deg)
    (broadcastInDim S12288 ![] bcast_S_S12288 (id (constant S_ .f32 0x00000000#32)))

/-- The transposed normalised adjacency: entry `(a, b)` is `(dinv b · ahat (b, a)) · dinv a`. -/
def anT (ah : FVec F S12288x12288 .f32) (dv : FVec F S12288 .f32) : FVec F S12288x12288 .f32 :=
  transpose S12288x12288 [1, 0]
    (mulf (mulf (broadcastInDim S12288x12288 ![0, 1] bcast_S12288x1_S12288x12288_0_1 (broadcastInDim S12288x1 ![0] bcast_S12288_S12288x1_0 dv)) ah)
      (broadcastInDim S12288x12288 ![0, 1] bcast_S1x12288_S12288x12288_0_1 (broadcastInDim S1x12288 ![1] bcast_S12288_S1x12288_1 dv)))
    transposes_S12288x12288_S12288x12288_1_0

/-- The first layer's messages `x · W₁`. -/
def msg1 (x : FVec F S12288x256 .f32) (w : FVec F S256x128 .f32) : FVec F S12288x128 .f32 :=
  Host.dotGeneral dot_S12288x256_S256x128_S12288x128_1_0_0_1_n_n none x w

/-- The second layer's messages `h · W₂`. -/
def msg2 (h : FVec F S12288x128 .f32) (w : FVec F S128x64 .f32) : FVec F S12288x64 .f32 :=
  Host.dotGeneral dot_S12288x128_S128x64_S12288x64_1_0_0_1_n_n none h w

/-- A layer's pre-normalisation output of width 128: the normalised adjacency applied to the messages, plus the bias. -/
def z128 (an : FVec F S12288x12288 .f32) (msg : FVec F S12288x128 .f32) (b : FVec F S128 .f32) : FVec F S12288x128 .f32 :=
  addf (Host.dotGeneral dot_S12288x12288_S12288x128_S12288x128_1_0_0_1_n_n none an msg)
    (broadcastInDim S12288x128 ![0, 1] bcast_S1x128_S12288x128_0_1 (broadcastInDim S1x128 ![1] bcast_S128_S1x128_1 b))

/-- The same of width 64. -/
def z64 (an : FVec F S12288x12288 .f32) (msg : FVec F S12288x64 .f32) (b : FVec F S64 .f32) : FVec F S12288x64 .f32 :=
  addf (Host.dotGeneral dot_S12288x12288_S12288x64_S12288x64_1_0_0_1_n_n none an msg)
    (broadcastInDim S12288x64 ![0, 1] bcast_S1x64_S12288x64_0_1 (broadcastInDim S1x64 ![1] bcast_S64_S1x64_1 b))

/-- Batch normalisation over the rows of a [12288, 128] array, then the positive part: each column is centred at its mean, scaled by the inverse
    root of its (biased) variance plus ε, times γ plus β. The operations are those the program applies, in its order. -/
def bnRelu128 (z : FVec F S12288x128 .f32) (g be : FVec F S128 .f32) : FVec F S12288x128 .f32 :=
  let mean : FVec F S128 .f32 := Host.divf (Host.reduceAdd z (constant S_ .f32 0x00000000#32) reducesTo_S12288x128_S128_d0 h_S_) (broadcastInDim S128 ![] bcast_S_S128 (constant S_ .f32 0x46400000#32))
  let cen : FVec F S12288x128 .f32 := subf z (broadcastInDim S12288x128 ![0, 1] bcast_S1x128_S12288x128_0_1 (Host.divf (broadcastInDim S1x128 ![1] bcast_S128_S1x128_1 (Host.reduceAdd z (constant S_ .f32 0x00000000#32) reducesTo_S12288x128_S128_d0 h_S_)) (broadcastInDim S1x128 ![] bcast_S_S1x128 (constant S_ .f32 0x46400000#32))))
  let cnt : FVec F S_ .f32 := subf (constant S_ .f32 0x46400000#32) (sitofp .f32 (constantI S_ 32 0#32))
  let var : FVec F S128 .f32 := select (broadcastInDim S128 ![] bcast_S_S128 (cmpf .ogt cnt (constant S_ .f32 0x00000000#32)))
      (Host.divf (Host.reduceAdd (mulf cen cen) (constant S_ .f32 0x00000000#32) reducesTo_S12288x128_S128_d0 h_S_) (broadcastInDim S128 ![] bcast_S_S128 cnt))
      (broadcastInDim S128 ![] bcast_S_S128 (id (constant S_ .f32 0x7FC00000#32)))
  let inv : FVec F S128 .f32 := Host.rsqrt (addf var (broadcastInDim S128 ![] bcast_S_S128 (constant S_ .f32 0x3727C5AC#32)))
  let y : FVec F S12288x128 .f32 := addf (mulf (mulf (subf z (broadcastInDim S12288x128 ![0, 1] bcast_S1x128_S12288x128_0_1 (broadcastInDim S1x128 ![1] bcast_S128_S1x128_1 mean)))
      (broadcastInDim S12288x128 ![0, 1] bcast_S1x128_S12288x128_0_1 (broadcastInDim S1x128 ![1] bcast_S128_S1x128_1 inv)))
      (broadcastInDim S12288x128 ![0, 1] bcast_S1x128_S12288x128_0_1 (broadcastInDim S1x128 ![1] bcast_S128_S1x128_1 g)))
      (broadcastInDim S12288x128 ![0, 1] bcast_S1x128_S12288x128_0_1 (broadcastInDim S1x128 ![1] bcast_S128_S1x128_1 be))
  maximumf y (broadcastInDim S12288x128 ![] bcast_S_S12288x128 (constant S_ .f32 0x00000000#32))

/-- Batch normalisation over the rows of a [12288, 64] array: each column is centred at its mean, scaled by the inverse
    root of its (biased) variance plus ε, times γ plus β. The operations are those the program applies, in its order. -/
def bn64 (z : FVec F S12288x64 .f32) (g be : FVec F S64 .f32) : FVec F S12288x64 .f32 :=
  let mean : FVec F S64 .f32 := Host.divf (Host.reduceAdd z (constant S_ .f32 0x00000000#32) reducesTo_S12288x64_S64_d0 h_S_) (broadcastInDim S64 ![] bcast_S_S64 (constant S_ .f32 0x46400000#32))
  let cen : FVec F S12288x64 .f32 := subf z (broadcastInDim S12288x64 ![0, 1] bcast_S1x64_S12288x64_0_1 (Host.divf (broadcastInDim S1x64 ![1] bcast_S64_S1x64_1 (Host.reduceAdd z (constant S_ .f32 0x00000000#32) reducesTo_S12288x64_S64_d0 h_S_)) (broadcastInDim S1x64 ![] bcast_S_S1x64 (constant S_ .f32 0x46400000#32))))
  let cnt : FVec F S_ .f32 := subf (constant S_ .f32 0x46400000#32) (sitofp .f32 (constantI S_ 32 0#32))
  let var : FVec F S64 .f32 := select (broadcastInDim S64 ![] bcast_S_S64 (cmpf .ogt cnt (constant S_ .f32 0x00000000#32)))
      (Host.divf (Host.reduceAdd (mulf cen cen) (constant S_ .f32 0x00000000#32) reducesTo_S12288x64_S64_d0 h_S_) (broadcastInDim S64 ![] bcast_S_S64 cnt))
      (broadcastInDim S64 ![] bcast_S_S64 (id (constant S_ .f32 0x7FC00000#32)))
  let inv : FVec F S64 .f32 := Host.rsqrt (addf var (broadcastInDim S64 ![] bcast_S_S64 (constant S_ .f32 0x3727C5AC#32)))
  let y : FVec F S12288x64 .f32 := addf (mulf (mulf (subf z (broadcastInDim S12288x64 ![0, 1] bcast_S1x64_S12288x64_0_1 (broadcastInDim S1x64 ![1] bcast_S64_S1x64_1 mean)))
      (broadcastInDim S12288x64 ![0, 1] bcast_S1x64_S12288x64_0_1 (broadcastInDim S1x64 ![1] bcast_S64_S1x64_1 inv)))
      (broadcastInDim S12288x64 ![0, 1] bcast_S1x64_S12288x64_0_1 (broadcastInDim S1x64 ![1] bcast_S64_S1x64_1 g)))
      (broadcastInDim S12288x64 ![0, 1] bcast_S1x64_S12288x64_0_1 (broadcastInDim S1x64 ![1] bcast_S64_S1x64_1 be))
  y

end Cert.ReferenceIdeal.RV

end
-- ==== Proof.Spec.lean ====
import Mathlib.Data.EReal.Basic
import Mathlib.Data.EReal.Operations
import Mathlib.Algebra.BigOperators.Group.Finset.Basic
import Mathlib.Algebra.BigOperators.Group.Finset.Piecewise
import Mathlib.Algebra.BigOperators.Group.Finset.Sigma
import Mathlib.Algebra.Order.BigOperators.Group.Finset
import Mathlib.Logic.Equiv.Fin.Basic
import Mathlib.Analysis.SpecialFunctions.Pow.Real
import Idealize.ShloMosaic.PureOps.Ideal

/-! Pure mathematics over the extended reals used to compare a normalised graph
aggregation written in two ways.  Nothing here mentions a program: the index types
are abstract finite types, the coefficients are nonnegative reals, and the
aggregated family `msg` is an arbitrary extended-real family (it may take the
values `⊤` and `⊥`), so only nonnegative real factors are ever moved across a sum. -/

open scoped BigOperators

namespace Cert.Spec

variable {ι κ : Type} [Fintype ι] [DecidableEq ι]

/-! ### Finite sums and the coercion from the reals -/

/-- The coercion `ℝ → EReal` commutes with sums over a finite set. -/
theorem sum_coe_finset {α : Type} (s : Finset α) (f : α → ℝ) :
    (∑ i ∈ s, ((f i : ℝ) : EReal)) = ((∑ i ∈ s, f i : ℝ) : EReal) := by
  classical
  induction s using Finset.induction_on with
  | empty => simp
  | insert x s hx ih => rw [Finset.sum_insert hx, Finset.sum_insert hx, ih, EReal.coe_add]

/-- The coercion `ℝ → EReal` commutes with finite sums. -/
theorem sum_coe (f : ι → ℝ) : (∑ i, ((f i : ℝ) : EReal)) = ((∑ i, f i : ℝ) : EReal) :=
  sum_coe_finset Finset.univ f

/-- A nonnegative real distributes over a sum of extended reals over a finite set:
`r * (y + z) = r * y + r * z` holds for every `y z` once `0 ≤ r < ⊤`. -/
theorem coe_mul_sum_finset {α : Type} (s : Finset α) (r : ℝ) (hr : 0 ≤ r) (f : α → EReal) :
    (r : EReal) * ∑ i ∈ s, f i = ∑ i ∈ s, (r : EReal) * f i := by
  classical
  have h0 : (0 : EReal) ≤ (r : EReal) := EReal.coe_nonneg.2 hr
  induction s using Finset.induction_on with
  | empty => simp
  | insert x s hx ih =>
    rw [Finset.sum_insert hx, Finset.sum_insert hx,
      EReal.left_distrib_of_nonneg_of_ne_top h0 (EReal.coe_ne_top r), ih]

/-- A nonnegative real distributes over a finite sum of extended reals. -/
theorem coe_mul_sum (r : ℝ) (hr : 0 ≤ r) (f : ι → EReal) :
    (r : EReal) * ∑ i, f i = ∑ i, (r : EReal) * f i :=
  coe_mul_sum_finset Finset.univ r hr f

/-- The same with the factor on the right. -/
theorem sum_mul_coe (r : ℝ) (hr : 0 ≤ r) (f : ι → EReal) :
    (∑ i, f i) * (r : EReal) = ∑ i, f i * (r : EReal) := by
  rw [mul_comm, coe_mul_sum r hr f]
  exact Finset.sum_congr rfl (fun i _ => mul_comm _ _)

/-- A finite sum of nonnegative reals, read in the extended reals, is a nonnegative real. -/
theorem sum_ex (f : ι → EReal) (hf : ∀ i, ∃ r : ℝ, 0 ≤ r ∧ f i = (r : EReal)) :
    ∃ r : ℝ, 0 ≤ r ∧ ∑ i, f i = (r : EReal) := by
  choose g hg0 hge using hf
  refine ⟨∑ i, g i, Finset.sum_nonneg (fun i _ => hg0 i), ?_⟩
  simp only [hge]
  exact sum_coe g

/-- The two ways of writing the Kronecker delta agree. -/
theorem delta_comm (a b : ι) :
    (if a = b then (1 : EReal) else 0) = (if b = a then (1 : EReal) else 0) := by
  by_cases h : b = a
  · rw [if_pos h, if_pos h.symm]
  · rw [if_neg h, if_neg (fun e => h e.symm)]

/-! ### The aggregation identity -/

/-- One summand of the aggregation identity.  The coefficient
`d_b * (A_ba + δ_ba) * d_a` is the nonnegative real `d_b * A_ba * d_a + δ_ba * d_a * d_a`;
a sum of two nonnegative factors distributes over any extended real. -/
theorem agg_term (d : ι → ℝ) (hd : ∀ i, 0 ≤ d i) (A : ι → ι → ℝ) (hA : ∀ i j, 0 ≤ A i j)
    (msg : ι → EReal) (a b : ι) :
    (((d b : EReal) * ((A b a : EReal) + (if b = a then (1 : EReal) else 0)))
        * (d a : EReal)) * msg b
      = (d a : EReal) * ((A b a : EReal) * ((d b : EReal) * msg b))
        + (if b = a then (d a : EReal) * ((d a : EReal) * msg a) else 0) := by
  by_cases h : b = a
  · simp only [if_pos h]
    rw [h]
    have h1 : ((d a : EReal) * ((A a a : EReal) + 1)) * (d a : EReal)
        = ((d a * A a a * d a : ℝ) : EReal) + ((d a * d a : ℝ) : EReal) := by
      rw [← EReal.coe_one, ← EReal.coe_add, ← EReal.coe_mul, ← EReal.coe_mul, ← EReal.coe_add]
      congr 1
      ring
    rw [h1, EReal.right_distrib_of_nonneg
      (EReal.coe_nonneg.2 (mul_nonneg (mul_nonneg (hd a) (hA a a)) (hd a)))
      (EReal.coe_nonneg.2 (mul_nonneg (hd a) (hd a)))]
    rw [EReal.coe_mul, EReal.coe_mul, EReal.coe_mul]
    congr 1
    · ac_rfl
    · rw [mul_assoc]
  · simp only [if_neg h, add_zero]
    ac_rfl

/-- The aggregation identity: `d_a * (∑_b A_ba * (d_b * m_b) + d_a * m_a)`
equals `∑_b (d_b * (A_ba + δ_ba) * d_a) * m_b`.  The factor `d_a` enters the sum
because it is a nonnegative real; each summand is split by `agg_term`; the sum of the
`δ`-parts collapses to its single term `b = a`. -/
theorem agg_identity (d : ι → ℝ) (hd : ∀ i, 0 ≤ d i) (A : ι → ι → ℝ) (hA : ∀ i j, 0 ≤ A i j)
    (msg : ι → EReal) (a : ι) :
    (d a : EReal) * ((∑ b, (A b a : EReal) * ((d b : EReal) * msg b)) + (d a : EReal) * msg a)
      = ∑ b, (((d b : EReal) * ((A b a : EReal) + (if b = a then (1 : EReal) else 0)))
            * (d a : EReal)) * msg b := by
  have h0 : (0 : EReal) ≤ (d a : EReal) := EReal.coe_nonneg.2 (hd a)
  rw [EReal.left_distrib_of_nonneg_of_ne_top h0 (EReal.coe_ne_top _), coe_mul_sum _ (hd a),
    Finset.sum_congr rfl (fun b _ => agg_term d hd A hA msg a b), Finset.sum_add_distrib,
    Finset.sum_ite_eq', if_pos (Finset.mem_univ a)]

/-- The aggregation identity with the Kronecker delta written `a = b`. -/
theorem agg_identity_symm (d : ι → ℝ) (hd : ∀ i, 0 ≤ d i) (A : ι → ι → ℝ)
    (hA : ∀ i j, 0 ≤ A i j) (msg : ι → EReal) (a : ι) :
    (d a : EReal) * ((∑ b, (A b a : EReal) * ((d b : EReal) * msg b)) + (d a : EReal) * msg a)
      = ∑ b, (((d b : EReal) * ((A b a : EReal) + (if a = b then (1 : EReal) else 0)))
            * (d a : EReal)) * msg b := by
  simp only [delta_comm a]
  exact agg_identity d hd A hA msg a

/-- The aggregation identity for extended-real coefficient families that are known to
take nonnegative real values. -/
theorem agg_identity_ex (d : ι → EReal) (hd : ∀ i, ∃ r : ℝ, 0 ≤ r ∧ d i = (r : EReal))
    (A : ι → ι → EReal) (hA : ∀ i j, ∃ r : ℝ, 0 ≤ r ∧ A i j = (r : EReal))
    (msg : ι → EReal) (a : ι) :
    d a * ((∑ b, A b a * (d b * msg b)) + d a * msg a)
      = ∑ b, ((d b * (A b a + (if b = a then (1 : EReal) else 0))) * d a) * msg b := by
  choose d' hd0 hde using hd
  choose A' hA0 hAe using hA
  simp only [hde, hAe]
  exact agg_identity d' hd0 A' hA0 msg a

/-- The same with the Kronecker delta written `a = b`. -/
theorem agg_identity_ex_symm (d : ι → EReal) (hd : ∀ i, ∃ r : ℝ, 0 ≤ r ∧ d i = (r : EReal))
    (A : ι → ι → EReal) (hA : ∀ i j, ∃ r : ℝ, 0 ≤ r ∧ A i j = (r : EReal))
    (msg : ι → EReal) (a : ι) :
    d a * ((∑ b, A b a * (d b * msg b)) + d a * msg a)
      = ∑ b, ((d b * (A b a + (if a = b then (1 : EReal) else 0))) * d a) * msg b := by
  simp only [delta_comm a]
  exact agg_identity_ex d hd A hA msg a

/-! ### Degrees -/

/-- Column sums of `A + I`: the degree is the column sum of `A` plus one. -/
theorem deg_eq (A : ι → ι → ℝ) (j : ι) :
    (∑ i, ((A i j : EReal) + (if i = j then (1 : EReal) else 0)))
      = ((∑ i, A i j : ℝ) : EReal) + 1 := by
  rw [Finset.sum_add_distrib, sum_coe, Finset.sum_ite_eq', if_pos (Finset.mem_univ j)]

/-- The same with the Kronecker delta written `j = i`. -/
theorem deg_eq_symm (A : ι → ι → ℝ) (j : ι) :
    (∑ i, ((A i j : EReal) + (if j = i then (1 : EReal) else 0)))
      = ((∑ i, A i j : ℝ) : EReal) + 1 := by
  simp only [delta_comm j]
  exact deg_eq A j

/-- The same for an extended-real family with real values. -/
theorem deg_eq_ex (A : ι → ι → EReal) (hA : ∀ i j, ∃ r : ℝ, 0 ≤ r ∧ A i j = (r : EReal)) (j : ι) :
    (∑ i, (A i j + (if i = j then (1 : EReal) else 0))) = (∑ i, A i j) + 1 := by
  rw [Finset.sum_add_distrib, Finset.sum_ite_eq', if_pos (Finset.mem_univ j)]

/-! ### The reciprocal square root -/

/-- The reciprocal square root at a positive real. -/
theorem rsqrt_pos (r : ℝ) (hr : 0 < r) :
    Idealize.ShloMosaic.Ideal.rsqrt (r : EReal) = (((Real.sqrt r)⁻¹ : ℝ) : EReal) := by
  rw [Idealize.ShloMosaic.Ideal.rsqrt_coe, if_neg (not_lt.2 hr.le), if_neg hr.ne']

theorem rsqrt_pos_nonneg (r : ℝ) : 0 ≤ (Real.sqrt r)⁻¹ :=
  inv_nonneg.2 (Real.sqrt_nonneg r)

/-- The reciprocal square root of a positive real is a nonnegative real. -/
theorem rsqrt_pos_ex (r : ℝ) (hr : 0 < r) :
    ∃ s : ℝ, 0 ≤ s ∧ Idealize.ShloMosaic.Ideal.rsqrt (r : EReal) = (s : EReal) :=
  ⟨(Real.sqrt r)⁻¹, rsqrt_pos_nonneg r, rsqrt_pos r hr⟩

/-! ### Sums in consecutive blocks -/

/-- The index `b * k + r` of the `r`-th entry of the `b`-th block lies below `n * k`. -/
theorem blk_lt {n k : ℕ} (b : Fin n) (r : Fin k) : b.val * k + r.val < n * k := by
  have hb := b.isLt
  have hr := r.isLt
  calc b.val * k + r.val < b.val * k + k := by omega
    _ = (b.val + 1) * k := by ring
    _ ≤ n * k := Nat.mul_le_mul_right k hb

/-- A sum over `Fin (n * k)` regrouped into `n` consecutive blocks of length `k`:
the map `(b, r) ↦ b * k + r` is a bijection `Fin n × Fin k ≃ Fin (n * k)`. -/
theorem sum_blocks (n k : ℕ) (f : Fin (n * k) → EReal) :
    ∑ i, f i = ∑ b : Fin n, ∑ r : Fin k, f ⟨b.val * k + r.val, blk_lt b r⟩ := by
  have h := Fintype.sum_equiv finProdFinEquiv
    (fun p : Fin n × Fin k => f (finProdFinEquiv p)) f (fun _ => rfl)
  rw [← h, Fintype.sum_prod_type]
  refine Finset.sum_congr rfl (fun b _ => Finset.sum_congr rfl (fun r _ => ?_))
  congr 1
  ext
  simp only [finProdFinEquiv_apply_val]
  ring

end Cert.Spec
-- ==== Proof.KerIndex.lean ====
/-
  The kernel program's stage functions read at one index, at the ideal instance (floats as extended reals):
  the inverse square root of the degrees, the row scaling of the messages, and a layer's output before normalisation.
  Each array-level term of KTerms.lean is brought to the arithmetic of its entries, so that an equation of arrays can
  be reduced to an equation of extended reals per (row, column).
-/
import proofs.«171011_j28046136442917_2_alg».proof.Proof.KTerms
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.KI

open Cert.KernelIdeal Cert.KernelIdeal.Gen Idealize.ShloMosaic Idealize.ShloMosaic.ValueIdx

/-! ## Broadcasts of a column, of a vector to one row, and of one row, read at an index -/

/-- A column [a, 1] copied along the columns of [a, b] reads, at (p, c), the column's entry p. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- One row [1, b] copied down the rows of [a, b] reads, at (p, c), the row's entry c. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector [b] laid as the one row of [1, b] reads, at (u, c), the vector's entry c. -/
theorem broadcastInDim_b_1b_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-! ## The stage functions at an index -/

/-- The inverse root of the degrees at row a: 1/sqrt(colsum a + 1). -/
theorem dinv_apply (cs : FVec Ideal S1x12288 .f32) (a : Fin 12288) :
    KV.dinv cs (ix2 a (0 : Fin 1)) = Ideal.rsqrt (cs (ix2 (0 : Fin 1) a) + 1) := by
  unfold KV.dinv
  refine (transpose_ix2_apply _ _ a (0 : Fin 1)).trans ?_
  show Ideal.rsqrt (addf cs _ (ix2 (0 : Fin 1) a)) = _
  rw [addf_apply, broadcastInDim_scalar_apply, constant_apply, Ideal.ofBits_one_f32]

/-- The scaled messages of width 128 at (a, c): dinv a times the message. -/
theorem scale128_apply (dvv : FVec Ideal S12288x1 .f32) (msg : FVec Ideal S12288x128 .f32) (a : Fin 12288) (c : Fin 128) :
    KV.scale128 dvv msg (ix2 a c) = dvv (ix2 a (0 : Fin 1)) * msg (ix2 a c) := by
  unfold KV.scale128
  rw [mulf_apply, broadcastInDim_a1_ab_apply]

/-- The scaled messages of width 64 at (a, c): dinv a times the message. -/
theorem scale64_apply (dvv : FVec Ideal S12288x1 .f32) (msg : FVec Ideal S12288x64 .f32) (a : Fin 12288) (c : Fin 64) :
    KV.scale64 dvv msg (ix2 a c) = dvv (ix2 a (0 : Fin 1)) * msg (ix2 a c) := by
  unfold KV.scale64
  rw [mulf_apply, broadcastInDim_a1_ab_apply]

/-- A layer's output of width 128 before normalisation at (a, c): dinv a · (t + scaled) + bias c. -/
theorem z128_apply (dvv : FVec Ideal S12288x1 .f32) (t sc : FVec Ideal S12288x128 .f32) (bias : FVec Ideal S128 .f32)
    (a : Fin 12288) (c : Fin 128) :
    KV.z128 dvv t sc bias (ix2 a c) = dvv (ix2 a (0 : Fin 1)) * (t (ix2 a c) + sc (ix2 a c)) + bias (ix1 c) := by
  unfold KV.z128
  rw [addf_apply, mulf_apply, addf_apply, broadcastInDim_a1_ab_apply, broadcastInDim_1b_ab_apply,
    broadcastInDim_b_1b_apply]

/-- A layer's output of width 64 before normalisation at (a, c): dinv a · (t + scaled) + bias c. -/
theorem z64_apply (dvv : FVec Ideal S12288x1 .f32) (t sc : FVec Ideal S12288x64 .f32) (bias : FVec Ideal S64 .f32)
    (a : Fin 12288) (c : Fin 64) :
    KV.z64 dvv t sc bias (ix2 a c) = dvv (ix2 a (0 : Fin 1)) * (t (ix2 a c) + sc (ix2 a c)) + bias (ix1 c) := by
  unfold KV.z64
  rw [addf_apply, mulf_apply, addf_apply, broadcastInDim_a1_ab_apply, broadcastInDim_1b_ab_apply,
    broadcastInDim_b_1b_apply]

/-! ## Arrays equal entry by entry -/

/-- Two [12288, 128] arrays that agree at every (a, c) are equal. -/
theorem eq_of_ix2_128 {α : Type} (X Y : S12288x128.Idx → α) (h : ∀ (a : Fin 12288) (c : Fin 128), X (ix2 a c) = Y (ix2 a c)) :
    X = Y := by
  funext j
  rw [eq_ix2 j]
  exact h _ _

/-- Two [12288, 64] arrays that agree at every (a, c) are equal. -/
theorem eq_of_ix2_64 {α : Type} (X Y : S12288x64.Idx → α) (h : ∀ (a : Fin 12288) (c : Fin 64), X (ix2 a c) = Y (ix2 a c)) :
    X = Y := by
  funext j
  rw [eq_ix2 j]
  exact h _ _

/-- Two [12288, 1] columns that agree at every row are equal. -/
theorem eq_of_ix2_col {α : Type} (X Y : S12288x1.Idx → α) (h : ∀ a : Fin 12288, X (ix2 a (0 : Fin 1)) = Y (ix2 a (0 : Fin 1))) :
    X = Y := by
  funext j
  obtain ⟨a, u, rfl⟩ : ∃ (a : Fin 12288) (u : Fin 1), j = ix2 a u := ⟨j 0, j 1, eq_ix2 j⟩
  obtain rfl : u = 0 := Subsingleton.elim _ _
  exact h a

end Cert.KernelIdeal.KI

end
-- ==== Proof.RefIndex.lean ====
/-
  The reference's stage functions read at an index, at the ideal instance (extended reals): the adjacency with
  self-loops, the degrees, their inverse square roots, the transposed normalised adjacency, and the two layers'
  pre-normalisation outputs, each as the elementary expression in the entries of the arrays it reads.

  The self-loops are added by an accumulating scatter of the constant one along the index pairs `(m, m)`: at the
  ideal instance an entry receives the sum of the updates landing on it, and update row `m` lands exactly on
  `(m, m)`, so entry `(i, j)` receives one when `i = j` and nothing otherwise.
-/
import proofs.«171011_j28046136442917_2_alg».proof.Proof.RTerms
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RI

open Cert.ReferenceIdeal Cert.ReferenceIdeal.Gen Idealize.ShloMosaic Idealize.ShloMosaic.ValueIdx

/-! ## The index pairs of the diagonal -/

/-- A natural number below `12288`, as a 32-bit word read signed, is itself. -/
theorem toInt_small (m : Nat) (hm : m < 12288) : (BitVec.ofNat 32 m).toInt = (m : Int) := by
  rw [BitVec.toInt_eq_toNat_cond, BitVec.toNat_ofNat]
  have : m % 2 ^ 32 = m := Nat.mod_eq_of_lt (by omega)
  rw [this, if_pos (by omega)]

/-- Such a word is not below zero in the signed order. -/
theorem slt_zero_false (m : Nat) (hm : m < 12288) : IntOp.cmpi .slt (BitVec.ofNat 32 m) 0#32 = 0#1 := by
  have h : (BitVec.ofNat 32 m).slt 0#32 = false := by
    rw [BitVec.slt_eq_decide, toInt_small m hm]
    simp
  show BitVec.ofBool ((BitVec.ofNat 32 m).slt 0#32) = 0#1
  rw [h]; rfl

/-- The column both halves of the index pairs repeat: entry `m` is the word `m` (the branch that would add
    `12288` to a negative index is never taken). -/
theorem wrap_apply (m : Fin 12288) :
    (select (cmpi .slt (iotaInDim S12288 32 0) (broadcastInDim S12288 ![] bcast_S_S12288 (constantI S_ 32 0#32)))
      (addi (iotaInDim S12288 32 0) (broadcastInDim S12288 ![] bcast_S_S12288 (constantI S_ 32 12288#32))) (iotaInDim S12288 32 0) : IVec S12288 32) (ix1 m)
      = BitVec.ofNat 32 m.val := by
  rw [select_apply]
  show Scalar.select (IntOp.cmpi .slt (BitVec.ofNat 32 m.val) 0#32) _ (BitVec.ofNat 32 m.val) = _
  rw [slt_zero_false m.val m.isLt, select_zero]

/-- The array of index pairs: row `m` holds `(m, m)`. -/
theorem diagIdx_apply (m : Fin 12288) (c : Fin 2) : RV.diagIdx (F := Ideal) (ix2 m c) = BitVec.ofNat 32 m.val := by
  unfold RV.diagIdx
  match c with
  | ⟨0, _⟩ =>
    refine (concatenate_pair_apply_left (t := S12288x2) (s₁ := S12288x1) (s₂ := S12288x1) 1 _ _
      concatenates_S12288x1_S12288x1_S12288x2_d1 _ rfl (ix2 m (0 : Fin 1))
      (by intro b; match b with | ⟨0, _⟩ => rfl | ⟨1, _⟩ => rfl)).trans ?_
    rw [broadcastInDim_apply _ _ _ _ (ix1 m) (by intro a; match a with | ⟨0, _⟩ => rfl)]
    exact wrap_apply m
  | ⟨1, _⟩ =>
    refine (concatenate_pair_apply_right (t := S12288x2) (s₁ := S12288x1) (s₂ := S12288x1) 1 _ _
      concatenates_S12288x1_S12288x1_S12288x2_d1 _ rfl rfl (ix2 m (0 : Fin 1))
      (by intro b hb; match b, hb with | ⟨0, _⟩, _ => rfl | ⟨1, _⟩, hb => exact absurd rfl hb) rfl).trans ?_
    rw [broadcastInDim_apply _ _ _ _ (ix1 m) (by intro a; match a with | ⟨0, _⟩ => rfl)]
    exact wrap_apply m

/-! ## Where each update row lands -/

/-- The scatter's dimension numbers: no window axes, both operand axes inserted and named by the index pair. -/
abbrev D : ScatterDims S12288x12288 S12288x2 S12288 := scatter_S12288x12288_S12288x2_S12288_n_01_01_1

/-- Update row `m` reads component `c` of its index pair at `(m, c)`. -/
theorem siIdx_apply (m : Fin 12288) (c : Fin D.scatterDimsToOperandDims.length) :
    D.siIdx (ix1 m) c = ix2 m (⟨c.val, c.isLt⟩ : Fin 2) := by
  funext b; refine Fin.ext ?_
  match b with
  | ⟨0, _⟩ => rfl
  | ⟨1, _⟩ => rfl

/-- The window of update row `m` starts at `(m, m)`. -/
theorem start_apply (m : Fin 12288) (a : Fin 2) :
    D.start (ix1 m) (RV.diagIdx (F := Ideal)) a = (m.val : Int) := by
  unfold ScatterDims.start
  have hmem : a ∈ D.scatterDimsToOperandDims := by
    show a ∈ [(0 : Fin 2), 1]
    match a with
    | ⟨0, _⟩ => exact List.mem_cons_self
    | ⟨1, _⟩ => exact List.mem_cons_of_mem _ List.mem_cons_self
  rw [dif_pos hmem, siIdx_apply]
  exact (congrArg BitVec.toInt (diagIdx_apply m _)).trans (toInt_small _ m.isLt)

/-- It has no window coordinates. -/
theorem window_apply (m : Fin 12288) (a : Fin 2) : D.window (ix1 m) a = 0 := by
  unfold ScatterDims.window
  have hk : D.sKept = [] := by decide
  rw [dif_neg (by rw [hk]; exact List.not_mem_nil)]

/-- Update row `m` lands on the diagonal entry `(m, m)`. -/
theorem resultIdx_diag (m : Fin 12288) :
    D.resultIdx? (ix1 m) (RV.diagIdx (F := Ideal)) = some (ix2 m m) := by
  have hm : m.val < 12288 := m.isLt
  have hs : ∀ a : Fin 2, D.start (ix1 m) (RV.diagIdx (F := Ideal)) a + (D.window (ix1 m) a : Int) = (m.val : Int) := by
    intro a; rw [start_apply, window_apply]; simp
  unfold ScatterDims.resultIdx?
  rw [dif_pos (fun a => by
    rw [hs a]
    match a with
    | ⟨0, _⟩ => exact ⟨by omega, by show (m.val : Int) < 12288; omega⟩
    | ⟨1, _⟩ => exact ⟨by omega, by show (m.val : Int) < 12288; omega⟩)]
  congr 1
  funext a
  refine Fin.ext ?_
  show (D.start (ix1 m) (RV.diagIdx (F := Ideal)) a + (D.window (ix1 m) a : Int)).toNat = _
  rw [hs a]
  match a with
  | ⟨0, _⟩ => rfl
  | ⟨1, _⟩ => rfl

/-! ## The stage functions at an index -/

/-- The adjacency with self-loops at an entry: the adjacency there, plus one on the diagonal. -/
theorem ahat_apply (adj : FVec Ideal S12288x12288 .f32) (i j : Fin 12288) :
    RV.ahat adj (ix2 i j) = adj (ix2 i j) + (if i = j then (1 : EReal) else 0) := by
  show adj (ix2 i j) + ∑ k ∈ Finset.univ.filter (fun k : S12288.Idx => D.resultIdx? k (RV.diagIdx (F := Ideal)) = some (ix2 i j)),
      (broadcastInDim S12288 ![] bcast_S_S12288 (constant S_ .f32 0x3F800000#32) : FVec Ideal S12288 .f32) k = _
  congr 1
  have hupd : ∀ k : S12288.Idx, (broadcastInDim S12288 ![] bcast_S_S12288 (constant S_ .f32 0x3F800000#32) : FVec Ideal S12288 .f32) k = (1 : EReal) := by
    intro k; rw [broadcastInDim_scalar_apply, constant_apply, Ideal.ofBits_one_f32]
  rw [Finset.sum_congr rfl fun k _ => hupd k]
  by_cases h : i = j
  · subst h
    rw [if_pos rfl]
    have hf : Finset.univ.filter (fun k : S12288.Idx => D.resultIdx? k (RV.diagIdx (F := Ideal)) = some (ix2 i i)) = {ix1 i} := by
      ext k
      obtain ⟨m, rfl⟩ : ∃ m : Fin 12288, k = ix1 m := ⟨k 0, eq_ix1 k⟩
      rw [Finset.mem_filter, Finset.mem_singleton, resultIdx_diag, Option.some_inj]
      constructor
      · rintro ⟨_, hk⟩
        have h0 : m = i := congrFun hk 0
        rw [h0]
      · intro hk
        have h0 : m = i := congrFun hk 0
        rw [h0]
        exact ⟨Finset.mem_univ _, rfl⟩
    rw [hf, Finset.sum_singleton]
  · rw [if_neg h]
    have hf : Finset.univ.filter (fun k : S12288.Idx => D.resultIdx? k (RV.diagIdx (F := Ideal)) = some (ix2 i j)) = ∅ := by
      ext k
      obtain ⟨m, rfl⟩ : ∃ m : Fin 12288, k = ix1 m := ⟨k 0, eq_ix1 k⟩
      rw [Finset.mem_filter, resultIdx_diag, Option.some_inj]
      constructor
      · rintro ⟨_, hk⟩
        have h0 : m = i := congrFun hk 0
        have h1 : m = j := congrFun hk 1
        exact absurd (h0.symm.trans h1) h
      · intro hk; exact absurd hk (Finset.notMem_empty _)
    rw [hf, Finset.sum_empty]

/-- The degree of column `j`: the sum of the column's entries. -/
theorem deg_apply (ah : FVec Ideal S12288x12288 .f32) (j : Fin 12288) :
    (Host.reduceAdd ah (constant S_ .f32 0x00000000#32) reducesTo_S12288x12288_S12288_d0 h_S_ : FVec Ideal S12288 .f32) (ix1 j)
      = ∑ i : Fin 12288, ah (ix2 i j) := by
  rw [hostReduceAdd_apply, Ideal.hostReduceAdd_single reducesTo_S12288x12288_S12288_d0 (by decide : S12288x12288.Reduces [0] S12288),
    constant_apply, Ideal.ofBits_zero_f32, zero_add]
  refine Finset.sum_congr rfl fun k _ => congrArg ah ?_
  funext a; refine Fin.ext ?_
  match a with
  | ⟨0, _⟩ => rfl
  | ⟨1, _⟩ => rfl

/-- Where the degree of column `j` is a positive real `r`, the normaliser there is the inverse square root of `r`. -/
theorem dinv_apply (ah : FVec Ideal S12288x12288 .f32) (j : Fin 12288) (r : ℝ) (hr : 0 < r)
    (hdeg : ∑ i : Fin 12288, ah (ix2 i j) = (r : EReal)) :
    RV.dinv ah (ix1 j) = Ideal.rsqrt (r : EReal) := by
  unfold RV.dinv
  simp only []
  rw [select_apply, cmpf_apply, deg_apply, hdeg, broadcastInDim_scalar_apply, constant_apply, Ideal.ofBits_zero_f32]
  have hc : FloatOps.cmpf (F := Ideal) (φ := .f32) .ogt ((r : EReal) : Ideal .f32) (0 : EReal) = 1#1 := by
    show BitVec.ofBool (decide ((0 : EReal) < (r : EReal))) = 1#1
    rw [decide_eq_true (by exact_mod_cast hr)]; rfl
  rw [hc, select_one]
  show Ideal.rsqrt _ = _
  rw [deg_apply, hdeg]

/-- The transposed normalised adjacency at `(a, b)`. -/
theorem anT_apply (ah : FVec Ideal S12288x12288 .f32) (dvv : FVec Ideal S12288 .f32) (a b : Fin 12288) :
    RV.anT ah dvv (ix2 a b) = (dvv (ix1 b) * ah (ix2 b a)) * dvv (ix1 a) := by
  unfold RV.anT
  rw [transpose_apply _ _ _ _ (ix2 b a) (by intro c; match c with | ⟨0, _⟩ => rfl | ⟨1, _⟩ => rfl)]
  rw [mulf_apply, mulf_apply]
  rw [broadcastInDim_apply _ bcast_S12288x1_S12288x12288_0_1 _ _ (ix2 b (0 : Fin 1)) (by intro c; match c with | ⟨0, _⟩ => rfl | ⟨1, _⟩ => rfl),
    broadcastInDim_apply _ bcast_S12288_S12288x1_0 _ _ (ix1 b) (by intro c; match c with | ⟨0, _⟩ => rfl),
    broadcastInDim_apply _ bcast_S1x12288_S12288x12288_0_1 _ _ (ix2 (0 : Fin 1) a) (by intro c; match c with | ⟨0, _⟩ => rfl | ⟨1, _⟩ => rfl),
    broadcastInDim_apply _ bcast_S12288_S1x12288_1 _ _ (ix1 a) (by intro c; match c with | ⟨0, _⟩ => rfl)]

/-- A layer's pre-normalisation output of width 128 at `(a, c)`: row `a` of the normalised adjacency against column `c`
    of the messages, plus the bias. -/
theorem z128_apply (an : FVec Ideal S12288x12288 .f32) (msg : FVec Ideal S12288x128 .f32) (bias : FVec Ideal S128 .f32)
    (a : Fin 12288) (c : Fin 128) :
    RV.z128 an msg bias (ix2 a c) = (∑ k : Fin 12288, an (ix2 a k) * msg (ix2 k c)) + bias (ix1 c) := by
  unfold RV.z128
  rw [addf_apply]
  congr 1
  · show FloatOps.dotGeneral dot_S12288x12288_S12288x128_S12288x128_1_0_0_1_n_n none .single an msg (ix2 a c) = _
    rw [Ideal.dotGeneral_apply,
      ← Equiv.sum_comp (contrEquiv1 dot_S12288x12288_S12288x128_S12288x128_1_0_0_1_n_n 12288 rfl rfl).symm]
    refine Finset.sum_congr rfl fun k _ => ?_
    congr 1
    · refine congrArg an ?_
      funext b; refine Fin.ext ?_
      match b with
      | ⟨0, _⟩ => rfl
      | ⟨1, _⟩ => rfl
    · refine congrArg msg ?_
      funext b; refine Fin.ext ?_
      match b with
      | ⟨0, _⟩ => rfl
      | ⟨1, _⟩ => rfl
  · rw [broadcastInDim_apply _ bcast_S1x128_S12288x128_0_1 _ _ (ix2 (0 : Fin 1) c) (by intro d; match d with | ⟨0, _⟩ => rfl | ⟨1, _⟩ => rfl),
      broadcastInDim_apply _ bcast_S128_S1x128_1 _ _ (ix1 c) (by intro d; match d with | ⟨0, _⟩ => rfl)]

/-- The same of width 64. -/
theorem z64_apply (an : FVec Ideal S12288x12288 .f32) (msg : FVec Ideal S12288x64 .f32) (bias : FVec Ideal S64 .f32)
    (a : Fin 12288) (c : Fin 64) :
    RV.z64 an msg bias (ix2 a c) = (∑ k : Fin 12288, an (ix2 a k) * msg (ix2 k c)) + bias (ix1 c) := by
  unfold RV.z64
  rw [addf_apply]
  congr 1
  · show FloatOps.dotGeneral dot_S12288x12288_S12288x64_S12288x64_1_0_0_1_n_n none .single an msg (ix2 a c) = _
    rw [Ideal.dotGeneral_apply,
      ← Equiv.sum_comp (contrEquiv1 dot_S12288x12288_S12288x64_S12288x64_1_0_0_1_n_n 12288 rfl rfl).symm]
    refine Finset.sum_congr rfl fun k _ => ?_
    congr 1
    · refine congrArg an ?_
      funext b; refine Fin.ext ?_
      match b with
      | ⟨0, _⟩ => rfl
      | ⟨1, _⟩ => rfl
    · refine congrArg msg ?_
      funext b; refine Fin.ext ?_
      match b with
      | ⟨0, _⟩ => rfl
      | ⟨1, _⟩ => rfl
  · rw [broadcastInDim_apply _ bcast_S1x64_S12288x64_0_1 _ _ (ix2 (0 : Fin 1) c) (by intro d; match d with | ⟨0, _⟩ => rfl | ⟨1, _⟩ => rfl),
      broadcastInDim_apply _ bcast_S64_S1x64_1 _ _ (ix1 c) (by intro d; match d with | ⟨0, _⟩ => rfl)]

end Cert.ReferenceIdeal.RI

end
-- ==== Proof.Bridge.lean ====
/-
  The comparison of the two programs' stage functions over the extended reals, for an adjacency whose entries are
  nonnegative reals.

  With `A` the real entries of `adj`, `s j = ∑ i, A i j` the column sums and `d j = (√(s j + 1))⁻¹` (a nonnegative real:
  `s j + 1 ≥ 1`), BOTH programs' inverse root degrees are `d`: the kernel's is `rsqrt (colsum + 1)`; the reference's
  is `rsqrt` of the column sum of `adj + I`, selected because that degree is positive. A layer's pre-normalisation
  output is then, in the kernel, `d a · (∑ b, A b a · (d b · msg b) + d a · msg a) + bias` — the second summand
  the self-loop's share — and in the reference `∑ b, ((d b · (A b a + [b = a])) · d a) · msg b + bias`. The two agree for
  ANY extended-real messages, because only nonnegative real coefficients are moved across sums (`Spec.agg_identity`).
  Everything downstream of a layer's output (the batch normalisation, the positive part, the next layer's messages)
  is the same function in both programs.
-/
import proofs.«171011_j28046136442917_2_alg».proof.Proof.KTerms
import proofs.«171011_j28046136442917_2_alg».proof.Proof.RTerms
import proofs.«171011_j28046136442917_2_alg».proof.Proof.Spec
import proofs.«171011_j28046136442917_2_alg».proof.Proof.KerIndex
import proofs.«171011_j28046136442917_2_alg».proof.Proof.RefIndex
import Idealize.ShloMosaic.Lib.ValueIdx

noncomputable section

namespace Cert.Bridge

open Idealize.ShloMosaic Idealize.ShloMosaic.ValueIdx
open Cert.KernelIdeal (KV.dinv KV.msg1 KV.msg2 KV.scale128 KV.z128 KV.scale64 KV.z64 KV.bnRelu128 KV.bn64)

/-- An adjacency array, in the kernel program's spelling of its shape. -/
abbrev Adj : Type := FVec Ideal Cert.KernelIdeal.S12288x12288 .f32

/-- Every entry is a nonnegative real. -/
def NonnegReal (adj : Adj) : Prop := ∀ i, ∃ r : ℝ, 0 ≤ r ∧ adj i = (r : EReal)

/-- The column sums of `adj` as a [1, N] array. -/
def colsum (adj : Adj) : FVec Ideal Cert.KernelIdeal.S1x12288 .f32 := fun y => ∑ i : Fin 12288, adj (ix2 i (y 1))

/-- `adjᵀ · s` for a message array of width 128: entry `(a, c)` is `∑ j, adj (j, a) · s (j, c)`. -/
def agg128 (adj : Adj) (s : FVec Ideal Cert.KernelIdeal.S12288x128 .f32) : FVec Ideal Cert.KernelIdeal.S12288x128 .f32 :=
  fun y => ∑ j : Fin 12288, adj (ix2 j (y 0)) * s (ix2 j (y 1))

/-- The same for width 64. -/
def agg64 (adj : Adj) (s : FVec Ideal Cert.KernelIdeal.S12288x64 .f32) : FVec Ideal Cert.KernelIdeal.S12288x64 .f32 :=
  fun y => ∑ j : Fin 12288, adj (ix2 j (y 0)) * s (ix2 j (y 1))

/-- The real data behind a nonnegative real adjacency: its entries `A`, and the common inverse root degree `d` of the two
    programs. -/
theorem degrees (adj : Adj) (hadj : NonnegReal adj) :
    ∃ (A : Fin 12288 → Fin 12288 → ℝ) (d : Fin 12288 → ℝ), (∀ i j, 0 ≤ A i j) ∧ (∀ i j, adj (ix2 i j) = (A i j : EReal))
      ∧ (∀ j, 0 ≤ d j) ∧ (∀ j, KV.dinv (colsum adj) (ix2 j 0) = (d j : EReal))
      ∧ (∀ j, Cert.ReferenceIdeal.RV.dinv (Cert.ReferenceIdeal.RV.ahat adj) (ix1 j) = (d j : EReal)) := by
  choose A hA0 hA using fun i j => hadj (ix2 i j)
  have hpos : ∀ j, 0 < (∑ i, A i j) + 1 := fun j =>
    lt_of_lt_of_le zero_lt_one (le_add_of_nonneg_left (Finset.sum_nonneg fun i _ => hA0 i j))
  refine ⟨A, fun j => (Real.sqrt ((∑ i, A i j) + 1))⁻¹, hA0, hA, fun j => Cert.Spec.rsqrt_pos_nonneg _, fun j => ?_, fun j => ?_⟩
  · rw [Cert.KernelIdeal.KI.dinv_apply]
    have hcs : colsum adj (ix2 (0 : Fin 1) j) = ((∑ i, A i j : ℝ) : EReal) := by
      show (∑ i : Fin 12288, adj (ix2 i j)) = _
      simp only [hA]
      exact Cert.Spec.sum_coe _
    rw [hcs, ← EReal.coe_one, ← EReal.coe_add]
    exact Cert.Spec.rsqrt_pos _ (hpos j)
  · refine (Cert.ReferenceIdeal.RI.dinv_apply _ j ((∑ i, A i j) + 1) (hpos j) ?_).trans (Cert.Spec.rsqrt_pos _ (hpos j))
    simp only [Cert.ReferenceIdeal.RI.ahat_apply, hA]
    rw [Cert.Spec.deg_eq A j, EReal.coe_add, EReal.coe_one]

/-- A layer of width 128: the kernel's pre-normalisation output, from the aggregated normalised messages, IS the
    reference's normalised adjacency applied to the messages — for any extended-real messages. -/
theorem z128_bridge (adj : Adj) (hadj : NonnegReal adj) (msg : FVec Ideal Cert.KernelIdeal.S12288x128 .f32)
    (bias : FVec Ideal Cert.KernelIdeal.S128 .f32) :
    KV.z128 (KV.dinv (colsum adj)) (agg128 adj (KV.scale128 (KV.dinv (colsum adj)) msg)) (KV.scale128 (KV.dinv (colsum adj)) msg) bias
      = Cert.ReferenceIdeal.RV.z128 (Cert.ReferenceIdeal.RV.anT (Cert.ReferenceIdeal.RV.ahat adj)
          (Cert.ReferenceIdeal.RV.dinv (Cert.ReferenceIdeal.RV.ahat adj))) msg bias := by
  obtain ⟨A, d, hA0, hA, hd0, hdK, hdR⟩ := degrees adj hadj
  funext y
  obtain ⟨a, c, rfl⟩ : ∃ (a : Fin 12288) (c : Fin 128), y = ix2 a c := ⟨y 0, y 1, eq_ix2 y⟩
  rw [Cert.KernelIdeal.KI.z128_apply, Cert.ReferenceIdeal.RI.z128_apply]
  congr 1
  have hK : agg128 adj (KV.scale128 (KV.dinv (colsum adj)) msg) (ix2 a c)
      = ∑ b : Fin 12288, (A b a : EReal) * ((d b : EReal) * msg (ix2 b c)) := by
    show (∑ j : Fin 12288, adj (ix2 j a) * KV.scale128 (KV.dinv (colsum adj)) msg (ix2 j c)) = _
    refine Finset.sum_congr rfl fun b _ => ?_
    rw [Cert.KernelIdeal.KI.scale128_apply, hA, hdK]
  rw [hK, Cert.KernelIdeal.KI.scale128_apply, hdK]
  refine (Cert.Spec.agg_identity d hd0 A hA0 (fun b => msg (ix2 b c)) a).trans ?_
  refine Finset.sum_congr rfl fun b _ => ?_
  rw [Cert.ReferenceIdeal.RI.anT_apply, Cert.ReferenceIdeal.RI.ahat_apply, hA, hdR, hdR]

/-- The same for a layer of width 64. -/
theorem z64_bridge (adj : Adj) (hadj : NonnegReal adj) (msg : FVec Ideal Cert.KernelIdeal.S12288x64 .f32)
    (bias : FVec Ideal Cert.KernelIdeal.S64 .f32) :
    KV.z64 (KV.dinv (colsum adj)) (agg64 adj (KV.scale64 (KV.dinv (colsum adj)) msg)) (KV.scale64 (KV.dinv (colsum adj)) msg) bias
      = Cert.ReferenceIdeal.RV.z64 (Cert.ReferenceIdeal.RV.anT (Cert.ReferenceIdeal.RV.ahat adj)
          (Cert.ReferenceIdeal.RV.dinv (Cert.ReferenceIdeal.RV.ahat adj))) msg bias := by
  obtain ⟨A, d, hA0, hA, hd0, hdK, hdR⟩ := degrees adj hadj
  funext y
  obtain ⟨a, c, rfl⟩ : ∃ (a : Fin 12288) (c : Fin 64), y = ix2 a c := ⟨y 0, y 1, eq_ix2 y⟩
  rw [Cert.KernelIdeal.KI.z64_apply, Cert.ReferenceIdeal.RI.z64_apply]
  congr 1
  have hK : agg64 adj (KV.scale64 (KV.dinv (colsum adj)) msg) (ix2 a c)
      = ∑ b : Fin 12288, (A b a : EReal) * ((d b : EReal) * msg (ix2 b c)) := by
    show (∑ j : Fin 12288, adj (ix2 j a) * KV.scale64 (KV.dinv (colsum adj)) msg (ix2 j c)) = _
    refine Finset.sum_congr rfl fun b _ => ?_
    rw [Cert.KernelIdeal.KI.scale64_apply, hA, hdK]
  rw [hK, Cert.KernelIdeal.KI.scale64_apply, hdK]
  refine (Cert.Spec.agg_identity d hd0 A hA0 (fun b => msg (ix2 b c)) a).trans ?_
  refine Finset.sum_congr rfl fun b _ => ?_
  rw [Cert.ReferenceIdeal.RI.anT_apply, Cert.ReferenceIdeal.RI.ahat_apply, hA, hdR, hdR]

/-! ## The shared stages: one function in both programs -/

theorem msg1_eq (x : FVec Ideal Cert.KernelIdeal.S12288x256 .f32) (w : FVec Ideal Cert.KernelIdeal.S256x128 .f32) :
    KV.msg1 x w = Cert.ReferenceIdeal.RV.msg1 x w := rfl
theorem msg2_eq (h : FVec Ideal Cert.KernelIdeal.S12288x128 .f32) (w : FVec Ideal Cert.KernelIdeal.S128x64 .f32) :
    KV.msg2 h w = Cert.ReferenceIdeal.RV.msg2 h w := rfl
theorem bnRelu128_eq (z : FVec Ideal Cert.KernelIdeal.S12288x128 .f32) (g be : FVec Ideal Cert.KernelIdeal.S128 .f32) :
    KV.bnRelu128 z g be = Cert.ReferenceIdeal.RV.bnRelu128 z g be := rfl
theorem bn64_eq (z : FVec Ideal Cert.KernelIdeal.S12288x64 .f32) (g be : FVec Ideal Cert.KernelIdeal.S64 .f32) :
    KV.bn64 z g be = Cert.ReferenceIdeal.RV.bn64 z g be := rfl

/-! ## The two programs' results as functions of the arguments -/

/-- The kernel program's result. -/
def kout (adj : Adj) (x : FVec Ideal Cert.KernelIdeal.S12288x256 .f32) (w1 : FVec Ideal Cert.KernelIdeal.S256x128 .f32)
    (b1 g1 be1 : FVec Ideal Cert.KernelIdeal.S128 .f32) (w2 : FVec Ideal Cert.KernelIdeal.S128x64 .f32)
    (b2 g2 be2 : FVec Ideal Cert.KernelIdeal.S64 .f32) : FVec Ideal Cert.KernelIdeal.S12288x64 .f32 :=
  KV.bn64 (KV.z64 (KV.dinv (colsum adj))
      (agg64 adj (KV.scale64 (KV.dinv (colsum adj)) (KV.msg2 (KV.bnRelu128 (KV.z128 (KV.dinv (colsum adj))
        (agg128 adj (KV.scale128 (KV.dinv (colsum adj)) (KV.msg1 x w1))) (KV.scale128 (KV.dinv (colsum adj)) (KV.msg1 x w1)) b1) g1 be1) w2)))
      (KV.scale64 (KV.dinv (colsum adj)) (KV.msg2 (KV.bnRelu128 (KV.z128 (KV.dinv (colsum adj))
        (agg128 adj (KV.scale128 (KV.dinv (colsum adj)) (KV.msg1 x w1))) (KV.scale128 (KV.dinv (colsum adj)) (KV.msg1 x w1)) b1) g1 be1) w2)) b2) g2 be2

/-- The reference's result. -/
def rout (adj : Adj) (x : FVec Ideal Cert.KernelIdeal.S12288x256 .f32) (w1 : FVec Ideal Cert.KernelIdeal.S256x128 .f32)
    (b1 g1 be1 : FVec Ideal Cert.KernelIdeal.S128 .f32) (w2 : FVec Ideal Cert.KernelIdeal.S128x64 .f32)
    (b2 g2 be2 : FVec Ideal Cert.KernelIdeal.S64 .f32) : FVec Ideal Cert.KernelIdeal.S12288x64 .f32 :=
  Cert.ReferenceIdeal.RV.bn64 (Cert.ReferenceIdeal.RV.z64
      (Cert.ReferenceIdeal.RV.anT (Cert.ReferenceIdeal.RV.ahat adj) (Cert.ReferenceIdeal.RV.dinv (Cert.ReferenceIdeal.RV.ahat adj)))
      (Cert.ReferenceIdeal.RV.msg2 (Cert.ReferenceIdeal.RV.bnRelu128 (Cert.ReferenceIdeal.RV.z128
        (Cert.ReferenceIdeal.RV.anT (Cert.ReferenceIdeal.RV.ahat adj) (Cert.ReferenceIdeal.RV.dinv (Cert.ReferenceIdeal.RV.ahat adj)))
        (Cert.ReferenceIdeal.RV.msg1 x w1) b1) g1 be1) w2) b2) g2 be2

/-- For a nonnegative real adjacency the two results are one array. -/
theorem out_bridge (adj : Adj) (hadj : NonnegReal adj) (x w1 b1 g1 be1 w2 b2 g2 be2) :
    kout adj x w1 b1 g1 be1 w2 b2 g2 be2 = rout adj x w1 b1 g1 be1 w2 b2 g2 be2 := by
  unfold kout rout
  rw [z128_bridge adj hadj, z64_bridge adj hadj, msg1_eq, bnRelu128_eq, msg2_eq, bn64_eq]

end Cert.Bridge

end
-- ==== Proof.KGlue.lean ====
/-
  The kernel program's result array as ONE function of the argument arrays (`Bridge.kout`): the run's last boundary
  contents at the result buffer, read back stage by stage (the stage lemmas), with each region's output array at its value
  — region 0 the column sums of `adj` and `adj` itself (its half-width copy is the same extended real), regions 1 and 2
  `adjᵀ` applied to the normalised messages they were given.
-/
import proofs.«171011_j28046136442917_2_alg».proof.Proof.KStages
import proofs.«171011_j28046136442917_2_alg».proof.Proof.Region0
import proofs.«171011_j28046136442917_2_alg».proof.Proof.Region1
import proofs.«171011_j28046136442917_2_alg».proof.Proof.Region2
import proofs.«171011_j28046136442917_2_alg».proof.Proof.Bridge

noncomputable section

namespace Cert.KernelIdeal.KG

open Idealize.ShloMosaic Idealize.ShloMosaic.TcCoe Idealize.ShloMosaic.ValueIdx Idealize.SL.Sem
open Cert.KernelIdeal Cert.KernelIdeal.Gen Cert.Bridge

variable (m : (ℓ : Loc nD τ sig) → Buf (Elt Ideal) ℓ) (ρ : Dev nD → PrngReg) (c : Dev nD)

/-- The adjacency argument as launched. -/
abbrev adj : Adj := m ((c : Thread nD τ).loc main_arg1)

/-- Region 0 reads the adjacency as launched. -/
theorem adj0_eq : R0.adjArr (V0 m ρ) c = adj m c := KS.entry0_adj m ρ c

theorem cs_eq : KS.cs m ρ c = colsum (adj m c) := by
  refine (R0.colsum_arr (V0 m ρ) c).trans ?_
  unfold R0.colsumArr
  rw [adj0_eq]
  rfl

theorem abf_eq : KS.abf m ρ c = adj m c :=
  (R0.cast_arr (V0 m ρ) c).trans (adj0_eq m ρ c)

theorem dv_eq : KS.dv m ρ c = KV.dinv (colsum (adj m c)) := by
  show KV.dinv (KS.cs m ρ c) = _
  rw [cs_eq]

theorem sc1_eq : KS.sc1 m ρ c = KV.scale128 (KV.dinv (colsum (adj m c)))
    (KV.msg1 (m ((c : Thread nD τ).loc main_arg0)) (m ((c : Thread nD τ).loc main_arg2))) := by
  show KV.scale128 (KS.dv m ρ c) _ = _
  rw [dv_eq]

theorem t1_eq : KS.t1 m ρ c = agg128 (adj m c) (KS.sc1 m ρ c) := by
  have ea : R1.adjArr (V2 m ρ) c = adj m c := (KS.entry1_adj m ρ c).trans (abf_eq m ρ c)
  have em : R1.msgArr (V2 m ρ) c = KS.sc1 m ρ c := KS.entry1_msg m ρ c
  refine (R1.agg_arr (V2 m ρ) c).trans ?_
  rw [ea, em]
  rfl

theorem z1_eq : KS.z1 m ρ c = KV.z128 (KV.dinv (colsum (adj m c)))
    (agg128 (adj m c) (KV.scale128 (KV.dinv (colsum (adj m c))) (KV.msg1 (m ((c : Thread nD τ).loc main_arg0)) (m ((c : Thread nD τ).loc main_arg2)))))
    (KV.scale128 (KV.dinv (colsum (adj m c))) (KV.msg1 (m ((c : Thread nD τ).loc main_arg0)) (m ((c : Thread nD τ).loc main_arg2))))
    (m ((c : Thread nD τ).loc main_arg3)) := by
  show KV.z128 (KS.dv m ρ c) (KS.t1 m ρ c) (KS.sc1 m ρ c) _ = _
  rw [t1_eq, sc1_eq, dv_eq]

theorem t2_eq : KS.t2 m ρ c = agg64 (adj m c) (KS.sc2 m ρ c) := by
  have ea : R2.adjArr (V8 m ρ) c = adj m c := (KS.entry2_adj m ρ c).trans (abf_eq m ρ c)
  have em : R2.msgArr (V8 m ρ) c = KS.sc2 m ρ c := KS.entry2_msg m ρ c
  refine (R2.agg_arr (V8 m ρ) c).trans ?_
  rw [ea, em]
  rfl

/-- The result buffer at the last boundary is `Bridge.kout` of the arguments as launched. -/
theorem kout_eq : W12 m ρ c (Proc.devRef .tc main_v63)
    = kout (adj m c) (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  rw [KS.out_eq]
  show KV.bn64 (KV.z64 (KS.dv m ρ c) (KS.t2 m ρ c) (KS.sc2 m ρ c) _) _ _ = _
  rw [t2_eq]
  have hsc2 : KS.sc2 m ρ c = KV.scale64 (KV.dinv (colsum (adj m c))) (KV.msg2 (KV.bnRelu128 (KV.z128 (KV.dinv (colsum (adj m c)))
      (agg128 (adj m c) (KV.scale128 (KV.dinv (colsum (adj m c))) (KV.msg1 (m ((c : Thread nD τ).loc main_arg0)) (m ((c : Thread nD τ).loc main_arg2)))))
      (KV.scale128 (KV.dinv (colsum (adj m c))) (KV.msg1 (m ((c : Thread nD τ).loc main_arg0)) (m ((c : Thread nD τ).loc main_arg2))))
      (m ((c : Thread nD τ).loc main_arg3))) (m ((c : Thread nD τ).loc main_arg4)) (m ((c : Thread nD τ).loc main_arg5)))
      (m ((c : Thread nD τ).loc main_arg6))) := by
    show KV.scale64 (KS.dv m ρ c) (KV.msg2 (KV.bnRelu128 (KS.z1 m ρ c) _ _) _) = _
    rw [z1_eq, dv_eq]
  rw [hsc2, dv_eq]
  rfl

end Cert.KernelIdeal.KG

end
-- ==== Proof.RefRun.lean ====
import proofs.«171011_j28046136442917_2_alg».proof.Proof.Gen.ReferenceIdeal
import Idealize.ShloMosaic.Lib.StableHlo.Run
import Idealize.ShloMosaic.Lib.Tactic

/-!
# The reference program's run

The reference is a pure host program: @main is a straight line of tensor operations, four of which
are calls of module-local functions (a masked select, a variance with its own masked select, a
rectifier, and the variance again at the second width). A call is its callee's body over the
call's own buffers, so @main is one list of operations, the callees' written out at their call
sites. Running that list from any memory with zero counters terminates, and every buffer ends at
the fold of the operations over the launch contents; no operation writes an argument, so the
arguments end as they began.
-/

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's 139 operations in order, each callee's body in place of its call. -/
abbrev ops : List (HloOp τ sig (Elt F)) :=
  [ StableHlo.nullary main_v0 (iotaInDim S12288 32 0),
    StableHlo.nullary main_c (constantI S_ 32 0#32),
    StableHlo.unary main_c main_v1 (broadcastInDim S12288 ![] bcast_S_S12288 : (⟨S_, .i32⟩ : BufTy).Contents (Elt F) → (⟨S12288, .i32⟩ : BufTy).Contents (Elt F)),
    StableHlo.binary main_v0 main_v1 main_v2 (cmpi .slt : (⟨S12288, .i32⟩ : BufTy).Contents (Elt F) → (⟨S12288, .i32⟩ : BufTy).Contents (Elt F) → (⟨S12288, .i1⟩ : BufTy).Contents (Elt F)),
    StableHlo.nullary main_c_0 (constantI S_ 32 12288#32),
    StableHlo.unary main_c_0 main_v3 (broadcastInDim S12288 ![] bcast_S_S12288 : (⟨S_, .i32⟩ : BufTy).Contents (Elt F) → (⟨S12288, .i32⟩ : BufTy).Contents (Elt F)),
    StableHlo.binary main_v0 main_v3 main_v4 (addi : (⟨S12288, .i32⟩ : BufTy).Contents (Elt F) → (⟨S12288, .i32⟩ : BufTy).Contents (Elt F) → (⟨S12288, .i32⟩ : BufTy).Contents (Elt F)),
    StableHlo.ternary main_v2 main_v4 main_v0 main_v5 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.nullary main_c_1 (constantI S_ 32 0#32),
    StableHlo.unary main_c_1 main_v6 (broadcastInDim S12288 ![] bcast_S_S12288 : (⟨S_, .i32⟩ : BufTy).Contents (Elt F) → (⟨S12288, .i32⟩ : BufTy).Contents (Elt F)),
    StableHlo.binary main_v0 main_v6 main_v7 (cmpi .slt : (⟨S12288, .i32⟩ : BufTy).Contents (Elt F) → (⟨S12288, .i32⟩ : BufTy).Contents (Elt F) → (⟨S12288, .i1⟩ : BufTy).Contents (Elt F)),
    StableHlo.nullary main_c_2 (constantI S_ 32 12288#32),
    StableHlo.unary main_c_2 main_v8 (broadcastInDim S12288 ![] bcast_S_S12288 : (⟨S_, .i32⟩ : BufTy).Contents (Elt F) → (⟨S12288, .i32⟩ : BufTy).Contents (Elt F)),
    StableHlo.binary main_v0 main_v8 main_v9 (addi : (⟨S12288, .i32⟩ : BufTy).Contents (Elt F) → (⟨S12288, .i32⟩ : BufTy).Contents (Elt F) → (⟨S12288, .i32⟩ : BufTy).Contents (Elt F)),
    StableHlo.ternary main_v7 main_v9 main_v0 main_v10 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v5 main_v11 (broadcastInDim S12288x1 ![0] bcast_S12288_S12288x1_0 : (⟨S12288, .i32⟩ : BufTy).Contents (Elt F) → (⟨S12288x1, .i32⟩ : BufTy).Contents (Elt F)),
    StableHlo.unary main_v10 main_v12 (broadcastInDim S12288x1 ![0] bcast_S12288_S12288x1_0 : (⟨S12288, .i32⟩ : BufTy).Contents (Elt F) → (⟨S12288x1, .i32⟩ : BufTy).Contents (Elt F)),
    StableHlo.binary main_v11 main_v12 main_v13 ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)),
    StableHlo.nullary main_cst (constant S_ .f32 0x3F800000#32),
    StableHlo.unary main_cst main_v14 (broadcastInDim S12288 ![] bcast_S_S12288 : (⟨S_, .f32⟩ : BufTy).Contents (Elt F) → (⟨S12288, .f32⟩ : BufTy).Contents (Elt F)),
    StableHlo.ternary main_arg1 main_v13 main_v14 main_v15 ((fun x i u => Host.scatterAdd scatter_S12288x12288_S12288x2_S12288_n_01_01_1 x i u) : (⟨S12288x12288, .f32⟩ : BufTy).Contents (Elt F) → (⟨S12288x2, .i32⟩ : BufTy).Contents (Elt F) → (⟨S12288, .f32⟩ : BufTy).Contents (Elt F) → (⟨S12288x12288, .f32⟩ : BufTy).Contents (Elt F)),
    StableHlo.nullary main_cst_3 (constant S_ .f32 0x00000000#32),
    StableHlo.binary main_v15 main_cst_3 main_v16 ((fun x v => Host.reduceAdd x v reducesTo_S12288x12288_S12288_d0 h_S_) : (⟨S12288x12288, .f32⟩ : BufTy).Contents (Elt F) → (⟨S_, .f32⟩ : BufTy).Contents (Elt F) → (⟨S12288, .f32⟩ : BufTy).Contents (Elt F)),
    StableHlo.nullary main_cst_4 (constant S_ .f32 0x00000000#32),
    StableHlo.unary main_cst_4 main_v17 (broadcastInDim S12288 ![] bcast_S_S12288 : (⟨S_, .f32⟩ : BufTy).Contents (Elt F) → (⟨S12288, .f32⟩ : BufTy).Contents (Elt F)),
    StableHlo.binary main_v16 main_v17 main_v18 (cmpf .ogt : (⟨S12288, .f32⟩ : BufTy).Contents (Elt F) → (⟨S12288, .f32⟩ : BufTy).Contents (Elt F) → (⟨S12288, .i1⟩ : BufTy).Contents (Elt F)),
    StableHlo.unary main_v16 main_v19 (Host.rsqrt : (⟨S12288, .f32⟩ : BufTy).Contents (Elt F) → (⟨S12288, .f32⟩ : BufTy).Contents (Elt F)),
    StableHlo.nullary main_cst_5 (constant S_ .f32 0x00000000#32),
    StableHlo.TRef.unary (.of main_cst_5 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S12288, .f32⟩) (broadcastInDim S12288 ![] bcast_S_S12288),
    StableHlo.TRef.ternary (.of main_v18 : StableHlo.TRef sig ⟨S12288, .i1⟩) (.of main_v19 : StableHlo.TRef sig ⟨S12288, .f32⟩) (.of main_call0_v1 : StableHlo.TRef sig ⟨S12288, .f32⟩) (.of main_v20 : StableHlo.TRef sig ⟨S12288, .f32⟩) select,
    StableHlo.unary main_v20 main_v21 (broadcastInDim S12288x1 ![0] bcast_S12288_S12288x1_0 : (⟨S12288, .f32⟩ : BufTy).Contents (Elt F) → (⟨S12288x1, .f32⟩ : BufTy).Contents (Elt F)),
    StableHlo.unary main_v21 main_v22 (broadcastInDim S12288x12288 ![0, 1] bcast_S12288x1_S12288x12288_0_1 : (⟨S12288x1, .f32⟩ : BufTy).Contents (Elt F) → (⟨S12288x12288, .f32⟩ : BufTy).Contents (Elt F)),
    StableHlo.binary main_v22 main_v15 main_v23 (mulf : (⟨S12288x12288, .f32⟩ : BufTy).Contents (Elt F) → (⟨S12288x12288, .f32⟩ : BufTy).Contents (Elt F) → (⟨S12288x12288, .f32⟩ : BufTy).Contents (Elt F)),
    StableHlo.unary main_v20 main_v24 (broadcastInDim S1x12288 ![1] bcast_S12288_S1x12288_1 : (⟨S12288, .f32⟩ : BufTy).Contents (Elt F) → (⟨S1x12288, .f32⟩ : BufTy).Contents (Elt F)),
    StableHlo.unary main_v24 main_v25 (broadcastInDim S12288x12288 ![0, 1] bcast_S1x12288_S12288x12288_0_1 : (⟨S1x12288, .f32⟩ : BufTy).Contents (Elt F) → (⟨S12288x12288, .f32⟩ : BufTy).Contents (Elt F)),
    StableHlo.binary main_v23 main_v25 main_v26 (mulf : (⟨S12288x12288, .f32⟩ : BufTy).Contents (Elt F) → (⟨S12288x12288, .f32⟩ : BufTy).Contents (Elt F) → (⟨S12288x12288, .f32⟩ : BufTy).Contents (Elt F)),
    StableHlo.unary main_v26 main_v27 ((transpose S12288x12288 [1, 0] · transposes_S12288x12288_S12288x12288_1_0) : (⟨S12288x12288, .f32⟩ : BufTy).Contents (Elt F) → (⟨S12288x12288, .f32⟩ : BufTy).Contents (Elt F)),
    StableHlo.binary main_arg0 main_arg2 main_v28 ((fun l r => Host.dotGeneral dot_S12288x256_S256x128_S12288x128_1_0_0_1_n_n none l r) : (⟨S12288x256, .f32⟩ : BufTy).Contents (Elt F) → (⟨S256x128, .f32⟩ : BufTy).Contents (Elt F) → (⟨S12288x128, .f32⟩ : BufTy).Contents (Elt F)),
    StableHlo.binary main_v27 main_v28 main_v29 ((fun l r => Host.dotGeneral dot_S12288x12288_S12288x128_S12288x128_1_0_0_1_n_n none l r) : (⟨S12288x12288, .f32⟩ : BufTy).Contents (Elt F) → (⟨S12288x128, .f32⟩ : BufTy).Contents (Elt F) → (⟨S12288x128, .f32⟩ : BufTy).Contents (Elt F)),
    StableHlo.unary main_arg3 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S12288x128 ![0, 1] bcast_S1x128_S12288x128_0_1 : (⟨S1x128, .f32⟩ : BufTy).Contents (Elt F) → (⟨S12288x128, .f32⟩ : BufTy).Contents (Elt F)),
    StableHlo.binary main_v29 main_v31 main_v32 (addf : (⟨S12288x128, .f32⟩ : BufTy).Contents (Elt F) → (⟨S12288x128, .f32⟩ : BufTy).Contents (Elt F) → (⟨S12288x128, .f32⟩ : BufTy).Contents (Elt F)),
    StableHlo.nullary main_cst_6 (constant S_ .f32 0x00000000#32),
    StableHlo.binary main_v32 main_cst_6 main_v33 ((fun x v => Host.reduceAdd x v reducesTo_S12288x128_S128_d0 h_S_) : (⟨S12288x128, .f32⟩ : BufTy).Contents (Elt F) → (⟨S_, .f32⟩ : BufTy).Contents (Elt F) → (⟨S128, .f32⟩ : BufTy).Contents (Elt F)),
    StableHlo.nullary main_cst_7 (constant S_ .f32 0x46400000#32),
    StableHlo.unary main_cst_7 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary (.of main_call1_cst : StableHlo.TRef sig ⟨S_, .f32⟩) (constant S_ .f32 0x00000000#32),
    StableHlo.TRef.binary (.of main_v32 : StableHlo.TRef sig ⟨S12288x128, .f32⟩) (.of main_call1_cst : StableHlo.TRef sig ⟨S_, .f32⟩) (.of main_call1_v0 : StableHlo.TRef sig ⟨S128, .f32⟩) (fun x v => Host.reduceAdd x v reducesTo_S12288x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x46400000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S12288x128, .f32⟩) (broadcastInDim S12288x128 ![0, 1] bcast_S1x128_S12288x128_0_1),
    StableHlo.TRef.binary (.of main_v32 : StableHlo.TRef sig ⟨S12288x128, .f32⟩) (.of main_call1_v4 : StableHlo.TRef sig ⟨S12288x128, .f32⟩) (.of main_call1_v5 : StableHlo.TRef sig ⟨S12288x128, .f32⟩) subf,
    StableHlo.TRef.binary (.of main_call1_v5 : StableHlo.TRef sig ⟨S12288x128, .f32⟩) (.of main_call1_v5 : StableHlo.TRef sig ⟨S12288x128, .f32⟩) (.of main_call1_v6 : StableHlo.TRef sig ⟨S12288x128, .f32⟩) mulf,
    StableHlo.TRef.unary (.of main_c_8 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x46400000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S12288x128, .f32⟩) (.of main_call1_cst_2 : StableHlo.TRef sig ⟨S_, .f32⟩) (.of main_call1_v9 : StableHlo.TRef sig ⟨S128, .f32⟩) (fun x v => Host.reduceAdd x v reducesTo_S12288x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v36 : StableHlo.TRef sig ⟨S128, .f32⟩) (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S12288x128 ![0, 1] bcast_S1x128_S12288x128_0_1 : (⟨S1x128, .f32⟩ : BufTy).Contents (Elt F) → (⟨S12288x128, .f32⟩ : BufTy).Contents (Elt F)),
    StableHlo.binary main_v32 main_v38 main_v39 (subf : (⟨S12288x128, .f32⟩ : BufTy).Contents (Elt F) → (⟨S12288x128, .f32⟩ : BufTy).Contents (Elt F) → (⟨S12288x128, .f32⟩ : BufTy).Contents (Elt F)),
    StableHlo.nullary main_cst_9 (constant S_ .f32 0x3727C5AC#32),
    StableHlo.unary main_cst_9 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S12288x128 ![0, 1] bcast_S1x128_S12288x128_0_1 : (⟨S1x128, .f32⟩ : BufTy).Contents (Elt F) → (⟨S12288x128, .f32⟩ : BufTy).Contents (Elt F)),
    StableHlo.binary main_v39 main_v44 main_v45 (mulf : (⟨S12288x128, .f32⟩ : BufTy).Contents (Elt F) → (⟨S12288x128, .f32⟩ : BufTy).Contents (Elt F) → (⟨S12288x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S12288x128 ![0, 1] bcast_S1x128_S12288x128_0_1 : (⟨S1x128, .f32⟩ : BufTy).Contents (Elt F) → (⟨S12288x128, .f32⟩ : BufTy).Contents (Elt F)),
    StableHlo.binary main_v45 main_v47 main_v48 (mulf : (⟨S12288x128, .f32⟩ : BufTy).Contents (Elt F) → (⟨S12288x128, .f32⟩ : BufTy).Contents (Elt F) → (⟨S12288x128, .f32⟩ : BufTy).Contents (Elt F)),
    StableHlo.unary main_arg5 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S12288x128 ![0, 1] bcast_S1x128_S12288x128_0_1 : (⟨S1x128, .f32⟩ : BufTy).Contents (Elt F) → (⟨S12288x128, .f32⟩ : BufTy).Contents (Elt F)),
    StableHlo.binary main_v48 main_v50 main_v51 (addf : (⟨S12288x128, .f32⟩ : BufTy).Contents (Elt F) → (⟨S12288x128, .f32⟩ : BufTy).Contents (Elt F) → (⟨S12288x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S12288x128, .f32⟩) (broadcastInDim S12288x128 ![] bcast_S_S12288x128),
    StableHlo.TRef.binary (.of main_v51 : StableHlo.TRef sig ⟨S12288x128, .f32⟩) (.of main_call2_v0 : StableHlo.TRef sig ⟨S12288x128, .f32⟩) (.of main_v52 : StableHlo.TRef sig ⟨S12288x128, .f32⟩) maximumf,
    StableHlo.binary main_v52 main_arg6 main_v53 ((fun l r => Host.dotGeneral dot_S12288x128_S128x64_S12288x64_1_0_0_1_n_n none l r) : (⟨S12288x128, .f32⟩ : BufTy).Contents (Elt F) → (⟨S128x64, .f32⟩ : BufTy).Contents (Elt F) → (⟨S12288x64, .f32⟩ : BufTy).Contents (Elt F)),
    StableHlo.binary main_v27 main_v53 main_v54 ((fun l r => Host.dotGeneral dot_S12288x12288_S12288x64_S12288x64_1_0_0_1_n_n none l r) : (⟨S12288x12288, .f32⟩ : BufTy).Contents (Elt F) → (⟨S12288x64, .f32⟩ : BufTy).Contents (Elt F) → (⟨S12288x64, .f32⟩ : BufTy).Contents (Elt F)),
    StableHlo.unary main_arg7 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S12288x64 ![0, 1] bcast_S1x64_S12288x64_0_1 : (⟨S1x64, .f32⟩ : BufTy).Contents (Elt F) → (⟨S12288x64, .f32⟩ : BufTy).Contents (Elt F)),
    StableHlo.binary main_v54 main_v56 main_v57 (addf : (⟨S12288x64, .f32⟩ : BufTy).Contents (Elt F) → (⟨S12288x64, .f32⟩ : BufTy).Contents (Elt F) → (⟨S12288x64, .f32⟩ : BufTy).Contents (Elt F)),
    StableHlo.nullary main_cst_10 (constant S_ .f32 0x00000000#32),
    StableHlo.binary main_v57 main_cst_10 main_v58 ((fun x v => Host.reduceAdd x v reducesTo_S12288x64_S64_d0 h_S_) : (⟨S12288x64, .f32⟩ : BufTy).Contents (Elt F) → (⟨S_, .f32⟩ : BufTy).Contents (Elt F) → (⟨S64, .f32⟩ : BufTy).Contents (Elt F)),
    StableHlo.nullary main_cst_11 (constant S_ .f32 0x46400000#32),
    StableHlo.unary main_cst_11 main_v59 (broadcastInDim S64 ![] bcast_S_S64 : (⟨S_, .f32⟩ : BufTy).Contents (Elt F) → (⟨S64, .f32⟩ : BufTy).Contents (Elt F)),
    StableHlo.binary main_v58 main_v59 main_v60 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary (.of main_call3_cst : StableHlo.TRef sig ⟨S_, .f32⟩) (constant S_ .f32 0x00000000#32),
    StableHlo.TRef.binary (.of main_v57 : StableHlo.TRef sig ⟨S12288x64, .f32⟩) (.of main_call3_cst : StableHlo.TRef sig ⟨S_, .f32⟩) (.of main_call3_v0 : StableHlo.TRef sig ⟨S64, .f32⟩) (fun x v => Host.reduceAdd x v reducesTo_S12288x64_S64_d0 h_S_),
    StableHlo.TRef.unary (.of main_call3_v0 : StableHlo.TRef sig ⟨S64, .f32⟩) (.of main_call3_v1 : StableHlo.TRef sig ⟨S1x64, .f32⟩) (broadcastInDim S1x64 ![1] bcast_S64_S1x64_1),
    StableHlo.TRef.nullary (.of main_call3_cst_0 : StableHlo.TRef sig ⟨S_, .f32⟩) (constant S_ .f32 0x46400000#32),
    StableHlo.TRef.unary (.of main_call3_cst_0 : StableHlo.TRef sig ⟨S_, .f32⟩) (.of main_call3_v2 : StableHlo.TRef sig ⟨S1x64, .f32⟩) (broadcastInDim S1x64 ![] bcast_S_S1x64),
    StableHlo.TRef.binary (.of main_call3_v1 : StableHlo.TRef sig ⟨S1x64, .f32⟩) (.of main_call3_v2 : StableHlo.TRef sig ⟨S1x64, .f32⟩) (.of main_call3_v3 : StableHlo.TRef sig ⟨S1x64, .f32⟩) Host.divf,
    StableHlo.TRef.unary (.of main_call3_v3 : StableHlo.TRef sig ⟨S1x64, .f32⟩) (.of main_call3_v4 : StableHlo.TRef sig ⟨S12288x64, .f32⟩) (broadcastInDim S12288x64 ![0, 1] bcast_S1x64_S12288x64_0_1),
    StableHlo.TRef.binary (.of main_v57 : StableHlo.TRef sig ⟨S12288x64, .f32⟩) (.of main_call3_v4 : StableHlo.TRef sig ⟨S12288x64, .f32⟩) (.of main_call3_v5 : StableHlo.TRef sig ⟨S12288x64, .f32⟩) subf,
    StableHlo.TRef.binary (.of main_call3_v5 : StableHlo.TRef sig ⟨S12288x64, .f32⟩) (.of main_call3_v5 : StableHlo.TRef sig ⟨S12288x64, .f32⟩) (.of main_call3_v6 : StableHlo.TRef sig ⟨S12288x64, .f32⟩) mulf,
    StableHlo.TRef.unary (.of main_c_12 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x46400000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S12288x64, .f32⟩) (.of main_call3_cst_2 : StableHlo.TRef sig ⟨S_, .f32⟩) (.of main_call3_v9 : StableHlo.TRef sig ⟨S64, .f32⟩) (fun x v => Host.reduceAdd x v reducesTo_S12288x64_S64_d0 h_S_),
    StableHlo.TRef.unary (.of main_call3_v8 : StableHlo.TRef sig ⟨S_, .f32⟩) (.of main_call3_v10 : StableHlo.TRef sig ⟨S64, .f32⟩) (broadcastInDim S64 ![] bcast_S_S64),
    StableHlo.TRef.binary (.of main_call3_v9 : StableHlo.TRef sig ⟨S64, .f32⟩) (.of main_call3_v10 : StableHlo.TRef sig ⟨S64, .f32⟩) (.of main_call3_v11 : StableHlo.TRef sig ⟨S64, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S64, .f32⟩) (broadcastInDim S64 ![] bcast_S_S64),
    StableHlo.TRef.ternary (.of main_call3_v12 : StableHlo.TRef sig ⟨S_, .i1⟩) (.of main_call3_v11 : StableHlo.TRef sig ⟨S64, .f32⟩) (.of main_call3_call0_v1 : StableHlo.TRef sig ⟨S64, .f32⟩) (.of main_v61 : StableHlo.TRef sig ⟨S64, .f32⟩) (fun p a b => select (broadcastInDim S64 ![] bcast_S_S64 p) a b),
    StableHlo.unary main_v60 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S12288x64 ![0, 1] bcast_S1x64_S12288x64_0_1 : (⟨S1x64, .f32⟩ : BufTy).Contents (Elt F) → (⟨S12288x64, .f32⟩ : BufTy).Contents (Elt F)),
    StableHlo.binary main_v57 main_v63 main_v64 (subf : (⟨S12288x64, .f32⟩ : BufTy).Contents (Elt F) → (⟨S12288x64, .f32⟩ : BufTy).Contents (Elt F) → (⟨S12288x64, .f32⟩ : BufTy).Contents (Elt F)),
    StableHlo.nullary main_cst_13 (constant S_ .f32 0x3727C5AC#32),
    StableHlo.unary main_cst_13 main_v65 (broadcastInDim S64 ![] bcast_S_S64 : (⟨S_, .f32⟩ : BufTy).Contents (Elt F) → (⟨S64, .f32⟩ : BufTy).Contents (Elt F)),
    StableHlo.binary main_v61 main_v65 main_v66 (addf : (⟨S64, .f32⟩ : BufTy).Contents (Elt F) → (⟨S64, .f32⟩ : BufTy).Contents (Elt F) → (⟨S64, .f32⟩ : BufTy).Contents (Elt F)),
    StableHlo.unary main_v66 main_v67 (Host.rsqrt : (⟨S64, .f32⟩ : BufTy).Contents (Elt F) → (⟨S64, .f32⟩ : BufTy).Contents (Elt F)),
    StableHlo.unary main_v67 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S12288x64 ![0, 1] bcast_S1x64_S12288x64_0_1 : (⟨S1x64, .f32⟩ : BufTy).Contents (Elt F) → (⟨S12288x64, .f32⟩ : BufTy).Contents (Elt F)),
    StableHlo.binary main_v64 main_v69 main_v70 (mulf : (⟨S12288x64, .f32⟩ : BufTy).Contents (Elt F) → (⟨S12288x64, .f32⟩ : BufTy).Contents (Elt F) → (⟨S12288x64, .f32⟩ : BufTy).Contents (Elt F)),
    StableHlo.unary main_arg8 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S12288x64 ![0, 1] bcast_S1x64_S12288x64_0_1 : (⟨S1x64, .f32⟩ : BufTy).Contents (Elt F) → (⟨S12288x64, .f32⟩ : BufTy).Contents (Elt F)),
    StableHlo.binary main_v70 main_v72 main_v73 (mulf : (⟨S12288x64, .f32⟩ : BufTy).Contents (Elt F) → (⟨S12288x64, .f32⟩ : BufTy).Contents (Elt F) → (⟨S12288x64, .f32⟩ : BufTy).Contents (Elt F)),
    StableHlo.unary main_arg9 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S12288x64 ![0, 1] bcast_S1x64_S12288x64_0_1 : (⟨S1x64, .f32⟩ : BufTy).Contents (Elt F) → (⟨S12288x64, .f32⟩ : BufTy).Contents (Elt F)),
    StableHlo.binary main_v73 main_v75 main_v76 (addf : (⟨S12288x64, .f32⟩ : BufTy).Contents (Elt F) → (⟨S12288x64, .f32⟩ : BufTy).Contents (Elt F) → (⟨S12288x64, .f32⟩ : BufTy).Contents (Elt F)) ]

/-- @main is that straight line: a call unfolds to its callee's body at the call's buffers, and sequencing a line
    that ends in a return before the rest is the longer line, all by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    nullary_bufs_sub .., unary_bufs_sub .., ternary_bufs_sub .., nullary_bufs_sub .., binary_bufs_sub .., nullary_bufs_sub ..,
    unary_bufs_sub .., binary_bufs_sub .., unary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub ..⟩

/-- The references the operations write, in order: every tensor value of @main and of its calls, and no argument. -/
abbrev written : List (Ref sig .tc) :=
  [ main_v0, main_c, main_v1, main_v2, main_c_0, main_v3, main_v4, main_v5,
    main_c_1, main_v6, main_v7, main_c_2, main_v8, main_v9, main_v10, main_v11,
    main_v12, main_v13, main_cst, main_v14, main_v15, main_cst_3, main_v16, main_cst_4,
    main_v17, main_v18, main_v19, main_cst_5, main_call0_v0, main_call0_v1, main_v20, main_v21,
    main_v22, main_v23, main_v24, main_v25, main_v26, main_v27, main_v28, main_v29,
    main_v30, main_v31, main_v32, main_cst_6, main_v33, main_cst_7, main_v34, main_v35,
    main_c_8, main_call1_cst, main_call1_v0, main_call1_v1, main_call1_cst_0, main_call1_v2, main_call1_v3, main_call1_v4,
    main_call1_v5, main_call1_v6, main_call1_v7, main_call1_cst_1, main_call1_v8, main_call1_cst_2, main_call1_v9, main_call1_v10,
    main_call1_v11, main_call1_cst_3, main_call1_v12, main_call1_cst_4, main_call1_call0_v0, main_call1_call0_v1, main_v36, main_v37,
    main_v38, main_v39, main_cst_9, main_v40, main_v41, main_v42, main_v43, main_v44,
    main_v45, main_v46, main_v47, main_v48, main_v49, main_v50, main_v51, main_call2_cst,
    main_call2_v0, main_v52, main_v53, main_v54, main_v55, main_v56, main_v57, main_cst_10,
    main_v58, main_cst_11, main_v59, main_v60, main_c_12, main_call3_cst, main_call3_v0, main_call3_v1,
    main_call3_cst_0, main_call3_v2, main_call3_v3, main_call3_v4, main_call3_v5, main_call3_v6, main_call3_v7, main_call3_cst_1,
    main_call3_v8, main_call3_cst_2, main_call3_v9, main_call3_v10, main_call3_v11, main_call3_cst_3, main_call3_v12, main_call3_cst_4,
    main_call3_call0_v0, main_call3_call0_v1, main_v61, main_v62, main_v63, main_v64, main_cst_13, main_v65,
    main_v66, main_v67, main_v68, main_v69, main_v70, main_v71, main_v72, main_v73,
    main_v74, main_v75, main_v76 ]

/-- An operation whose one result is a listed reference writes inside the list. -/
theorem writes_mem {op : HloOp τ sig (Elt F)} {y : Ref sig .tc} (h : op.writes = {Proc.devRef .tc y}) (hy : y ∈ written) :
    op.writes ⊆ (written.map (Proc.devRef (τ := τ) .tc)).toFinset := by
  rw [h]
  exact Finset.singleton_subset_iff.mpr (List.mem_toFinset.mpr (List.mem_map_of_mem hy))

theorem writes_sub : (ops : List (HloOp τ sig (Elt F))).Forall fun op =>
    op.writes ⊆ (written.map (Proc.devRef (τ := τ) .tc)).toFinset :=
  ⟨writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide), writes_mem rfl (by decide),
    writes_mem rfl (by decide), writes_mem rfl (by decide), writes_mem rfl (by decide)⟩

/-- From any memory with zero counters every weakly fair execution of @main terminates, each TensorCore buffer at
    the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-- A reference the list does not hold keeps its launch contents through the fold. -/
theorem kept (m : (ℓ : Loc nD τ sig) → Buf (Elt F) ℓ) (c : Dev nD) {r : Ref sig .tc} (hr : r ∉ written) :
    after (ops (F := F)) (launchContents m c) (Proc.devRef .tc r) = m ((c.tc : Thread nD τ).loc r) :=
  after_of_writes_sub ops (launchContents m c) writes_sub hr

theorem arg0_kept (m : (ℓ : Loc nD τ sig) → Buf (Elt F) ℓ) (c : Dev nD) :
    after (ops (F := F)) (launchContents m c) (Proc.devRef .tc main_arg0) = m ((c.tc : Thread nD τ).loc main_arg0) :=
  kept m c (by decide)
theorem arg1_kept (m : (ℓ : Loc nD τ sig) → Buf (Elt F) ℓ) (c : Dev nD) :
    after (ops (F := F)) (launchContents m c) (Proc.devRef .tc main_arg1) = m ((c.tc : Thread nD τ).loc main_arg1) :=
  kept m c (by decide)
theorem arg2_kept (m : (ℓ : Loc nD τ sig) → Buf (Elt F) ℓ) (c : Dev nD) :
    after (ops (F := F)) (launchContents m c) (Proc.devRef .tc main_arg2) = m ((c.tc : Thread nD τ).loc main_arg2) :=
  kept m c (by decide)
theorem arg3_kept (m : (ℓ : Loc nD τ sig) → Buf (Elt F) ℓ) (c : Dev nD) :
    after (ops (F := F)) (launchContents m c) (Proc.devRef .tc main_arg3) = m ((c.tc : Thread nD τ).loc main_arg3) :=
  kept m c (by decide)
theorem arg4_kept (m : (ℓ : Loc nD τ sig) → Buf (Elt F) ℓ) (c : Dev nD) :
    after (ops (F := F)) (launchContents m c) (Proc.devRef .tc main_arg4) = m ((c.tc : Thread nD τ).loc main_arg4) :=
  kept m c (by decide)
theorem arg5_kept (m : (ℓ : Loc nD τ sig) → Buf (Elt F) ℓ) (c : Dev nD) :
    after (ops (F := F)) (launchContents m c) (Proc.devRef .tc main_arg5) = m ((c.tc : Thread nD τ).loc main_arg5) :=
  kept m c (by decide)
theorem arg6_kept (m : (ℓ : Loc nD τ sig) → Buf (Elt F) ℓ) (c : Dev nD) :
    after (ops (F := F)) (launchContents m c) (Proc.devRef .tc main_arg6) = m ((c.tc : Thread nD τ).loc main_arg6) :=
  kept m c (by decide)
theorem arg7_kept (m : (ℓ : Loc nD τ sig) → Buf (Elt F) ℓ) (c : Dev nD) :
    after (ops (F := F)) (launchContents m c) (Proc.devRef .tc main_arg7) = m ((c.tc : Thread nD τ).loc main_arg7) :=
  kept m c (by decide)
theorem arg8_kept (m : (ℓ : Loc nD τ sig) → Buf (Elt F) ℓ) (c : Dev nD) :
    after (ops (F := F)) (launchContents m c) (Proc.devRef .tc main_arg8) = m ((c.tc : Thread nD τ).loc main_arg8) :=
  kept m c (by decide)
theorem arg9_kept (m : (ℓ : Loc nD τ sig) → Buf (Elt F) ℓ) (c : Dev nD) :
    after (ops (F := F)) (launchContents m c) (Proc.devRef .tc main_arg9) = m ((c.tc : Thread nD τ).loc main_arg9) :=
  kept m c (by decide)

/-- @main runs and its arguments end as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_arg0).trans (arg0_kept m c),
     (h c main_arg1).trans (arg1_kept m c),
     (h c main_arg2).trans (arg2_kept m c),
     (h c main_arg3).trans (arg3_kept m c),
     (h c main_arg4).trans (arg4_kept m c),
     (h c main_arg5).trans (arg5_kept m c),
     (h c main_arg6).trans (arg6_kept m c),
     (h c main_arg7).trans (arg7_kept m c),
     (h c main_arg8).trans (arg8_kept m c),
     (h c main_arg9).trans (arg9_kept m c)⟩)
    (run m ρ)

end Cert.ReferenceIdeal.Run

end
-- ==== Proof.RStages.lean ====
import proofs.«171011_j28046136442917_2_alg».proof.Proof.RefRun
import proofs.«171011_j28046136442917_2_alg».proof.Proof.RTerms
import Idealize.ShloMosaic.Lib.StableHlo.Run
import Idealize.ShloMosaic.Lib.Tactic

/-!
# The reference's run, read back to its stages

The run of the reference leaves every buffer at the fold of the program's operations over the
launch contents. Here that fold is read at the result buffer as the composition of the stage
functions: the adjacency with self-loops, the inverse root degrees, the transposed normalised
adjacency, and two layers of (messages, aggregation plus bias, batch normalisation).
-/

noncomputable section

namespace Cert.ReferenceIdeal.RS

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-- The fold over a concatenation is the fold over the second list after the fold over the first. -/
theorem after_append' (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-! ## The program in seven stretches

Operations 1–21 build the adjacency with self-loops; 22–31 the inverse root degrees; 32–38 the transposed normalised
adjacency; 39–43 the first layer before normalisation; 44–90 its normalisation and positive part; 91–95 the second
layer before normalisation; 96–139 its normalisation. -/

def s1 : List (HloOp τ sig (Elt F)) := (ops.drop 0).take 21
def s2 : List (HloOp τ sig (Elt F)) := (ops.drop 21).take 10
def s3 : List (HloOp τ sig (Elt F)) := (ops.drop 31).take 7
def s4 : List (HloOp τ sig (Elt F)) := (ops.drop 38).take 5
def s5 : List (HloOp τ sig (Elt F)) := (ops.drop 43).take 47
def s6 : List (HloOp τ sig (Elt F)) := (ops.drop 90).take 5
def s7 : List (HloOp τ sig (Elt F)) := (ops.drop 95).take 44

theorem ops_split : (ops (F := F)) = s1 ++ (s2 ++ (s3 ++ (s4 ++ (s5 ++ (s6 ++ s7))))) := by
  rfl

/-! ## Each stretch's result as a function of what it reads -/

theorem st1 (V : Valuation τ sig (Elt F)) :
    StableHlo.after (s1 (F := F)) V (no_index (Proc.devRef .tc main_v15)) = RV.ahat (V (Proc.devRef .tc main_arg1)) := by
  simp only [s1, ops, List.take_succ_cons, List.drop_succ_cons, List.take_zero, List.drop_zero]
  after_results_simp
  rfl

theorem st2 (V : Valuation τ sig (Elt F)) :
    StableHlo.after (s2 (F := F)) V (no_index (Proc.devRef .tc main_v20)) = RV.dinv (V (Proc.devRef .tc main_v15)) := by
  simp only [s2, ops, List.take_succ_cons, List.drop_succ_cons, List.take_zero, List.drop_zero]
  after_results_simp
  rfl

theorem st2_v15 (V : Valuation τ sig (Elt F)) :
    StableHlo.after (s2 (F := F)) V (no_index (Proc.devRef .tc main_v15)) = (V (Proc.devRef .tc main_v15)) := by
  simp only [s2, ops, List.take_succ_cons, List.drop_succ_cons, List.take_zero, List.drop_zero]
  after_results_simp

theorem st3 (V : Valuation τ sig (Elt F)) :
    StableHlo.after (s3 (F := F)) V (no_index (Proc.devRef .tc main_v27)) = RV.anT (V (Proc.devRef .tc main_v15)) (V (Proc.devRef .tc main_v20)) := by
  simp only [s3, ops, List.take_succ_cons, List.drop_succ_cons, List.take_zero, List.drop_zero]
  after_results_simp
  rfl

theorem st4 (V : Valuation τ sig (Elt F)) :
    StableHlo.after (s4 (F := F)) V (no_index (Proc.devRef .tc main_v32))
      = RV.z128 (V (Proc.devRef .tc main_v27)) (RV.msg1 (V (Proc.devRef .tc main_arg0)) (V (Proc.devRef .tc main_arg2))) (V (Proc.devRef .tc main_arg3)) := by
  simp only [s4, ops, List.take_succ_cons, List.drop_succ_cons, List.take_zero, List.drop_zero]
  after_results_simp
  rfl

theorem st4_v27 (V : Valuation τ sig (Elt F)) :
    StableHlo.after (s4 (F := F)) V (no_index (Proc.devRef .tc main_v27)) = (V (Proc.devRef .tc main_v27)) := by
  simp only [s4, ops, List.take_succ_cons, List.drop_succ_cons, List.take_zero, List.drop_zero]
  after_results_simp

theorem st5 (V : Valuation τ sig (Elt F)) :
    StableHlo.after (s5 (F := F)) V (no_index (Proc.devRef .tc main_v52))
      = RV.bnRelu128 (V (Proc.devRef .tc main_v32)) (V (Proc.devRef .tc main_arg4)) (V (Proc.devRef .tc main_arg5)) := by
  simp only [s5, ops, List.take_succ_cons, List.drop_succ_cons, List.take_zero, List.drop_zero]
  after_results_simp
  rfl

theorem st5_v27 (V : Valuation τ sig (Elt F)) :
    StableHlo.after (s5 (F := F)) V (no_index (Proc.devRef .tc main_v27)) = (V (Proc.devRef .tc main_v27)) := by
  simp only [s5, ops, List.take_succ_cons, List.drop_succ_cons, List.take_zero, List.drop_zero]
  after_results_simp

theorem st6 (V : Valuation τ sig (Elt F)) :
    StableHlo.after (s6 (F := F)) V (no_index (Proc.devRef .tc main_v57))
      = RV.z64 (V (Proc.devRef .tc main_v27)) (RV.msg2 (V (Proc.devRef .tc main_v52)) (V (Proc.devRef .tc main_arg6))) (V (Proc.devRef .tc main_arg7)) := by
  simp only [s6, ops, List.take_succ_cons, List.drop_succ_cons, List.take_zero, List.drop_zero]
  after_results_simp
  rfl

theorem st7 (V : Valuation τ sig (Elt F)) :
    StableHlo.after (s7 (F := F)) V (no_index (Proc.devRef .tc main_v76))
      = RV.bn64 (V (Proc.devRef .tc main_v57)) (V (Proc.devRef .tc main_arg8)) (V (Proc.devRef .tc main_arg9)) := by
  simp only [s7, ops, List.take_succ_cons, List.drop_succ_cons, List.take_zero, List.drop_zero]
  after_results_simp
  rfl

/-! ## The arguments pass through every stretch: no operation writes one -/

/-- The arguments the stretches after the first read. -/
def argl : List (Ref sig .tc) :=
  [main_arg0, main_arg2, main_arg3, main_arg4, main_arg5, main_arg6, main_arg7, main_arg8, main_arg9]

theorem arg_not_written : ∀ op ∈ (ops (F := F)), ∀ r ∈ argl, Proc.devRef (τ := τ) .tc r ∉ op.writes := by
  refine List.forall_iff_forall_mem.mp ?_
  simp only [ops, List.Forall, nullary_writes, unary_writes, binary_writes, ternary_writes, Finset.mem_singleton]
  repeat' apply And.intro
  all_goals exact fun r hr => devRef_ne_of_ne (by revert r hr; decide)

theorem arg_kept_seg (a b : Nat) (V : Valuation τ sig (Elt F)) {r : Ref sig .tc} (hr : r ∈ argl) :
    StableHlo.after (((ops (F := F)).drop a).take b) V (Proc.devRef .tc r) = V (Proc.devRef .tc r) :=
  after_of_forall_not_mem _ V fun op hop => arg_not_written op (List.mem_of_mem_drop (List.mem_of_mem_take hop)) r hr

theorem arg_kept1 (V : Valuation τ sig (Elt F)) {r : Ref sig .tc} (hr : r ∈ argl) :
    StableHlo.after (s1 (F := F)) V (no_index (Proc.devRef .tc r)) = V (Proc.devRef .tc r) := arg_kept_seg _ _ V hr
theorem arg_kept2 (V : Valuation τ sig (Elt F)) {r : Ref sig .tc} (hr : r ∈ argl) :
    StableHlo.after (s2 (F := F)) V (no_index (Proc.devRef .tc r)) = V (Proc.devRef .tc r) := arg_kept_seg _ _ V hr
theorem arg_kept3 (V : Valuation τ sig (Elt F)) {r : Ref sig .tc} (hr : r ∈ argl) :
    StableHlo.after (s3 (F := F)) V (no_index (Proc.devRef .tc r)) = V (Proc.devRef .tc r) := arg_kept_seg _ _ V hr
theorem arg_kept4 (V : Valuation τ sig (Elt F)) {r : Ref sig .tc} (hr : r ∈ argl) :
    StableHlo.after (s4 (F := F)) V (no_index (Proc.devRef .tc r)) = V (Proc.devRef .tc r) := arg_kept_seg _ _ V hr
theorem arg_kept5 (V : Valuation τ sig (Elt F)) {r : Ref sig .tc} (hr : r ∈ argl) :
    StableHlo.after (s5 (F := F)) V (no_index (Proc.devRef .tc r)) = V (Proc.devRef .tc r) := arg_kept_seg _ _ V hr
theorem arg_kept6 (V : Valuation τ sig (Elt F)) {r : Ref sig .tc} (hr : r ∈ argl) :
    StableHlo.after (s6 (F := F)) V (no_index (Proc.devRef .tc r)) = V (Proc.devRef .tc r) := arg_kept_seg _ _ V hr

/-! ## The result buffer -/

/-- The result buffer after the run is the second layer's normalisation of the second layer's
    aggregation of the first layer's rectified normalisation, all over the launch's arguments. -/
theorem out_eq (m : (ℓ : Loc nD τ sig) → Buf (Elt F) ℓ) (c : Dev nD) :
    StableHlo.after (ops (F := F)) (launchContents m c) (Proc.devRef .tc main_v76)
      = RV.bn64
          (RV.z64
            (RV.anT (RV.ahat (m ((c.tc : Thread nD τ).loc main_arg1))) (RV.dinv (RV.ahat (m ((c.tc : Thread nD τ).loc main_arg1)))))
            (RV.msg2
              (RV.bnRelu128
                (RV.z128
                  (RV.anT (RV.ahat (m ((c.tc : Thread nD τ).loc main_arg1))) (RV.dinv (RV.ahat (m ((c.tc : Thread nD τ).loc main_arg1)))))
                  (RV.msg1 (m ((c.tc : Thread nD τ).loc main_arg0)) (m ((c.tc : Thread nD τ).loc main_arg2)))
                  (m ((c.tc : Thread nD τ).loc main_arg3)))
                (m ((c.tc : Thread nD τ).loc main_arg4)) (m ((c.tc : Thread nD τ).loc main_arg5)))
              (m ((c.tc : Thread nD τ).loc main_arg6)))
            (m ((c.tc : Thread nD τ).loc main_arg7)))
          (m ((c.tc : Thread nD τ).loc main_arg8)) (m ((c.tc : Thread nD τ).loc main_arg9)) := by
  rw [ops_split, after_append', after_append', after_append', after_append', after_append', after_append']
  simp (disch := decide) only [st7, st6, st5, st5_v27, st4, st4_v27, st3, st2, st2_v15, st1,
    arg_kept6, arg_kept5, arg_kept4, arg_kept3, arg_kept2, arg_kept1]

end Cert.ReferenceIdeal.RS

end
-- ==== Proof.PreFacts.lean ====
/-
  The precondition read back at the adjacency matrix.  The predicate is the conjunction, over the ten argument
  arrays, of "every entry has absolute value below +∞", and of "every entry of the adjacency matrix is at least 0".
  From its value 1 we keep the two conjuncts about the adjacency matrix: an entry a with max a (-a) < ⊤ is not ⊤,
  and an entry with 0 ≤ a is not ⊥; so every entry is a nonnegative real.
-/
import proofs.«171011_j28046136442917_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal
import Idealize.ShloMosaic.PureOps.Ideal.Laws

noncomputable section

namespace Cert.PreFacts

open Idealize.ShloMosaic Cert.Pre_finite_inputs

/-- The rank-0 shape has one index. -/
instance subsingleton_S_Idx : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The pattern 0x7F800000 denotes +∞. -/
theorem ofBits_inf_f32 : Ideal.ofBits .f32 0x7F800000#32 = (⊤ : EReal) := by
  simp [Ideal.ofBits, Ideal.ieee]

/-- An extended real whose absolute value is below +∞ and which is at least 0 is a nonnegative real. -/
theorem real_of_abs_lt_top_of_nonneg (a : EReal) (h1 : max a (-a) < ⊤) (h2 : (0 : EReal) ≤ a) :
    ∃ r : ℝ, 0 ≤ r ∧ a = (r : EReal) := by
  induction a using EReal.rec with
  | bot => exact absurd h2 (by simp)
  | top => exact absurd h1 (by simp)
  | coe r => exact ⟨r, by exact_mod_cast h2, rfl⟩

/-- The precondition decoded at the adjacency matrix: every entry is a nonnegative real. -/
theorem adj_nonneg_real [Cert.Pre_finite_inputs.Facts]
    (a0 : FVec Ideal S12288x256 .f32) (a1 : FVec Ideal S12288x12288 .f32) (a2 : FVec Ideal S256x128 .f32)
    (a3 a4 a5 : FVec Ideal S128 .f32) (a6 : FVec Ideal S128x64 .f32) (a7 a8 a9 : FVec Ideal S64 .f32)
    (h : Cert.Pre_finite_inputs.fn (F := Ideal) a0 a1 a2 a3 a4 a5 a6 a7 a8 a9 = fun _ => 1#1) :
    ∀ i, ∃ r : ℝ, 0 ≤ r ∧ a1 i = (r : EReal) := by
  intro i
  have e := congrFun h ValueIdx.ix0
  dsimp only [fn, fn_part1, fn_part2, fn_part3, andi] at e
  simp only [IntOp.andi_eq_one] at e
  obtain ⟨⟨⟨⟨⟨⟨⟨⟨⟨⟨-, hfin⟩, -⟩, -⟩, -⟩, -⟩, -⟩, -⟩, -⟩, -⟩, hge⟩ := e
  have h1 := Host.reduce_andi_all _ _ _ _ _ hfin i
  have h2 := Host.reduce_andi_all _ _ _ _ _ hge i
  have h1' : Ideal.cmp .olt (max (a1 i) (-(a1 i))) (Ideal.ofBits .f32 0x7F800000#32) = 1#1 := h1
  have h2' : Ideal.cmp .oge (a1 i) (Ideal.ofBits .f32 0x00000000#32) = 1#1 := h2
  rw [ofBits_inf_f32] at h1'
  rw [Ideal.ofBits_zero_f32] at h2'
  unfold Ideal.cmp at h1' h2'
  rw [ofBool_eq_one] at h1' h2'
  exact real_of_abs_lt_top_of_nonneg (a1 i) (of_decide_eq_true h1') (of_decide_eq_true h2')

end Cert.PreFacts

end
-- ==== Proof.lean ====
/-
  The certificate of a two-layer graph convolution with batch normalisation: a Pallas program of three kernels (the
  column sums of the adjacency fused with a half-width copy of it; the aggregation `adjᵀ · (dinv · msg)`, block by block,
  once per layer) against its jnp reference, over the extended reals, for finite inputs and a NONNEGATIVE adjacency.

  With `deg j = ∑ i, adj i j + 1 ≥ 1` and `dinv = deg^(-1/2)`, the kernel's layer is
  `dinv a · (∑ b, adj b a · (dinv b · msg b) + dinv a · msg a) + bias`, the last summand being the self-loop; the reference
  builds `adj + I`, normalises it on both sides (its guard for a non-positive degree never fires) and applies its transpose to
  the messages. The two are equal because nonnegative real coefficients distribute over sums of extended reals
  (`Spec.agg_identity`, `Bridge`); the batch normalisations are the same operations in both programs. Nonnegativity is
  used: a negative entry can make a degree vanish, where the kernel's `rsqrt` is infinite and the reference's guard
  gives zero.

  The frames of the two kernel programs are the generated frame certificates; the reference's frame and run are
  `RefRun`; the kernel program's result is read off its run in `KRun`, `KStages`, `Region0/1/2`, `KGlue`; the reference's in
  `RStages`; the precondition is decoded in `PreFacts`.
-/
import proofs.«171011_j28046136442917_2_alg».proof.Defs
import proofs.«171011_j28046136442917_2_alg».proof.Proof.Gen.Kernel
import proofs.«171011_j28046136442917_2_alg».proof.Proof.Gen.Kernel.Skeleton
import proofs.«171011_j28046136442917_2_alg».proof.Proof.Gen.Kernel.Launch
import proofs.«171011_j28046136442917_2_alg».proof.Proof.Gen.Kernel.Points
import proofs.«171011_j28046136442917_2_alg».proof.Proof.Gen.Kernel.Frame
import proofs.«171011_j28046136442917_2_alg».proof.Proof.Gen.KernelIdeal
import proofs.«171011_j28046136442917_2_alg».proof.Proof.Gen.KernelIdeal.Skeleton
import proofs.«171011_j28046136442917_2_alg».proof.Proof.Gen.KernelIdeal.Launch
import proofs.«171011_j28046136442917_2_alg».proof.Proof.Gen.KernelIdeal.Points
import proofs.«171011_j28046136442917_2_alg».proof.Proof.Gen.KernelIdeal.Frame
import proofs.«171011_j28046136442917_2_alg».proof.Proof.Gen.ReferenceIdeal
import proofs.«171011_j28046136442917_2_alg».proof.Proof.Gen.Pre_finite_inputs
import proofs.«171011_j28046136442917_2_alg».proof.Proof.KRun
import proofs.«171011_j28046136442917_2_alg».proof.Proof.KGlue
import proofs.«171011_j28046136442917_2_alg».proof.Proof.RefRun
import proofs.«171011_j28046136442917_2_alg».proof.Proof.RStages
import proofs.«171011_j28046136442917_2_alg».proof.Proof.PreFacts
import proofs.«171011_j28046136442917_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Run.frame m ρ

/-- The ideal pass rewrote nothing. -/
theorem preserves : Cert.preserves_Kernel_KernelIdeal := trivial

/-- Both programs end with the result at one array: the kernel program's result is `Bridge.kout` of its arguments,
    the reference's `Bridge.rout` of its own, the arguments agree, and the adjacency is nonnegative and real by the
    precondition. -/
theorem algebraic : Cert.algebraic_KernelIdeal_ReferenceIdeal := by
  intro m ρ m' ρ' hpre hagree
  refine ⟨fun c => Cert.KernelIdeal.Gen.W12 m ρ c (Proc.devRef .tc Cert.KernelIdeal.main_v63), ?_, ?_⟩
  · exact Cert.KernelIdeal.GenP.run_main (F := Ideal) m ρ
  · refine (θ_run Cert.ReferenceIdeal.defs _ _).mono (fun r h c => ⟨?_, ?_⟩) (Cert.ReferenceIdeal.Run.run (F := Ideal) m' ρ')
    · have hadj : Cert.Bridge.NonnegReal (m ((c.tc : Thread Cert.KernelIdeal.nD Cert.KernelIdeal.τ).loc Cert.KernelIdeal.main_arg1)) :=
        Cert.PreFacts.adj_nonneg_real _ _ _ _ _ _ _ _ _ _ (hpre c)
      refine (h c Cert.ReferenceIdeal.main_v76).trans ?_
      show _ = Cert.KernelIdeal.Gen.W12 m ρ c (Proc.devRef .tc Cert.KernelIdeal.main_v63)
      rw [Cert.ReferenceIdeal.RS.out_eq, Cert.KernelIdeal.KG.kout_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2]
      exact (Cert.Bridge.out_bridge _ hadj _ _ _ _ _ _ _ _ _).symm
    · exact ⟨(h c _).trans (Cert.ReferenceIdeal.Run.arg0_kept m' c), (h c _).trans (Cert.ReferenceIdeal.Run.arg1_kept m' c),
        (h c _).trans (Cert.ReferenceIdeal.Run.arg2_kept m' c), (h c _).trans (Cert.ReferenceIdeal.Run.arg3_kept m' c),
        (h c _).trans (Cert.ReferenceIdeal.Run.arg4_kept m' c), (h c _).trans (Cert.ReferenceIdeal.Run.arg5_kept m' c),
        (h c _).trans (Cert.ReferenceIdeal.Run.arg6_kept m' c), (h c _).trans (Cert.ReferenceIdeal.Run.arg7_kept m' c),
        (h c _).trans (Cert.ReferenceIdeal.Run.arg8_kept m' c), (h c _).trans (Cert.ReferenceIdeal.Run.arg9_kept m' c)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
